-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v17_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S128x384 : Shape := ⟨2, ![128, 384]⟩
abbrev S128 : Shape := ⟨1, ![128]⟩
abbrev S128x256 : Shape := ⟨2, ![128, 256]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part4 {F : FTy → Type} [FloatOps F] (main_arg2 : IVec S2x600000 32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S2x600000 32 := broadcastInDim S2x600000 ![] bcast_S_S2x600000 main_c_28
  let main_v75 : IVec S2x600000 1 := cmpi .sge main_arg2 main_v74
  let main_c_29 : IVec S_ 32 := constantI S_ 32 100000#32
  let main_v76 : IVec S2x600000 32 := broadcastInDim S2x600000 ![] bcast_S_S2x600000 main_c_29
  let main_v77 : IVec S2x600000 1 := cmpi .slt main_arg2 main_v76
  let main_v78 : IVec S2x600000 1 := andi main_v75 main_v77
  let main_c_30 : IVec S_ 1 := constantI S_ 1 1#1
  let main_v79 : IVec S_ 1 := (fun x v => Host.reduce IntOp.andi x v reducesTo_S2x600000_S_d0_1 h_S_) main_v78 main_c_30
  let main_v80 : IVec S_ 1 := andi main_v73 main_v79
  main_v80

def fn_part3 {F : FTy → Type} [FloatOps F] (main_arg2 : IVec S2x600000 32) (main_arg12 : FVec F S128x128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_v63 main_v67

def fn_part2 {F : FTy → Type} [FloatOps F] (main_arg2 : IVec S2x600000 32) (main_arg8 : FVec F S128x256 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_arg15 main_v48 main_v49 main_v50

def fn_part1 {F : FTy → Type} [FloatOps F] (main_arg2 : IVec S2x600000 32) (main_arg5 : FVec F S128 .f32) (main_arg6 : FVec F S128 .f32) (main_arg7 : FVec F S128 .f32) (main_arg8 : FVec F S128x256 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_arg14 main_arg15 main_v33

def fn {F : FTy → Type} [FloatOps F] (main_arg0 : FVec F S100000x128 .f32) (main_arg1 : FVec F S100000x128 .f32) (main_arg2 : IVec S2x600000 32) (main_arg3 : FVec F S600000x128 .f32) (main_arg4 : FVec F S128x384 .f32) (main_arg5 : FVec F S128 .f32) (main_arg6 : FVec F S128 .f32) (main_arg7 : FVec F S128 .f32) (main_arg8 : FVec F S128x256 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S600000x128 .f32 := Host.absf main_arg3
  let main_cst_2 : FVec F S_ .f32 := constant S_ .f32 0x7F800000#32
  let main_v10 : FVec F S600000x128 .f32 := broadcastInDim S600000x128 ![] bcast_S_S600000x128 main_cst_2
  let main_v11 : IVec S600000x128 1 := cmpf .olt main_v9 main_v10
  let main_c_3 : IVec S_ 1 := constantI S_ 1 1#1
  let main_v12 : IVec S_ 1 := (fun x v => Host.reduce IntOp.andi x v reducesTo_S600000x128_S_d0_1 h_S_) main_v11 main_c_3
  let main_v13 : IVec S_ 1 := andi main_v8 main_v12
  let main_v14 : FVec F S128x384 .f32 := Host.absf main_arg4
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg2 main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S128x384 : Shape := ⟨2, ![128, 384]⟩
abbrev S128 : Shape := ⟨1, ![128]⟩
abbrev S128x256 : Shape := ⟨2, ![128, 256]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 96
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x600000, .i32⟩
  | .hbm, ⟨3, _⟩ => ⟨S600000x128, .f32⟩
  | .hbm, ⟨4, _⟩ => ⟨S128x384, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S1, .i32⟩
  | .hbm, ⟨29, _⟩ => ⟨S_, .i32⟩
  | .hbm, ⟨30, _⟩ => ⟨S600000x1, .i32⟩
  | .hbm, ⟨31, _⟩ => ⟨S600000x1, .i1⟩
  | .hbm, ⟨32, _⟩ => ⟨S1x1, .i32⟩
  | .hbm, ⟨33, _⟩ => ⟨S600000x1, .i32⟩
  | .hbm, ⟨34, _⟩ => ⟨S600000x1, .i1⟩
  | .hbm, ⟨35, _⟩ => ⟨S600000x1, .i1⟩
  | .hbm, ⟨36, _⟩ => ⟨S_, .i1⟩
  | .hbm, ⟨37, _⟩ => ⟨S600000, .i1⟩
  | .hbm, ⟨38, _⟩ => ⟨S600000x128, .f32⟩
  | .hbm, ⟨39, _⟩ => ⟨S600000x128, .i1⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S600000x128, .bf16⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S1, .i32⟩
  | .hbm, ⟨53, _⟩ => ⟨S_, .i32⟩
  | .hbm, ⟨54, _⟩ => ⟨S600000x1, .i32⟩
  | .hbm, ⟨55, _⟩ => ⟨S600000x1, .i1⟩
  | .hbm, ⟨56, _⟩ => ⟨S1x1, .i32⟩
  | .hbm, ⟨57, _⟩ => ⟨S600000x1, .i32⟩
  | .hbm, ⟨58, _⟩ => ⟨S600000x1, .i1⟩
  | .hbm, ⟨59, _⟩ => ⟨S600000x1, .i1⟩
  | .hbm, ⟨60, _⟩ => ⟨S_, .i1⟩
  | .hbm, ⟨61, _⟩ => ⟨S600000, .i1⟩
  | .hbm, ⟨62, _⟩ => ⟨S600000x128, .f32⟩
  | .hbm, ⟨63, _⟩ => ⟨S600000x128, .i1⟩
  | .hbm, ⟨64, _⟩ => ⟨S_, .f32⟩
  | .hbm, ⟨65, _⟩ => ⟨S600000x128, .f32⟩
  | .hbm, ⟨66, _⟩ => ⟨S600000x128, .f32⟩
  | .hbm, ⟨67, _⟩ => ⟨S600000x128, .bf16⟩
  | .hbm, ⟨68, _⟩ => ⟨S128x128, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S100000x128, .f32⟩
  | .hbm, ⟨81, _⟩ => ⟨S600000x1, .i32⟩
  | .hbm, ⟨82, _⟩ => ⟨S100000x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S100000x128, .f32⟩
  | .hbm, ⟨91, _⟩ => ⟨S128x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_v5 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17_0 : Ref sig .tc := ⟨.hbm, 77, rfl⟩
abbrev main_v17_1 : Ref sig .tc := ⟨.hbm, 78, rfl⟩
abbrev main_cst : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bitsLt_bf16_f32 : FTy.bits .bf16 < FTy.bits .f32
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  bcast_S_S100000x128 : S_.BroadcastsInDim S100000x128 (![] : Fin 0 → Fin S100000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S600000x1_S600000x128_1_0_n_n_0_1_1128_wf : GatherDims.WF S100000x128 S600000x1 S600000x128 [1] [0] [] [0] [] 1 ![1, 128]
  dot_S4000x128_S128x128_S4000x128_1_0_0_1_n_n_wf : DotDims.WF S4000x128 S128x128 S4000x128 [1] [0] [0] [1] [] []
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .bf16 = 32 ∨ (Rect.block (s := S600000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .bf16 = 32 ∨ (Rect.block (s := S600000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S600000x128.size a
  hwx0_2 : ∀ i : grid0.Coords, EltTy.bits .f32 = 32 ∨ (Rect.block (s := S600000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S600000x128.size a
  hwx0_9 : ∀ i : grid0.Coords, EltTy.bits .f32 = 32 ∨ (Rect.block (s := S600000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S600000x128.size a
  hwx0_10 : ∀ i : grid0.Coords, EltTy.bits .f32 = 32 ∨ (Rect.block (s := S600000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v5) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S128x384 : Shape := ⟨2, ![128, 384]⟩
abbrev S128 : Shape := ⟨1, ![128]⟩
abbrev S128x256 : Shape := ⟨2, ![128, 256]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S384x128 : Shape := ⟨2, ![384, 128]⟩
abbrev S1x128 : Shape := ⟨2, ![1, 128]⟩
abbrev S100000x256 : Shape := ⟨2, ![100000, 256]⟩
abbrev S256x128 : Shape := ⟨2, ![256, 128]⟩
abbrev S100000 : Shape := ⟨1, ![100000]⟩
abbrev S100000x1 : Shape := ⟨2, ![100000, 1]⟩

abbrev nBuf : Space → Nat
  | .hbm => 203
  | .vmem => 0
  | .smem => 0
  | _ => 0

abbrev hbmTy0_0 (i : Nat) : BufTy := match i % 128 with
  | 0 => ⟨S100000x128, .f32⟩
  | 1 => ⟨S100000x128, .f32⟩
  | 2 => ⟨S2x600000, .i32⟩
  | 3 => ⟨S600000x128, .f32⟩
  | 4 => ⟨S128x384, .f32⟩
  | 5 => ⟨S128, .f32⟩
  | 6 => ⟨S128, .f32⟩
  | 7 => ⟨S128, .f32⟩
  | 8 => ⟨S128x256, .f32⟩
  | 9 => ⟨S128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S1x600000, .i32⟩
  | 17 => ⟨S600000, .i32⟩
  | 18 => ⟨S1x600000, .i32⟩
  | 19 => ⟨S600000, .i32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S600000x384, .f32⟩
  | 39 => ⟨S384x128, .f32⟩
  | 40 => ⟨S600000x128, .f32⟩
  | 41 => ⟨S1x128, .f32⟩
  | 42 => ⟨S600000x128, .f32⟩
  | 43 => ⟨S600000x128, .f32⟩
  | 44 => ⟨S600000x128, .f32⟩
  | 45 => ⟨S600000x128, .f32⟩
  | 46 => ⟨S_, .f32⟩
  | 47 => ⟨S600000x128, .f32⟩
  | 48 => ⟨S600000x128, .f32⟩
  | 49 => ⟨S_, .f32⟩
  | 50 => ⟨S600000x128, .f32⟩
  | 51 => ⟨S600000x128, .f32⟩
  | 52 => ⟨S600000x128, .f32⟩
  | 53 => ⟨S600000x128, .f32⟩
  | 54 => ⟨S600000x128, .f32⟩
  | 55 => ⟨S_, .f32⟩
  | 56 => ⟨S600000x128, .f32⟩
  | 57 => ⟨S600000x128, .f32⟩
  | 58 => ⟨S_, .f32⟩
  | 59 => ⟨S600000x128, .f32⟩
  | 60 => ⟨S600000x128, .f32⟩
  | 61 => ⟨S600000x128, .f32⟩
  | 62 => ⟨S_, .f32⟩
  | 63 => ⟨S600000, .f32⟩
  | 64 => ⟨S600000x1, .f32⟩
  | 65 => ⟨S_, .f32⟩
  | 66 => ⟨S600000x1, .f32⟩
  | 67 => ⟨S600000x1, .f32⟩
  | 68 => ⟨S600000x128, .f32⟩
  | 69 => ⟨S600000x128, .f32⟩
  | 70 => ⟨S600000x128, .f32⟩
  | 71 => ⟨S_, .f32⟩
  | 72 => ⟨S600000, .f32⟩
  | 73 => ⟨S600000x1, .f32⟩
  | 74 => ⟨S_, .f32⟩
  | 75 => ⟨S600000x1, .f32⟩
  | 76 => ⟨S600000x1, .f32⟩
  | 77 => ⟨S600000x128, .f32⟩
  | 78 => ⟨S600000x128, .f32⟩
  | 79 => ⟨S_, .f32⟩
  | 80 => ⟨S600000x1, .f32⟩
  | 81 => ⟨S600000x1, .f32⟩
  | 82 => ⟨S600000x1, .f32⟩
  | 83 => ⟨S600000x128, .f32⟩
  | 84 => ⟨S600000x128, .f32⟩
  | 85 => ⟨S1x128, .f32⟩
  | 86 => ⟨S600000x128, .f32⟩
  | 87 => ⟨S600000x128, .f32⟩
  | 88 => ⟨S1x128, .f32⟩
  | 89 => ⟨S600000x128, .f32⟩
  | 90 => ⟨S600000x128, .f32⟩
  | 91 => ⟨S_, .f32⟩
  | 92 => ⟨S100000x128, .f32⟩
  | 93 => ⟨S600000x1, .i32⟩
  | 94 => ⟨S100000x128, .f32⟩
  | 95 => ⟨S100000x256, .f32⟩
  | 96 => ⟨S256x128, .f32⟩
  | 97 => ⟨S100000x128, .f32⟩
  | 98 => ⟨S1x128, .f32⟩
  | 99 => ⟨S100000x128, .f32⟩
  | 100 => ⟨S100000x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S_, .f32⟩
  | 9 => ⟨S100000x1, .f32⟩
  | 10 => ⟨S100000x1, .f32⟩
  | 11 => ⟨S100000x1, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S128x128, .f32⟩
  | 21 => ⟨S100000x128, .f32⟩
  | 22 => ⟨S1x128, .f32⟩
  | 23 => ⟨S100000x128, .f32⟩
  | 24 => ⟨S100000x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S_, .f32⟩
  | 44 => ⟨S100000, .f32⟩
  | 45 => ⟨S100000x1, .f32⟩
  | 46 => ⟨S_, .f32⟩
  | 47 => ⟨S100000x1, .f32⟩
  | 48 => ⟨S100000x1, .f32⟩
  | 49 => ⟨S100000x128, .f32⟩
  | 50 => ⟨S100000x128, .f32⟩
  | 51 => ⟨S100000x128, .f32⟩
  | 52 => ⟨S_, .f32⟩
  | 53 => ⟨S100000, .f32⟩
  | 54 => ⟨S100000x1, .f32⟩
  | 55 => ⟨S_, .f32⟩
  | 56 => ⟨S100000x1, .f32⟩
  | 57 => ⟨S100000x1, .f32⟩
  | 58 => ⟨S100000x128, .f32⟩
  | 59 => ⟨S100000x128, .f32⟩
  | 60 => ⟨S_, .f32⟩
  | 61 => ⟨S100000x1, .f32⟩
  | 62 => ⟨S100000x1, .f32⟩
  | 63 => ⟨S100000x1, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S100000x128, .f32⟩
  | 73 => ⟨S100000x128, .f32⟩
  | 74 => ⟨S600000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v24 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v25 : Ref sig .tc := ⟨.hbm, 61, rfl⟩
abbrev main_cst : Ref sig .tc := ⟨.hbm, 62, rfl⟩
abbrev main_v26 : Ref sig .tc := ⟨.hbm, 63, rfl⟩
abbrev main_v27 : Ref sig .tc := ⟨.hbm, 64, rfl⟩
abbrev main_cst_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_4 : Ref sig .tc := ⟨.hbm, 71, rfl⟩
abbrev main_v33 : Ref sig .tc := ⟨.hbm, 72, rfl⟩
abbrev main_v34 : Ref sig .tc := ⟨.hbm, 73, rfl⟩
abbrev main_cst_5 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_6 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_7 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v59 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v60 : Ref sig .tc := ⟨.hbm, 118, rfl⟩
abbrev main_cst_8 : Ref sig .tc := ⟨.hbm, 119, rfl⟩
abbrev main_v61 : Ref sig .tc := ⟨.hbm, 120, rfl⟩
abbrev main_v62 : Ref sig .tc := ⟨.hbm, 121, rfl⟩
abbrev main_cst_9 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_10 : Ref sig .tc := ⟨.hbm, 128, rfl⟩
abbrev main_v68 : Ref sig .tc := ⟨.hbm, 129, rfl⟩
abbrev main_v69 : Ref sig .tc := ⟨.hbm, 130, rfl⟩
abbrev main_cst_11 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_12 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_call4_v0 : Ref sig .tc := ⟨.hbm, 153, rfl⟩
abbrev main_call4_v1 : Ref sig .tc := ⟨.hbm, 154, rfl⟩
abbrev main_call4_cst : Ref sig .tc := ⟨.hbm, 155, rfl⟩
abbrev main_call4_v2 : Ref sig .tc := ⟨.hbm, 156, rfl⟩
abbrev main_call4_v3 : Ref sig .tc := ⟨.hbm, 157, rfl⟩
abbrev main_call4_cst_0 : Ref sig .tc := ⟨.hbm, 158, rfl⟩
abbrev main_call4_v4 : Ref sig .tc := ⟨.hbm, 159, rfl⟩
abbrev main_call4_v5 : Ref sig .tc := ⟨.hbm, 160, rfl⟩
abbrev main_v90 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v91 : Ref sig .tc := ⟨.hbm, 170, rfl⟩
abbrev main_cst_13 : Ref sig .tc := ⟨.hbm, 171, rfl⟩
abbrev main_v92 : Ref sig .tc := ⟨.hbm, 172, rfl⟩
abbrev main_v93 : Ref sig .tc := ⟨.hbm, 173, rfl⟩
abbrev main_cst_14 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_cst_15 : Ref sig .tc := ⟨.hbm, 180, rfl⟩
abbrev main_v99 : Ref sig .tc := ⟨.hbm, 181, rfl⟩
abbrev main_v100 : Ref sig .tc := ⟨.hbm, 182, rfl⟩
abbrev main_cst_16 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_cst_17 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  transposes_S128x384_S384x128_1_0 : S128x384.Transposes [1, 0] S384x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  gather_S100000x128_S600000x1_S600000x128_1_0_n_n_0_1_1128_wf : GatherDims.WF S100000x128 S600000x1 S600000x128 [1] [0] [] [0] [] 1 ![1, 128]
  dot_S600000x384_S384x128_S600000x128_1_0_0_1_n_n_wf : DotDims.WF S600000x384 S384x128 S600000x128 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefRunStages.lean ====
/-
  The reference program's run read back over the stage functions.  The program is a straight line of 187 host
  operations, each writing one buffer of its own from buffers written earlier or from the sixteen arguments.  After the
  line has run from any contents W, each of the three returned buffers holds its stage function of W at the argument
  buffers, and every argument buffer holds what it held: the fold of the operations' results over W, read at that
  buffer, computes to exactly that term, one operation at a time.  The run of the whole program then follows from the
  run of a straight line.
-/
import proofs.«418128_j9191230013922_2_alg».proof.Proof.RefOps
import proofs.«418128_j9191230013922_2_alg».proof.Proof.RefStages
import Idealize.ShloMosaic.Lib.StableHlo.Run
import Idealize.ShloMosaic.Lib.Pipeline.Regions

noncomputable section

namespace Cert.ReferenceIdeal.StageRun

open Cert.ReferenceIdeal Cert.ReferenceIdeal.Gen Idealize.ShloMosaic Idealize.ShloMosaic.TcCoe Idealize.SL.Sem Idealize.ShloMosaic.StableHlo

variable {F : FTy → Type} [FloatOps F]

/-! ## The three returned buffers after the line, from any contents -/

set_option maxRecDepth 8192 in
/-- The node block's result: the fold read at its buffer is its stage function of the arguments it depends on. -/
theorem after_v116 (W : Valuation τ sig (Elt F)) :
    after ops W (Proc.devRef .tc main_v116) = Read.val_main_v116 (F := F) (W (Proc.devRef .tc main_arg0)) (W (Proc.devRef .tc main_arg12)) (W (Proc.devRef .tc main_arg13)) (W (Proc.devRef .tc main_arg14)) (W (Proc.devRef .tc main_arg15)) := by
  chain_rfl

set_option maxRecDepth 8192 in
/-- The receiver block's result. -/
theorem after_v117 (W : Valuation τ sig (Elt F)) :
    after ops W (Proc.devRef .tc main_v117) = Read.val_main_v117 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  chain_rfl

set_option maxRecDepth 8192 in
/-- The edge block's result. -/
theorem after_v118 (W : Valuation τ sig (Elt F)) :
    after ops W (Proc.devRef .tc main_v118) = Read.val_main_v118 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  chain_rfl

/-! ## No operation writes an argument buffer -/

theorem after_arg0 (W : Valuation τ sig (Elt F)) :
    after ops W (Proc.devRef .tc main_arg0) = W (Proc.devRef .tc main_arg0) := by
  chain_rfl
theorem after_arg1 (W : Valuation τ sig (Elt F)) :
    after ops W (Proc.devRef .tc main_arg1) = W (Proc.devRef .tc main_arg1) := by
  chain_rfl
theorem after_arg2 (W : Valuation τ sig (Elt F)) :
    after ops W (Proc.devRef .tc main_arg2) = W (Proc.devRef .tc main_arg2) := by
  chain_rfl
theorem after_arg3 (W : Valuation τ sig (Elt F)) :
    after ops W (Proc.devRef .tc main_arg3) = W (Proc.devRef .tc main_arg3) := by
  chain_rfl
theorem after_arg4 (W : Valuation τ sig (Elt F)) :
    after ops W (Proc.devRef .tc main_arg4) = W (Proc.devRef .tc main_arg4) := by
  chain_rfl
theorem after_arg5 (W : Valuation τ sig (Elt F)) :
    after ops W (Proc.devRef .tc main_arg5) = W (Proc.devRef .tc main_arg5) := by
  chain_rfl
theorem after_arg6 (W : Valuation τ sig (Elt F)) :
    after ops W (Proc.devRef .tc main_arg6) = W (Proc.devRef .tc main_arg6) := by
  chain_rfl
theorem after_arg7 (W : Valuation τ sig (Elt F)) :
    after ops W (Proc.devRef .tc main_arg7) = W (Proc.devRef .tc main_arg7) := by
  chain_rfl
theorem after_arg8 (W : Valuation τ sig (Elt F)) :
    after ops W (Proc.devRef .tc main_arg8) = W (Proc.devRef .tc main_arg8) := by
  chain_rfl
theorem after_arg9 (W : Valuation τ sig (Elt F)) :
    after ops W (Proc.devRef .tc main_arg9) = W (Proc.devRef .tc main_arg9) := by
  chain_rfl
theorem after_arg10 (W : Valuation τ sig (Elt F)) :
    after ops W (Proc.devRef .tc main_arg10) = W (Proc.devRef .tc main_arg10) := by
  chain_rfl
theorem after_arg11 (W : Valuation τ sig (Elt F)) :
    after ops W (Proc.devRef .tc main_arg11) = W (Proc.devRef .tc main_arg11) := by
  chain_rfl
theorem after_arg12 (W : Valuation τ sig (Elt F)) :
    after ops W (Proc.devRef .tc main_arg12) = W (Proc.devRef .tc main_arg12) := by
  chain_rfl
theorem after_arg13 (W : Valuation τ sig (Elt F)) :
    after ops W (Proc.devRef .tc main_arg13) = W (Proc.devRef .tc main_arg13) := by
  chain_rfl
theorem after_arg14 (W : Valuation τ sig (Elt F)) :
    after ops W (Proc.devRef .tc main_arg14) = W (Proc.devRef .tc main_arg14) := by
  chain_rfl
theorem after_arg15 (W : Valuation τ sig (Elt F)) :
    after ops W (Proc.devRef .tc main_arg15) = W (Proc.devRef .tc main_arg15) := by
  chain_rfl

/-! ## Every operation determines its result -/

/-- None of the operations leaves a written buffer at contents not chosen. -/
theorem ops_fresh : (ops : List (HloOp τ sig (Elt F))).Forall fun op => op.fresh = ∅ := by
  -- the list is a literal: its conjunction is peeled one operation at a time, each conjunct by computation
  repeat (first | exact rfl | refine ⟨rfl, ?_⟩)

/-! ## The run -/

/-- On every device, for any float values, from any memory with zero counters: every weakly fair execution of the
    program terminates with each returned buffer at its stage function of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = Read.val_main_v116 (F := F) (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v117) = Read.val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v118) = Read.val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v116).trans (after_v116 _),
      (h c main_v117).trans (after_v117 _),
      (h c main_v118).trans (after_v118 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _),
      (h c main_arg14).trans (after_arg14 _),
      (h c main_arg15).trans (after_arg15 _)⟩)
    (run_seq scopedRefs_eq scopedSems_eq defs main (fun _ => ops) main_eq (fun _ => ops_sub) m ρ
      (fun _ => List.forall_iff_forall_mem.1 ops_fresh))

end Cert.ReferenceIdeal.StageRun

end
-- ==== Proof.Spec.lean ====
/-
  What the three results are, as functions of the argument arrays, on the extended reals.

  Every one of the three blocks of the network is the same map applied row by row: a linear map plus a bias gives a
  row z of 128 numbers; the row goes twice through silu (x · 1/(1 + e^(-x))), then through a layer norm over its 128
  entries (subtract the mean, multiply by the reciprocal square root of the mean squared deviation plus ε, scale, shift);
  the block's input row is added back.  The three blocks differ only in the linear map:
    * senders:   z[r, j] = Σ_k x[r, k] · Ws[j, k] + bs[j];
    * edges:     the concatenated row (sender row | receiver row | edge row) of 384 entries against We's 384 columns,
                 written here as the three partial sums over the three thirds of We's columns;
    * receivers: the concatenated row (receiver row | aggregated messages) of 256 entries against Wn's 256 columns,
                 written as the two partial sums over the two halves.
  A sum over 384 (or 256) consecutive indices is the sum of the sums over its thirds (halves): `sum_thirds`, `sum_halves`.
-/
import Idealize.ShloMosaic.PureOps.Ideal
import Idealize.ShloMosaic.Lib.ValueIdx

noncomputable section

open scoped BigOperators

namespace Cert.Spec

open Idealize.ShloMosaic Idealize.ShloMosaic.ValueIdx

/-- silu: x · logistic x. -/
def silu (x : EReal) : EReal := x * Ideal.logistic x

/-- The layer norm's ε, as the f32 word both programs carry. -/
def eps : EReal := Ideal.ofBits .f32 0x3727C5AC#32

/-- The row length 128, as the f32 word both programs divide by. -/
def len : EReal := Ideal.ofBits .f32 0x43000000#32

/-- The mean of a row of 128 entries. -/
def mean (y : Fin 128 → EReal) : EReal := Ideal.div (∑ k : Fin 128, y k) len

/-- Layer norm of a row y with scale g and shift b, at entry j. -/
def layerNorm (y g b : Fin 128 → EReal) (j : Fin 128) : EReal :=
  ((y j - mean y) * Ideal.rsqrt (mean (fun k => (y k - mean y) * (y k - mean y)) + eps)) * g j + b j

/-- One block's nonlinearity on a row z of pre-activations: silu twice, then the layer norm. -/
def mlp (z g b : Fin 128 → EReal) : Fin 128 → EReal := layerNorm (fun k => silu (silu (z k))) g b

/-- Column k of the first, second, third third of 384 columns; of the first, second half of 256 columns. -/
abbrev third0 (k : Fin 128) : Fin 384 := ⟨k.val, by omega⟩
abbrev third1 (k : Fin 128) : Fin 384 := ⟨128 + k.val, by omega⟩
abbrev third2 (k : Fin 128) : Fin 384 := ⟨256 + k.val, by omega⟩
abbrev half0 (k : Fin 128) : Fin 256 := ⟨k.val, by omega⟩
abbrev half1 (k : Fin 128) : Fin 256 := ⟨128 + k.val, by omega⟩

/-- A sum over 256 consecutive indices is the sum over the first 128 plus the sum over the last 128. -/
theorem sum_halves (f : Fin 256 → EReal) :
    ∑ k : Fin 256, f k = (∑ k : Fin 128, f (half0 k)) + ∑ k : Fin 128, f (half1 k) := by
  have h := Fin.sum_univ_add (a := 128) (b := 128) (f := fun i : Fin (128 + 128) => f i)
  refine h.trans ?_
  congr 1

/-- A sum over 384 consecutive indices is the sum of the sums over its three thirds. -/
theorem sum_thirds (f : Fin 384 → EReal) :
    ∑ k : Fin 384, f k = ((∑ k : Fin 128, f (third0 k)) + ∑ k : Fin 128, f (third1 k)) + ∑ k : Fin 128, f (third2 k) := by
  have h := Fin.sum_univ_add (a := 256) (b := 128) (f := fun i : Fin (256 + 128) => f i)
  refine h.trans ?_
  have h2 := sum_halves (fun i : Fin 256 => f (Fin.castAdd 128 i))
  rw [h2]
  congr 1

/-! ## Senders -/

/-- The sender block's pre-activation at row r, entry j. -/
def senderLin (x : (⟨2, ![100000, 128]⟩ : Shape).Idx → EReal) (W : (⟨2, ![128, 128]⟩ : Shape).Idx → EReal)
    (b : (⟨1, ![128]⟩ : Shape).Idx → EReal) (r : Fin 100000) (j : Fin 128) : EReal :=
  (∑ k : Fin 128, x (ix2 r k) * W (ix2 j k)) + b (ix1 j)

/-- The updated sender features. -/
def senderOut (x : (⟨2, ![100000, 128]⟩ : Shape).Idx → EReal) (W : (⟨2, ![128, 128]⟩ : Shape).Idx → EReal)
    (b g bb : (⟨1, ![128]⟩ : Shape).Idx → EReal) : (⟨2, ![100000, 128]⟩ : Shape).Idx → EReal := fun i =>
  x i + mlp (senderLin x W b (i 0)) (fun j => g (ix1 j)) (fun j => bb (ix1 j)) (i 1)

/-! ## Edges -/

/-- The edge block's pre-activation at edge e, entry j, from the gathered sender rows, the gathered receiver rows and
    the edge's own row. -/
def edgeLin (sG rG ea : (⟨2, ![600000, 128]⟩ : Shape).Idx → EReal) (W : (⟨2, ![128, 384]⟩ : Shape).Idx → EReal)
    (b : (⟨1, ![128]⟩ : Shape).Idx → EReal) (e : Fin 600000) (j : Fin 128) : EReal :=
  (((∑ k : Fin 128, sG (ix2 e k) * W (ix2 j (third0 k))) + ∑ k : Fin 128, rG (ix2 e k) * W (ix2 j (third1 k)))
    + ∑ k : Fin 128, ea (ix2 e k) * W (ix2 j (third2 k))) + b (ix1 j)

/-- The new edge features (the messages that are aggregated). -/
def edgeNew (sG rG ea : (⟨2, ![600000, 128]⟩ : Shape).Idx → EReal) (W : (⟨2, ![128, 384]⟩ : Shape).Idx → EReal)
    (b g bb : (⟨1, ![128]⟩ : Shape).Idx → EReal) : (⟨2, ![600000, 128]⟩ : Shape).Idx → EReal := fun i =>
  mlp (edgeLin sG rG ea W b (i 0)) (fun j => g (ix1 j)) (fun j => bb (ix1 j)) (i 1)

/-- The updated edge features. -/
def edgeOut (sG rG ea : (⟨2, ![600000, 128]⟩ : Shape).Idx → EReal) (W : (⟨2, ![128, 384]⟩ : Shape).Idx → EReal)
    (b g bb : (⟨1, ![128]⟩ : Shape).Idx → EReal) : (⟨2, ![600000, 128]⟩ : Shape).Idx → EReal := fun i =>
  ea i + edgeNew sG rG ea W b g bb i

/-! ## Receivers -/

/-- The receiver block's pre-activation at node n, entry j, from the node's row and its aggregated messages. -/
def nodeLin (rx agg : (⟨2, ![100000, 128]⟩ : Shape).Idx → EReal) (W : (⟨2, ![128, 256]⟩ : Shape).Idx → EReal)
    (b : (⟨1, ![128]⟩ : Shape).Idx → EReal) (n : Fin 100000) (j : Fin 128) : EReal :=
  ((∑ k : Fin 128, rx (ix2 n k) * W (ix2 j (half0 k))) + ∑ k : Fin 128, agg (ix2 n k) * W (ix2 j (half1 k))) + b (ix1 j)

/-- The updated receiver features. -/
def nodeOut (rx agg : (⟨2, ![100000, 128]⟩ : Shape).Idx → EReal) (W : (⟨2, ![128, 256]⟩ : Shape).Idx → EReal)
    (b g bb : (⟨1, ![128]⟩ : Shape).Idx → EReal) : (⟨2, ![100000, 128]⟩ : Shape).Idx → EReal := fun i =>
  rx i + mlp (nodeLin rx agg W b (i 0)) (fun j => g (ix1 j)) (fun j => bb (ix1 j)) (i 1)

end Cert.Spec

end
-- ==== Proof.Glue.lean ====
/-
  The pieces of both programs that are carried whole, never opened: the column of source (destination) node numbers
  of the edges, the rows of a node table gathered at such a column, and the sum of the messages over the edges that
  arrive at each node.  Both programs apply these same host operations to the same arrays, so they are named once here
  and both sides are stated over the names.  `InRange` says every node number of the edge list is a row of the tables.
-/
import proofs.«418128_j9191230013922_2_alg».proof.Proof.Gen.KernelIdeal
import proofs.«418128_j9191230013922_2_alg».proof.Proof.Gen.ReferenceIdeal
import Idealize.ShloMosaic.PureOps.Ideal

noncomputable section

namespace Cert.Glue

open Idealize.ShloMosaic Cert.KernelIdeal Cert.KernelIdeal.Facts₀

/-- Every node number in the edge list is at least 0 and below 100000, read as a signed integer. -/
def InRange (e : IVec S2x600000 32) : Prop := ∀ i, 0 ≤ (e i).toInt ∧ (e i).toInt < 100000

/-- Row 0 of the edge list (the source node of each edge), as a flat vector of 600000 node numbers. -/
def srcFlat (e : IVec S2x600000 32) : IVec S600000 32 :=
  shapeCast S600000 (extractStridedSlice S1x600000 ![0, 0] e slices_S2x600000_S1x600000_0_0) shapeCasts_S1x600000_S600000

/-- Row 1 of the edge list (the destination node of each edge), as a flat vector. -/
def dstFlat (e : IVec S2x600000 32) : IVec S600000 32 :=
  shapeCast S600000 (extractStridedSlice S1x600000 ![1, 0] e slices_S2x600000_S1x600000_1_0) shapeCasts_S1x600000_S600000

/-- A flat vector of node numbers as a column of start indices. -/
def col (v : IVec S600000 32) : IVec S600000x1 32 := broadcastInDim S600000x1 ![0] bcast_S600000_S600000x1_0 v

/-- The rows of a node table at a column of node numbers. -/
def gath (x : FVec Ideal S100000x128 .f32) (i : IVec S600000x1 32) : FVec Ideal S600000x128 .f32 :=
  Host.gather gather_S100000x128_S600000x1_S600000x128_1_0_n_n_0_1_1128 x i

/-- The messages summed over the edges arriving at each node, from zero. -/
def aggr (i : IVec S600000x1 32) (p : FVec Ideal S600000x128 .f32) : FVec Ideal S100000x128 .f32 :=
  Host.scatterAdd scatter_S100000x128_S600000x1_S600000x128_1_0_0_1
    (broadcastInDim S100000x128 ![] bcast_S_S100000x128 (constant (F := Ideal) S_ .f32 0x00000000#32)) i p

/-! The reference program's spellings of the same operations are these. -/

theorem ref_srcFlat (e : IVec S2x600000 32) :
    shapeCast Cert.ReferenceIdeal.S600000 (extractStridedSlice Cert.ReferenceIdeal.S1x600000 ![0, 0] e Cert.ReferenceIdeal.Facts₀.slices_S2x600000_S1x600000_0_0)
      Cert.ReferenceIdeal.Facts₀.shapeCasts_S1x600000_S600000 = srcFlat e := rfl

theorem ref_dstFlat (e : IVec S2x600000 32) :
    shapeCast Cert.ReferenceIdeal.S600000 (extractStridedSlice Cert.ReferenceIdeal.S1x600000 ![1, 0] e Cert.ReferenceIdeal.Facts₀.slices_S2x600000_S1x600000_1_0)
      Cert.ReferenceIdeal.Facts₀.shapeCasts_S1x600000_S600000 = dstFlat e := rfl

theorem ref_col (v : IVec S600000 32) :
    broadcastInDim Cert.ReferenceIdeal.S600000x1 ![0] Cert.ReferenceIdeal.Facts₀.bcast_S600000_S600000x1_0 v = col v := rfl

theorem ref_gath (x : FVec Ideal S100000x128 .f32) (i : IVec S600000x1 32) :
    Host.gather Cert.ReferenceIdeal.gather_S100000x128_S600000x1_S600000x128_1_0_n_n_0_1_1128 x i = gath x i := rfl

end Cert.Glue

end
-- ==== Proof.PreIdx.lean ====
/-
  The precondition's last conjunct says every entry of the edge list is at least 0 and below 100000.
-/
import proofs.«418128_j9191230013922_2_alg».proof.Proof.Gen.Pre_finite_inputs
import proofs.«418128_j9191230013922_2_alg».proof.Proof.Glue
import Idealize.ShloMosaic.Lib.ReduceAll
import Idealize.ShloMosaic.Lib.StableHlo.Predicate
import Idealize.ShloMosaic.Lib.ValueIdx

noncomputable section

namespace Cert.Glue

open Idealize.ShloMosaic

/-- If the printed precondition evaluates to true on the sixteen argument arrays, the edge list is in range. -/
theorem inRange_of_pre [Cert.Pre_finite_inputs.Facts] (x0 x1 : FVec Ideal Cert.Pre_finite_inputs.S100000x128 .f32) (x2 : IVec Cert.Pre_finite_inputs.S2x600000 32)
    (x3 : FVec Ideal Cert.Pre_finite_inputs.S600000x128 .f32) (x4 : FVec Ideal Cert.Pre_finite_inputs.S128x384 .f32) (x5 x6 x7 : FVec Ideal Cert.Pre_finite_inputs.S128 .f32)
    (x8 : FVec Ideal Cert.Pre_finite_inputs.S128x256 .f32) (x9 x10 x11 : FVec Ideal Cert.Pre_finite_inputs.S128 .f32)
    (x12 : FVec Ideal Cert.Pre_finite_inputs.S128x128 .f32) (x13 x14 x15 : FVec Ideal Cert.Pre_finite_inputs.S128 .f32)
    (h : Cert.Pre_finite_inputs.fn (F := Ideal) x0 x1 x2 x3 x4 x5 x6 x7 x8 x9 x10 x11 x12 x13 x14 x15 = fun _ => 1#1) :
    InRange x2 := by
  -- the predicate is a scalar: read it at its one index
  have h0 := congrFun h ValueIdx.ix0
  -- it is a conjunction of bits whose last conjunct is the "all" over the edge list of (entry ≥ 0) and (entry < 100000)
  have h1 : Host.reduce IntOp.andi
      (andi (cmpi .sge x2 (broadcastInDim Cert.Pre_finite_inputs.S2x600000 ![] Cert.Pre_finite_inputs.Facts.bcast_S_S2x600000 (constantI Cert.Pre_finite_inputs.S_ 32 0#32)))
        (cmpi .slt x2 (broadcastInDim Cert.Pre_finite_inputs.S2x600000 ![] Cert.Pre_finite_inputs.Facts.bcast_S_S2x600000 (constantI Cert.Pre_finite_inputs.S_ 32 100000#32))))
      (constantI Cert.Pre_finite_inputs.S_ 1 1#1) Cert.Pre_finite_inputs.Facts.reducesTo_S2x600000_S_d0_1 Cert.Pre_finite_inputs.Facts.h_S_ ValueIdx.ix0 = 1#1 :=
    (IntOp.andi_eq_one.1 h0).2
  intro i
  haveI : Subsingleton Cert.Pre_finite_inputs.S_.Idx := ⟨fun a b => funext fun d => d.elim0⟩
  -- an "all" that came out true met a true bit at every entry
  have h2 := Host.reduce_andi_all _ _ _ _ _ h1 i
  -- at entry i the bit is the conjunction of the two signed compares against the scalars 0 and 100000
  have h3 : IntOp.andi (IntOp.cmpi .sge (x2 i) 0#32) (IntOp.cmpi .slt (x2 i) 100000#32) = 1#1 := h2
  obtain ⟨ha, hb⟩ := IntOp.andi_eq_one.1 h3
  rw [IntOp.cmpi_sge, show (0#32 : BitVec 32).toInt = 0 from by decide] at ha
  rw [IntOp.cmpi_slt, show (100000#32 : BitVec 32).toInt = 100000 from by decide] at hb
  exact ⟨ha, hb⟩

end Cert.Glue

end
-- ==== Proof.KSender.lean ====
/-
  The idealized kernel program's first result: the sender block's output array at the last segment boundary is the
  updated sender features of the argument arrays.

  The sender region walks the 100000 feature rows in 20 blocks of 5000. On a block x0 with the weight block x1 (the
  transposed weight), the bias row x2, the scale row x3 and the shift row x4 its body computes, entry by entry,
      x0 + layerNorm (silu (silu (x0 · x1 + x2))) x3 x4,
  the layer norm taken over the 128 entries of each row. Read at row p, entry q this is the specification's map of the
  row: the product at (p, j) is Σ_k x0[p, k] · x1[k, j], a row sum at p is the sum of the row's 128 entries, a column
  broadcast reads its column at p and a row broadcast its row at q. Block t of the feature array is rows t·5000 … t·5000
  + 4999 and the four parameter blocks are whole arrays, so what grid point t writes back is block t of ONE function of
  the five arrays the region reads; the blocks cover the output array (row r lies in block r / 5000), so the array ends
  holding that function. The feature array is the launch memory's; the weight block's array is the weight argument
  transposed and the three rows are the bias, scale and shift arguments as 1 × 128 arrays, written by the host stretch
  before the region from arguments nothing has written. A transposed matrix at (k, j) is the matrix at (j, k) and a
  vector as a row at (0, j) is the vector at j, which makes the function the specification's `senderOut`.
-/
import proofs.«418128_j9191230013922_2_alg».proof.Proof.Gen.KernelIdeal.Frame
import proofs.«418128_j9191230013922_2_alg».proof.Proof.Spec
import Idealize.ShloMosaic.Lib.ValueLayout
import Idealize.ShloMosaic.PureOps.Ideal.Laws

set_option maxRecDepth 16384

noncomputable section

namespace Cert.KernelIdeal.KValue

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

namespace Sender

/-! ## The block product at an index

The product contracts axis 1 of the block with axis 0 of the weight block: at output (p, q) and contraction coordinate k
its left operand is read at (p, k) and its right operand at (k, q). -/

theorem lhs_sdot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_sdot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_sdot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_sdot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero splat, at row p and column q: the sum over the 128 contracted entries. -/
theorem matmul_at (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_sdot_0 _ _
    | ⟨1, _⟩ => exact (lhs_sdot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_sdot_0 _ _).trans hk
    | ⟨1, _⟩ => exact rhs_sdot_1 _ _)
  rw [el, er]

/-! ## Row sums, means and the two broadcasts, at an index -/

/-- The logistic function and the reciprocal square root act entry by entry. -/
theorem logistic_at {s : Shape} (v : FVec Ideal s .f32) (i : s.Idx) : logistic v i = Ideal.logistic (v i) := rfl
theorem rsqrt_at {s : Shape} (v : FVec Ideal s .f32) (i : s.Idx) : rsqrt v i = Ideal.rsqrt (v i) := rfl

/-- The sums of a block's rows. -/
def rowSumV (v : FVec Ideal S5000x128 .f32) : FVec Ideal S5000 .f32 :=
  multiReduction .add [1] S5000 v 0x00000000#32 reduces_S5000x128_S5000 (.inl rfl) rfl

/-- At row p: the sum of the row's 128 entries. -/
theorem rowSumV_at (v : FVec Ideal S5000x128 .f32) (p : Fin 5000) : rowSumV v (ix1 p) = ∑ k : Fin 128, v (ix2 p k) := by
  unfold rowSumV
  refine (Ideal.multiReduction_add_single v 0x00000000#32 reduces_S5000x128_S5000 (.inl rfl) rfl (ix1 p)).trans ?_
  refine Finset.sum_congr rfl fun k _ => congrArg v ?_
  funext a
  match a with
  | ⟨0, _⟩ => rfl
  | ⟨1, _⟩ => rfl

/-- A vector of 5000 entries cast to a column reads, at (p, u), the vector at p. -/
theorem colCast_at (x : (⟨1, ![5000]⟩ : Shape).Idx → EReal) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_two, Shape.rowMajor_val_one]
    show p.val = p.val * 1 + u.val
    omega)

/-- The column of the rows' means: each row sum divided by the row length. -/
def meanV (v : FVec Ideal S5000x128 .f32) : FVec Ideal S5000x1 .f32 :=
  divf (shapeCast S5000x1 (rowSumV v) shapeCasts_S5000_S5000x1) (broadcast S5000x1 (Scalar.ofBits (F := Ideal) .f32 0x43000000#32))

theorem meanV_at (v : FVec Ideal S5000x128 .f32) (p : Fin 5000) (u : Fin 1) :
    meanV v (ix2 p u) = Cert.Spec.mean (fun k => v (ix2 p k)) := by
  unfold meanV
  rw [divf_apply, colCast_at, rowSumV_at, broadcast_apply]
  rfl

/-- A column broadcast over the 128 lanes. -/
def bcol (w : FVec Ideal S5000x1 .f32) : FVec Ideal S5000x128 .f32 := broadcastTo S5000x128 w broadcasts_S5000x1_S5000x128

theorem bcol_at (w : FVec Ideal S5000x1 .f32) (p : Fin 5000) (q : Fin 128) : bcol w (ix2 p q) = w (ix2 p (0 : Fin 1)) := by
  unfold bcol
  refine broadcastTo_apply w _ (ix2 p q) (ix2 p (0 : Fin 1)) fun ax => ?_
  match ax with
  | ⟨0, _⟩ => rfl
  | ⟨1, _⟩ => rfl

/-- A row of 128 entries broadcast over the block's 5000 rows. -/
def brow (w : Vec Ideal S1x128 .f32) : FVec Ideal S5000x128 .f32 :=
  broadcastTo S5000x128 (shapeCast S1x128 w shapeCasts_S1x128_S1x128) broadcasts_S1x128_S5000x128

theorem brow_at (w : Vec Ideal S1x128 .f32) (p : Fin 5000) (q : Fin 128) : brow w (ix2 p q) = w (ix2 (0 : Fin 1) q) := by
  unfold brow
  rw [broadcastTo_1b_ab_apply, shapeCast_self]

/-! ## The body's arithmetic in three stages -/

/-- The linear stage on a block: the block against the weight block, plus the bias row. -/
def linV (x0 : Vec Ideal S5000x128 .f32) (x1 : Vec Ideal S128x128 .f32) (x2 : Vec Ideal S1x128 .f32) : FVec Ideal S5000x128 .f32 :=
  addf (matmul dot_S5000x128_S128x128_S5000x128_1_0_0_1_n_n none (truncf .bf16 x0 bitsLt_bf16_f32)
      (truncf .bf16 (shapeCast S128x128 x1 shapeCasts_S128x128_S128x128) bitsLt_bf16_f32) (constant (F := Ideal) S5000x128 .f32 0x00000000#32))
    (brow x2)

/-- The block's pre-activation at row p, entry j: the row of the block against column j of the weight block, plus the bias. -/
def blkLin (x0 : Vec Ideal S5000x128 .f32) (x1 : Vec Ideal S128x128 .f32) (x2 : Vec Ideal S1x128 .f32) (p : Fin 5000) (j : Fin 128) : EReal :=
  (∑ k : Fin 128, x0 (ix2 p k) * x1 (ix2 k j)) + x2 (ix2 (0 : Fin 1) j)

theorem linV_at (x0 : Vec Ideal S5000x128 .f32) (x1 : Vec Ideal S128x128 .f32) (x2 : Vec Ideal S1x128 .f32) (p : Fin 5000) (q : Fin 128) :
    linV x0 x1 x2 (ix2 p q) = blkLin x0 x1 x2 p q := by
  unfold linV blkLin
  rw [addf_apply, matmul_at, brow_at]
  simp only [truncf_apply, shapeCast_self]

/-- silu, entry by entry. -/
def siluV (v : FVec Ideal S5000x128 .f32) : FVec Ideal S5000x128 .f32 := mulf v (logistic v)

theorem siluV_at (v : FVec Ideal S5000x128 .f32) (i : S5000x128.Idx) : siluV v i = Cert.Spec.silu (v i) := rfl

/-- The layer norm of every row of a block, with scale row g and shift row b. -/
def normV (y : FVec Ideal S5000x128 .f32) (g b : Vec Ideal S1x128 .f32) : FVec Ideal S5000x128 .f32 :=
  addf (mulf (mulf (subf y (bcol (meanV y)))
      (bcol (rsqrt (addf (meanV (mulf (subf y (bcol (meanV y))) (subf y (bcol (meanV y)))))
        (broadcast S5000x1 (Scalar.ofBits (F := Ideal) .f32 0x3727C5AC#32))))))
    (brow g)) (brow b)

theorem normV_at (y : FVec Ideal S5000x128 .f32) (g b : Vec Ideal S1x128 .f32) (p : Fin 5000) (q : Fin 128) :
    normV y g b (ix2 p q)
      = Cert.Spec.layerNorm (fun k => y (ix2 p k)) (fun j => g (ix2 (0 : Fin 1) j)) (fun j => b (ix2 (0 : Fin 1) j)) q := by
  unfold normV
  simp only [addf_apply, mulf_apply, subf_apply, rsqrt_at, bcol_at, brow_at, meanV_at, broadcast_apply]
  rfl

/-- The body's arithmetic is the three stages and the residual add. -/
theorem pay_eq (x0 : Vec Ideal S5000x128 .f32) (x1 : Vec Ideal S128x128 .f32) (x2 x3 x4 : Vec Ideal S1x128 .f32) :
    k2_pay1 (F := Ideal) x0 x1 x2 x3 x4 = addf x0 (normV (siluV (siluV (linV x0 x1 x2))) x3 x4) := rfl

/-- The body's arithmetic at row p, entry q of the block: the entry plus the specification's nonlinearity of the row's
    pre-activations. -/
theorem pay_at (x0 : Vec Ideal S5000x128 .f32) (x1 : Vec Ideal S128x128 .f32) (x2 x3 x4 : Vec Ideal S1x128 .f32) (p : Fin 5000) (q : Fin 128) :
    k2_pay1 (F := Ideal) x0 x1 x2 x3 x4 (ix2 p q)
      = x0 (ix2 p q) + Cert.Spec.mlp (blkLin x0 x1 x2 p) (fun j => x3 (ix2 (0 : Fin 1) j)) (fun j => x4 (ix2 (0 : Fin 1) j)) q := by
  rw [pay_eq, addf_apply, normV_at]
  unfold Cert.Spec.mlp
  simp only [siluV_at, linV_at]

/-! ## From blocks to the array, at any entry contents of the region -/

/-- The pre-activation of row r, entry j, from the whole feature array, the transposed weight and the bias row. -/
def arrLin (X : Vec Ideal S100000x128 .f32) (Wt : Vec Ideal S128x128 .f32) (B : Vec Ideal S1x128 .f32) (r : Fin 100000) (j : Fin 128) : EReal :=
  (∑ k : Fin 128, X (ix2 r k) * Wt (ix2 k j)) + B (ix2 (0 : Fin 1) j)

/-- What the region leaves in its output array, as ONE function of the five arrays it reads: row by row, the row plus
    the block's nonlinearity of the row's pre-activations. -/
def sendG (X : Vec Ideal S100000x128 .f32) (Wt : Vec Ideal S128x128 .f32) (B G BB : Vec Ideal S1x128 .f32) : Vec Ideal S100000x128 .f32 := fun i =>
  X i + Cert.Spec.mlp (arrLin X Wt B (i 0)) (fun j => G (ix2 (0 : Fin 1) j)) (fun j => BB (ix2 (0 : Fin 1) j)) (i 1)

/-- One block entry against the whole-array function: if the feature block is the array's rows from T·5000 on (read
    through the embedding e of block indices into array indices) and the other four blocks are their whole arrays, the
    body's arithmetic at a block index is the whole-array function at the embedded index. -/
theorem point_eq (X : Vec Ideal S100000x128 .f32) (Wt : Vec Ideal S128x128 .f32) (B G BB : Vec Ideal S1x128 .f32)
    (x0 : Vec Ideal S5000x128 .f32) (x1 : Vec Ideal S128x128 .f32) (x2 x3 x4 : Vec Ideal S1x128 .f32)
    (T : Nat) (e : S5000x128.Idx → S100000x128.Idx)
    (he0 : ∀ y, (e y 0).val = T * 5000 + (y 0).val) (he1 : ∀ y, (e y 1).val = (y 1).val)
    (h0 : ∀ y, x0 y = X (e y)) (h1 : x1 = Wt) (h2 : x2 = B) (h3 : x3 = G) (h4 : x4 = BB) (y : S5000x128.Idx) :
    k2_pay1 (F := Ideal) x0 x1 x2 x3 x4 y = sendG X Wt B G BB (e y) := by
  subst h1 h2 h3 h4
  obtain ⟨p, q, rfl⟩ : ∃ (p : Fin 5000) (q : Fin 128), y = ix2 p q := ⟨y 0, y 1, eq_ix2 y⟩
  rw [pay_at]
  unfold sendG
  have eq : (e (ix2 p q) 1 : Fin 128) = q := Fin.ext (he1 (ix2 p q))
  have el : blkLin x0 x1 x2 p = arrLin X x1 x2 (e (ix2 p q) 0) := by
    funext j
    unfold blkLin arrLin
    refine congrArg (· + x2 (ix2 (0 : Fin 1) j)) (Finset.sum_congr rfl fun k _ => ?_)
    rw [h0]
    refine congrArg (fun z => X z * x1 (ix2 k j)) (funext fun a => Fin.ext ?_)
    match a with
    | ⟨0, _⟩ => exact (he0 (ix2 p k)).trans (he0 (ix2 p q)).symm
    | ⟨1, _⟩ => exact he1 (ix2 p k)
  rw [h0, el, eq]

variable (V : (c : Dev nD) → (b : Ref sig .tc) → Buf (Elt Ideal) ((c : Thread nD τ).loc b))

/-- The zero offsets of a whole block. -/
theorem hz : (![0, 0] : Fin 2 → Nat) = fun _ => 0 := funext fun a => by fin_cases a <;> rfl

/-- The block indices at grid point t: the feature window and the output window are at block (t, 0), the four
    parameter windows at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The weight window's block is its whole array at every point. -/
theorem iblk_w (c : Dev nD) (t : Fin cfg2.N) : (iblk2 V c 1 t : Vec Ideal S128x128 .f32) = V c main_v29 := by
  obtain ⟨-, -, e0, e1, -⟩ := idx_facts t
  funext y
  show V c main_v29 (((cfg2.win 1).blk t).view.emb y) = V c main_v29 y
  refine congrArg (V c main_v29) (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The bias window's block is its whole array at every point. -/
theorem iblk_b (c : Dev nD) (t : Fin cfg2.N) : (iblk2 V c 2 t : Vec Ideal S1x128 .f32) = V c main_v30 := by
  obtain ⟨-, -, -, -, e0, e1, -⟩ := idx_facts t
  funext y
  show V c main_v30 (((cfg2.win 2).blk t).view.emb y) = V c main_v30 y
  refine congrArg (V c main_v30) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The scale window's block is its whole array at every point. -/
theorem iblk_g (c : Dev nD) (t : Fin cfg2.N) : (iblk2 V c 3 t : Vec Ideal S1x128 .f32) = V c main_v31 := by
  obtain ⟨-, -, -, -, -, -, e0, e1, -⟩ := idx_facts t
  funext y
  show V c main_v31 (((cfg2.win 3).blk t).view.emb y) = V c main_v31 y
  refine congrArg (V c main_v31) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The shift window's block is its whole array at every point. -/
theorem iblk_s (c : Dev nD) (t : Fin cfg2.N) : (iblk2 V c 4 t : Vec Ideal S1x128 .f32) = V c main_v32 := by
  obtain ⟨-, -, -, -, -, -, -, -, e0, e1, -⟩ := idx_facts t
  funext y
  show V c main_v32 (((cfg2.win 4).blk t).view.emb y) = V c main_v32 y
  refine congrArg (V c main_v32) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- WHAT POINT t WRITES BACK is block t of the whole-array function of the five arrays as the region finds them. -/
theorem flushed_eq (c : Dev nD) (t : Fin cfg2.N) :
    (dat2 V c).flushed 5 t = ((cfg2.win 5).blk t).view.read (Elt Ideal)
      (sendG (V c main_arg0) (V c main_v29) (V c main_v30) (V c main_v31) (V c main_v32)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, -, -, -, -, -, -, -, -, e50, e51⟩ := idx_facts t
  funext j
  refine point_eq (V c main_arg0) (V c main_v29) (V c main_v30) (V c main_v31) (V c main_v32)
    (iblk2 V c 0 t) (iblk2 V c 1 t) (iblk2 V c 2 t) (iblk2 V c 3 t) (iblk2 V c 4 t) t.val
    (fun y => ((cfg2.win 5).blk t).view.emb y) ?_ ?_ ?_ (iblk_w V c t) (iblk_b V c t) (iblk_g V c t) (iblk_s V c t) j
  · intro y
    show win2_5.index t (0 : Fin 2) * 5000 + 1 * (y 0).val = t.val * 5000 + (y 0).val
    rw [e50]; omega
  · intro y
    show win2_5.index t (1 : Fin 2) * 128 + 1 * (y 1).val = (y 1).val
    rw [e51]; omega
  · intro y
    show V c main_arg0 (((cfg2.win 0).blk t).view.emb y) = V c main_arg0 (((cfg2.win 5).blk t).view.emb y)
    refine congrArg (V c main_arg0) (funext fun a => Fin.ext ?_)
    match a with
    | ⟨0, _⟩ => show win2_0.index t (0 : Fin 2) * 5000 + 1 * (y 0).val = win2_5.index t (0 : Fin 2) * 5000 + 1 * (y 0).val; rw [e00, e50]
    | ⟨1, _⟩ => show win2_0.index t (1 : Fin 2) * 128 + 1 * (y 1).val = win2_5.index t (1 : Fin 2) * 128 + 1 * (y 1).val; rw [e01, e51]

/-- An index of the output array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v33).slice (win2_5.rect t)).set ↔ _
  rw [View.set_slice_whole, Rect.mem_set_unit]
  exact Iff.rfl

/-- Every row r of the output array is in the block of point r / 5000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, -, -, -, -, -, -, e50, e51⟩ := idx_facts ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e50']; omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [e51]; omega

/-- THE OUTPUT ARRAY at the region's exit: the whole-array function of the five arrays at the region's entry. -/
theorem region_value (c : Dev nD) :
    (dat2 V c).arrAt 5 cfg2.N = sendG (V c main_arg0) (V c main_v29) (V c main_v30) (V c main_v31) (V c main_v32) :=
  (dat2 V c).arrAt_eq_of_cover 5 _ (fun t _ => flushed_eq V c t) cover

/-! ## The region's five input arrays at its entry, read back through the run -/

/-- The feature array at the region's entry is the launch memory's: the region only reads it. -/
theorem entry_x (c : Dev nD) : V9 m ρ c main_arg0 = m ((c : Thread nD τ).loc main_arg0) :=
  ((W10_arr m ρ c 0).trans (((dat2 (V9 m ρ) c).arrAt_in 0 rfl _).trans (A_eq2 (V9 m ρ) c 0))).symm.trans (W10_main_arg0 m ρ c)

/-- The weight argument is the launch memory's when the last host stretch begins: the last boundary holds it as launched, the region
    does not write it, and the last host stretch does not write it. -/
theorem W8_arg12 (c : Dev nD) : W8 m ρ c (Proc.devRef .tc main_arg12) = m ((c : Thread nD τ).loc main_arg12) := by
  have h1 : W10 m ρ c (Proc.devRef .tc main_arg12) = W9 m ρ c (Proc.devRef .tc main_arg12) := W10_of_ne m ρ c main_arg12 (by decide)
  have h2 : W9 m ρ c (Proc.devRef .tc main_arg12) = W8 m ρ c (Proc.devRef .tc main_arg12) :=
    StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (h2.symm.trans h1.symm).trans (W10_main_arg12 m ρ c)

/-- The bias argument is the launch memory's when the last host stretch begins: the last boundary holds it as launched, the region
    does not write it, and the last host stretch does not write it. -/
theorem W8_arg13 (c : Dev nD) : W8 m ρ c (Proc.devRef .tc main_arg13) = m ((c : Thread nD τ).loc main_arg13) := by
  have h1 : W10 m ρ c (Proc.devRef .tc main_arg13) = W9 m ρ c (Proc.devRef .tc main_arg13) := W10_of_ne m ρ c main_arg13 (by decide)
  have h2 : W9 m ρ c (Proc.devRef .tc main_arg13) = W8 m ρ c (Proc.devRef .tc main_arg13) :=
    StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (h2.symm.trans h1.symm).trans (W10_main_arg13 m ρ c)

/-- The scale argument is the launch memory's when the last host stretch begins: the last boundary holds it as launched, the region
    does not write it, and the last host stretch does not write it. -/
theorem W8_arg14 (c : Dev nD) : W8 m ρ c (Proc.devRef .tc main_arg14) = m ((c : Thread nD τ).loc main_arg14) := by
  have h1 : W10 m ρ c (Proc.devRef .tc main_arg14) = W9 m ρ c (Proc.devRef .tc main_arg14) := W10_of_ne m ρ c main_arg14 (by decide)
  have h2 : W9 m ρ c (Proc.devRef .tc main_arg14) = W8 m ρ c (Proc.devRef .tc main_arg14) :=
    StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (h2.symm.trans h1.symm).trans (W10_main_arg14 m ρ c)

/-- The shift argument is the launch memory's when the last host stretch begins: the last boundary holds it as launched, the region
    does not write it, and the last host stretch does not write it. -/
theorem W8_arg15 (c : Dev nD) : W8 m ρ c (Proc.devRef .tc main_arg15) = m ((c : Thread nD τ).loc main_arg15) := by
  have h1 : W10 m ρ c (Proc.devRef .tc main_arg15) = W9 m ρ c (Proc.devRef .tc main_arg15) := W10_of_ne m ρ c main_arg15 (by decide)
  have h2 : W9 m ρ c (Proc.devRef .tc main_arg15) = W8 m ρ c (Proc.devRef .tc main_arg15) :=
    StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (h2.symm.trans h1.symm).trans (W10_main_arg15 m ρ c)

/-- What the last host stretch leaves in the four buffers it writes, over any contents X before it: the weight
    transposed, and the bias, scale and shift vectors as rows. -/
theorem after_w (X : Valuation τ sig (Elt Ideal)) :
    StableHlo.after (hostOps2 (F := Ideal)) X (Proc.devRef .tc main_v29)
      = transpose S128x128 [1, 0] (X (Proc.devRef .tc main_arg12)) transposes_S128x128_S128x128_1_0 := by
  after_results
theorem after_b (X : Valuation τ sig (Elt Ideal)) :
    StableHlo.after (hostOps2 (F := Ideal)) X (Proc.devRef .tc main_v30)
      = shapeCast S1x128 (X (Proc.devRef .tc main_arg13)) shapeCasts_S128_S1x128 := by
  after_results
  rfl
theorem after_g (X : Valuation τ sig (Elt Ideal)) :
    StableHlo.after (hostOps2 (F := Ideal)) X (Proc.devRef .tc main_v31)
      = shapeCast S1x128 (X (Proc.devRef .tc main_arg14)) shapeCasts_S128_S1x128 := by
  after_results
  rfl
theorem after_s (X : Valuation τ sig (Elt Ideal)) :
    StableHlo.after (hostOps2 (F := Ideal)) X (Proc.devRef .tc main_v32)
      = shapeCast S1x128 (X (Proc.devRef .tc main_arg15)) shapeCasts_S128_S1x128 := by
  after_results
  rfl

theorem entry_w (c : Dev nD) : V9 m ρ c main_v29
    = transpose S128x128 [1, 0] (m ((c : Thread nD τ).loc main_arg12)) transposes_S128x128_S128x128_1_0 :=
  (after_w (W8 m ρ c)).trans (congrArg (fun z => transpose S128x128 [1, 0] z transposes_S128x128_S128x128_1_0) (W8_arg12 m ρ c))
theorem entry_b (c : Dev nD) : V9 m ρ c main_v30 = shapeCast S1x128 (m ((c : Thread nD τ).loc main_arg13)) shapeCasts_S128_S1x128 :=
  (after_b (W8 m ρ c)).trans (congrArg (fun z => shapeCast S1x128 z shapeCasts_S128_S1x128) (W8_arg13 m ρ c))
theorem entry_g (c : Dev nD) : V9 m ρ c main_v31 = shapeCast S1x128 (m ((c : Thread nD τ).loc main_arg14)) shapeCasts_S128_S1x128 :=
  (after_g (W8 m ρ c)).trans (congrArg (fun z => shapeCast S1x128 z shapeCasts_S128_S1x128) (W8_arg14 m ρ c))
theorem entry_s (c : Dev nD) : V9 m ρ c main_v32 = shapeCast S1x128 (m ((c : Thread nD τ).loc main_arg15)) shapeCasts_S128_S1x128 :=
  (after_s (W8 m ρ c)).trans (congrArg (fun z => shapeCast S1x128 z shapeCasts_S128_S1x128) (W8_arg15 m ρ c))

/-! ## Against the specification -/

/-- The transposed weight at (k, j) is the weight at (j, k). -/
theorem wt_at (W : Vec Ideal S128x128 .f32) (k j : Fin 128) :
    transpose S128x128 [1, 0] W transposes_S128x128_S128x128_1_0 (ix2 k j) = W (ix2 j k) :=
  transpose_apply _ W _ _ _ fun c => match c with | ⟨0, _⟩ => rfl | ⟨1, _⟩ => rfl

/-- The pre-activation at the transposed weight and the bias as a row is the specification's. -/
theorem arrLin_spec (X : Vec Ideal S100000x128 .f32) (W : Vec Ideal S128x128 .f32) (b : Vec Ideal S128 .f32) (r : Fin 100000) (j : Fin 128) :
    arrLin X (transpose S128x128 [1, 0] W transposes_S128x128_S128x128_1_0) (shapeCast S1x128 b shapeCasts_S128_S1x128) r j
      = Cert.Spec.senderLin X W b r j := by
  unfold arrLin Cert.Spec.senderLin
  rw [shapeCast_a_1a_apply]
  refine congrArg (· + b (ix1 j)) (Finset.sum_congr rfl fun k _ => ?_)
  rw [wt_at]

/-- The whole-array function at the transposed weight and the three vectors as rows is the specification's updated
    sender features: a transposed matrix at (k, j) is the matrix at (j, k), a vector as a row at (0, j) is the vector at j. -/
theorem sendG_spec (X : Vec Ideal S100000x128 .f32) (W : Vec Ideal S128x128 .f32) (b g bb : Vec Ideal S128 .f32) :
    sendG X (transpose S128x128 [1, 0] W transposes_S128x128_S128x128_1_0) (shapeCast S1x128 b shapeCasts_S128_S1x128)
        (shapeCast S1x128 g shapeCasts_S128_S1x128) (shapeCast S1x128 bb shapeCasts_S128_S1x128)
      = Cert.Spec.senderOut X W b g bb := by
  funext i
  unfold sendG Cert.Spec.senderOut
  have e : arrLin X (transpose S128x128 [1, 0] W transposes_S128x128_S128x128_1_0) (shapeCast S1x128 b shapeCasts_S128_S1x128) (i 0)
      = Cert.Spec.senderLin X W b (i 0) := funext fun j => arrLin_spec X W b (i 0) j
  rw [e]
  simp only [shapeCast_a_1a_apply]

end Sender

/-- The sender kernel's output array, as the last boundary holds it, is `Spec.senderOut` of the arguments. -/
theorem sender_result (c : Dev nD) :
    W10 m ρ c (Proc.devRef .tc main_v33)
      = Cert.Spec.senderOut (m ((c : Thread nD τ).loc main_arg0)) (m ((c : Thread nD τ).loc main_arg12)) (m ((c : Thread nD τ).loc main_arg13)) (m ((c : Thread nD τ).loc main_arg14)) (m ((c : Thread nD τ).loc main_arg15)) := by
  refine (W10_arr m ρ c 5).trans ((Sender.region_value (V9 m ρ) c).trans ?_)
  rw [Sender.entry_x m ρ c, Sender.entry_w m ρ c, Sender.entry_b m ρ c, Sender.entry_g m ρ c, Sender.entry_s m ρ c]
  exact Sender.sendG_spec _ _ _ _ _

end Cert.KernelIdeal.KValue

end
-- ==== Proof.IdxFacts.lean ====
/-
  Facts about node numbers in range.  For a flat vector of node numbers all at least 0 and below 100000, adding 100000
  to the negative entries (how an index counted from the end is wrapped) changes nothing; and the two rows of an
  edge list whose entries are all in range are such vectors.
-/
import proofs.«418128_j9191230013922_2_alg».proof.Proof.Glue
import Idealize.ShloMosaic.Lib.Affine
import Idealize.ShloMosaic.Lib.ValueIdx

noncomputable section

namespace Cert.Glue

open Idealize.ShloMosaic Cert.KernelIdeal Cert.KernelIdeal.Facts₀

/-- Wrapping negative entries by 100000 leaves an in-range vector as it is. -/
theorem wrap_eq (v : IVec S600000 32) (hv : ∀ i, 0 ≤ (v i).toInt ∧ (v i).toInt < 100000) :
    select (cmpi .slt v (broadcastInDim S600000 ![] bcast_S_S600000 (constantI S_ 32 0#32)))
      (addi v (broadcastInDim S600000 ![] bcast_S_S600000 (constantI S_ 32 100000#32))) v = v := by
  funext i
  -- an entry that is at least 0 as a signed integer does not test "less than 0"
  have h0 : ¬ IntOp.cmpi .slt (v i) 0#32 = 1#1 := by
    rw [IntOp.cmpi_slt, show (0#32 : BitVec 32).toInt = 0 from by decide]
    exact not_lt.mpr (hv i).1
  -- at entry i the select reads the compare's bit, the broadcast scalars being 0 and 100000 everywhere
  show Scalar.select (IntOp.cmpi .slt (v i) 0#32) (IntOp.addi (v i) 100000#32) (v i) = v i
  rw [ValueIdx.eq_zero_of_ne_one h0, ValueIdx.select_zero]

/-- The source row of an in-range edge list is in range. -/
theorem srcFlat_range (e : IVec S2x600000 32) (hin : InRange e) (i : S600000.Idx) :
    0 ≤ (srcFlat e i).toInt ∧ (srcFlat e i).toInt < 100000 := by
  -- a reshape of a slice reads, at each index, the edge list at one index
  unfold srcFlat shapeCast extractStridedSlice
  exact hin _

/-- The destination row of an in-range edge list is in range. -/
theorem dstFlat_range (e : IVec S2x600000 32) (hin : InRange e) (i : S600000.Idx) :
    0 ≤ (dstFlat e i).toInt ∧ (dstFlat e i).toInt < 100000 := by
  unfold dstFlat shapeCast extractStridedSlice
  exact hin _

end Cert.Glue

end
-- ==== Proof.KEdgeBody.lean ====
/-
  One block of the edge kernel, entry by entry.  The body takes a block of 4000 gathered sender rows x0, of 4000
  gathered receiver rows x1, of 4000 edge rows x2, three 128 x 128 matrices x3 x4 x5, and three rows x6 (bias), x7
  (scale), x8 (shift).  Row p of its pre-activations is the sum of the three products of row p of x0, x1, x2 with the
  matrices, plus the bias (`lin`); the activations are silu twice of that; the mean of a row of activations is carried
  as a column; the first output is the layer norm of the activations, the second adds the edge's own row back.
  Every change of float format is the identity on the extended reals.
-/
import proofs.«418128_j9191230013922_2_alg».proof.Proof.Gen.KernelIdeal.Frame
import proofs.«418128_j9191230013922_2_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KValue.Edge.Body

open Idealize.ShloMosaic Idealize.ShloMosaic.ValueIdx
open Cert.KernelIdeal Cert.KernelIdeal.Gen

/-! ## Layout operations of the block body read at an index -/

/-- A column [a, 1] broadcast to [a, b] reads, at (p, q), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (p, u), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the 128 lanes of a block, at row p. -/
theorem rowSum_apply (src : FVec Ideal S4000x128 .f32) (h : S4000x128.Reduces [1] S4000) (hφ : FKind.Formats .f32)
    (hacc : (0x00000000#32 : BitVec 32) = 0x00000000#32) (p : Fin 4000) :
    multiReduction .add [1] S4000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  refine Fin.ext ?_
  match a with
  | ⟨0, _⟩ => rfl
  | ⟨1, _⟩ => rfl

/-! ## The block matmul read at an index -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] block times a [128,128] matrix into zero, at (p, q): the sum over the 128 shared coordinates. -/
theorem matmul_at {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The block body's values at an index -/

section Block
variable (x0 x1 : FVec Ideal S4000x128 .bf16) (x2 : FVec Ideal S4000x128 .f32) (x3 x4 x5 : FVec Ideal S128x128 .f32)
  (x6 x7 x8 : FVec Ideal S1x128 .f32)

/-- Row p of the block's pre-activations: the three partial sums and the bias. -/
def lin (p : Fin 4000) (j : Fin 128) : EReal :=
  (((∑ k : Fin 128, x0 (ix2 p k) * x3 (ix2 k j)) + ∑ k : Fin 128, x1 (ix2 p k) * x4 (ix2 k j))
    + ∑ k : Fin 128, x2 (ix2 p k) * x5 (ix2 k j)) + x6 (ix2 (0 : Fin 1) j)

/-- The block's activations: silu twice of the pre-activations. -/
theorem act_at (p : Fin 4000) (q : Fin 128) :
    k0_pay3 (F := Ideal) x0 x1 x2 x3 x4 x5 x6 (ix2 p q) = Cert.Spec.silu (Cert.Spec.silu (lin x0 x1 x2 x3 x4 x5 x6 p q)) := by
  unfold k0_pay3
  simp only [shapeCast_self]
  have hz : addf (addf (addf (matmul dot_S4000x128_S128x128_S4000x128_1_0_0_1_n_n none x0 (truncf .bf16 x3 bitsLt_bf16_f32) (constant (F := Ideal) S4000x128 .f32 0x00000000#32))
        (matmul dot_S4000x128_S128x128_S4000x128_1_0_0_1_n_n none x1 (truncf .bf16 x4 bitsLt_bf16_f32) (constant (F := Ideal) S4000x128 .f32 0x00000000#32)))
        (matmul dot_S4000x128_S128x128_S4000x128_1_0_0_1_n_n none (truncf .bf16 x2 bitsLt_bf16_f32) (truncf .bf16 x5 bitsLt_bf16_f32) (constant (F := Ideal) S4000x128 .f32 0x00000000#32)))
        (broadcastTo S4000x128 x6 broadcasts_S1x128_S4000x128) (ix2 p q) = lin x0 x1 x2 x3 x4 x5 x6 p q := by
    show ((_ + _) + _) + _ = _
    rw [matmul_at, matmul_at, matmul_at, broadcastTo_1b_ab_apply]
    rfl
  refine Eq.trans ?_ (congrArg (fun z => Cert.Spec.silu (Cert.Spec.silu z)) hz)
  rfl

/-- The mean over row p of the block's activations, as the column the body carries. -/
theorem mean_at (p : Fin 4000) (u : Fin 1) :
    k0_pay6 (F := Ideal) x0 x1 x2 x3 x4 x5 x6 (ix2 p u)
      = Cert.Spec.mean (fun k => Cert.Spec.silu (Cert.Spec.silu (lin x0 x1 x2 x3 x4 x5 x6 p k))) := by
  unfold k0_pay6
  simp only [divf_apply, broadcast_apply, shapeCast_a_a1_apply]
  rw [rowSum_apply]
  simp only [act_at]
  rfl

end Block

section Norm

theorem rsqrt_apply {s : Shape} {φ : FTy} (a : FVec Ideal s φ) (i : s.Idx) : rsqrt a i = Ideal.rsqrt (a i) := rfl

variable (v27 : FVec Ideal S4000x128 .f32) (v29 v31 : FVec Ideal S1x128 .f32) (v35 : FVec Ideal S4000x1 .f32)

/-- The normalisation of a block of rows v27 whose means are the column v35, with scale row v29 and shift row v31. -/
theorem norm_at (p : Fin 4000) (q : Fin 128) :
    k0_pay1 (F := Ideal) v27 v29 v31 v35 (ix2 p q)
      = ((v27 (ix2 p q) - v35 (ix2 p (0 : Fin 1))) * Ideal.rsqrt (Ideal.div (∑ k : Fin 128, (v27 (ix2 p k) - v35 (ix2 p (0 : Fin 1))) * (v27 (ix2 p k) - v35 (ix2 p (0 : Fin 1)))) Cert.Spec.len + Cert.Spec.eps)) * v29 (ix2 (0 : Fin 1) q) + v31 (ix2 (0 : Fin 1) q) := by
  unfold k0_pay1
  simp only [addf_apply, mulf_apply, subf_apply, divf_apply, rsqrt_apply, broadcast_apply, broadcastTo_a1_ab_apply, broadcastTo_1b_ab_apply, shapeCast_a_a1_apply]
  rw [rowSum_apply]
  simp only [mulf_apply, subf_apply, broadcastTo_a1_ab_apply]
  rfl

end Norm

section Out
variable (x0 x1 : FVec Ideal S4000x128 .bf16) (x2 : FVec Ideal S4000x128 .f32) (x3 x4 x5 : FVec Ideal S128x128 .f32)
  (x6 x7 x8 : FVec Ideal S1x128 .f32)

theorem hz : (![0, 0] : Fin 2 → Nat) = fun _ => 0 := funext fun a => by fin_cases a <;> rfl

/-- The first output block at (p, q): the block nonlinearity of row p's pre-activations. -/
theorem new_at (p : Fin 4000) (q : Fin 128) :
    out0_9 (F := Ideal) x0 x1 x2 x3 x4 x5 x6 x7 x8 (ix2 p q)
      = Cert.Spec.mlp (lin x0 x1 x2 x3 x4 x5 x6 p) (fun j => x7 (ix2 (0 : Fin 1) j)) (fun j => x8 (ix2 (0 : Fin 1) j)) q := by
  unfold out0_9
  rw [View.canon_unit_zero hz]
  simp only [View.ld_unit_zero (S := S4000x128) hz, View.ld_unit_zero (S := S128x128) hz, View.ld_unit_zero (S := S1x128) hz]
  rw [norm_at]
  unfold k0_pay4 k0_pay5
  simp only [shapeCast_self, act_at, mean_at]
  rfl

/-- The second output block at (p, q): the edge's own entry plus the first output's. -/
theorem out_at (p : Fin 4000) (q : Fin 128) :
    out0_10 (F := Ideal) x0 x1 x2 x3 x4 x5 x6 x7 x8 (ix2 p q)
      = x2 (ix2 p q) + Cert.Spec.mlp (lin x0 x1 x2 x3 x4 x5 x6 p) (fun j => x7 (ix2 (0 : Fin 1) j)) (fun j => x8 (ix2 (0 : Fin 1) j)) q := by
  unfold out0_10
  rw [View.canon_unit_zero hz]
  simp only [View.ld_unit_zero (S := S4000x128) hz, View.ld_unit_zero (S := S128x128) hz, View.ld_unit_zero (S := S1x128) hz]
  unfold k0_pay2
  rw [addf_apply, norm_at]
  unfold k0_pay4 k0_pay5
  simp only [shapeCast_self, act_at, mean_at]
  rfl

end Out

end Cert.KernelIdeal.KValue.Edge.Body

end
-- ==== Proof.KEdgeBlocks.lean ====
/-
  From the edge kernel's blocks to its two output arrays.  The grid has 150 points; at point t the three row-blocked
  input windows and the two output windows are at rows 4000 t … 4000 t + 3999 of their arrays and the other six windows
  hold their whole arrays.  So what point t writes back is block t of one function of the whole arrays (row e of the
  output depends on row e of the three row arrays only), every row e is in the block of point e / 4000, and the output
  arrays end holding that function.  With the input arrays the gathered rows, the transposed thirds of the weight and the
  reshaped rows, the function is the specification's.
-/
import proofs.«418128_j9191230013922_2_alg».proof.Proof.Gen.KernelIdeal.Frame
import proofs.«418128_j9191230013922_2_alg».proof.Proof.Spec
import proofs.«418128_j9191230013922_2_alg».proof.Proof.KEdgeBody
import Idealize.ShloMosaic.Lib.Pipeline.Value
import Idealize.ShloMosaic.Lib.ValueLayout

set_option maxRecDepth 16384

noncomputable section

open scoped BigOperators

namespace Cert.KernelIdeal.KValue.Edge.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The whole arrays' function -/

section Arrays
variable (sA rA : FVec Ideal S600000x128 .bf16) (eA : FVec Ideal S600000x128 .f32) (w0 w1 w2 : FVec Ideal S128x128 .f32)
  (b g bb : FVec Ideal S1x128 .f32)

/-- Row e of the pre-activations, from the whole arrays of gathered sender rows, gathered receiver rows and edge rows. -/
def linArr (e : Fin 600000) (j : Fin 128) : EReal :=
  (((∑ k : Fin 128, sA (ix2 e k) * w0 (ix2 k j)) + ∑ k : Fin 128, rA (ix2 e k) * w1 (ix2 k j))
    + ∑ k : Fin 128, eA (ix2 e k) * w2 (ix2 k j)) + b (ix2 (0 : Fin 1) j)

/-- The first output array: the block nonlinearity of each row's pre-activations. -/
def newArr : S600000x128.Idx → EReal := fun i =>
  Cert.Spec.mlp (linArr sA rA eA w0 w1 w2 b (i 0)) (fun j => g (ix2 (0 : Fin 1) j)) (fun j => bb (ix2 (0 : Fin 1) j)) (i 1)

/-- The second output array: the edge's own row added back. -/
def outArr : S600000x128.Idx → EReal := fun i => eA i + newArr sA rA eA w0 w1 w2 b g bb i

variable (x0 x1 : FVec Ideal S4000x128 .bf16) (x2 : FVec Ideal S4000x128 .f32) (x3 x4 x5 : FVec Ideal S128x128 .f32)
  (x6 x7 x8 : FVec Ideal S1x128 .f32)

/-- Row p of a block whose rows p are the arrays' rows e has the arrays' pre-activations of row e. -/
theorem lin_blk (p : Fin 4000) (e : Fin 600000)
    (h0 : ∀ k, x0 (ix2 p k) = sA (ix2 e k)) (h1 : ∀ k, x1 (ix2 p k) = rA (ix2 e k)) (h2 : ∀ k, x2 (ix2 p k) = eA (ix2 e k))
    (h3 : ∀ k j, x3 (ix2 k j) = w0 (ix2 k j)) (h4 : ∀ k j, x4 (ix2 k j) = w1 (ix2 k j)) (h5 : ∀ k j, x5 (ix2 k j) = w2 (ix2 k j))
    (h6 : ∀ j, x6 (ix2 (0 : Fin 1) j) = b (ix2 (0 : Fin 1) j)) :
    Cert.KernelIdeal.KValue.Edge.Body.lin x0 x1 x2 x3 x4 x5 x6 p = linArr sA rA eA w0 w1 w2 b e := by
  funext j
  unfold Cert.KernelIdeal.KValue.Edge.Body.lin linArr
  simp only [h0, h1, h2, h3, h4, h5, h6]

theorem new_blk (p : Fin 4000) (e : Fin 600000) (q : Fin 128)
    (h0 : ∀ k, x0 (ix2 p k) = sA (ix2 e k)) (h1 : ∀ k, x1 (ix2 p k) = rA (ix2 e k)) (h2 : ∀ k, x2 (ix2 p k) = eA (ix2 e k))
    (h3 : ∀ k j, x3 (ix2 k j) = w0 (ix2 k j)) (h4 : ∀ k j, x4 (ix2 k j) = w1 (ix2 k j)) (h5 : ∀ k j, x5 (ix2 k j) = w2 (ix2 k j))
    (h6 : ∀ j, x6 (ix2 (0 : Fin 1) j) = b (ix2 (0 : Fin 1) j)) (h7 : ∀ j, x7 (ix2 (0 : Fin 1) j) = g (ix2 (0 : Fin 1) j))
    (h8 : ∀ j, x8 (ix2 (0 : Fin 1) j) = bb (ix2 (0 : Fin 1) j)) :
    out0_9 (F := Ideal) x0 x1 x2 x3 x4 x5 x6 x7 x8 (ix2 p q) = newArr sA rA eA w0 w1 w2 b g bb (ix2 e q) := by
  rw [Cert.KernelIdeal.KValue.Edge.Body.new_at, lin_blk sA rA eA w0 w1 w2 b x0 x1 x2 x3 x4 x5 x6 p e h0 h1 h2 h3 h4 h5 h6]
  simp only [h7, h8]
  rfl

theorem out_blk (p : Fin 4000) (e : Fin 600000) (q : Fin 128)
    (h0 : ∀ k, x0 (ix2 p k) = sA (ix2 e k)) (h1 : ∀ k, x1 (ix2 p k) = rA (ix2 e k)) (h2 : ∀ k, x2 (ix2 p k) = eA (ix2 e k))
    (h3 : ∀ k j, x3 (ix2 k j) = w0 (ix2 k j)) (h4 : ∀ k j, x4 (ix2 k j) = w1 (ix2 k j)) (h5 : ∀ k j, x5 (ix2 k j) = w2 (ix2 k j))
    (h6 : ∀ j, x6 (ix2 (0 : Fin 1) j) = b (ix2 (0 : Fin 1) j)) (h7 : ∀ j, x7 (ix2 (0 : Fin 1) j) = g (ix2 (0 : Fin 1) j))
    (h8 : ∀ j, x8 (ix2 (0 : Fin 1) j) = bb (ix2 (0 : Fin 1) j)) :
    out0_10 (F := Ideal) x0 x1 x2 x3 x4 x5 x6 x7 x8 (ix2 p q) = outArr sA rA eA w0 w1 w2 b g bb (ix2 e q) := by
  rw [Cert.KernelIdeal.KValue.Edge.Body.out_at, lin_blk sA rA eA w0 w1 w2 b x0 x1 x2 x3 x4 x5 x6 p e h0 h1 h2 h3 h4 h5 h6]
  simp only [h7, h8, h2 q]
  rfl

end Arrays

/-! ## The windows' blocks, read off the arrays -/

/-- The printed index maps over the grid: the row-blocked windows are at block t, the others at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

section Region
variable (V : (c : Dev nD) → (b : Ref sig .tc) → Buf (Elt Ideal) ((c : Thread nD τ).loc b))

theorem row_lt (t : Fin cfg0.N) (p : Fin 4000) : 4000 * t.val + p.val < 600000 := by
  have hN : grid0.N = 150 := N_0
  have ht : t.val < grid0.N := t.isLt
  have hp := p.isLt
  omega

theorem blk0_read (c : Dev nD) (t : Fin cfg0.N) (p : Fin 4000) (k : Fin 128) :
    iblk0 V c 0 t (ix2 p k) = V c main_v5 (ix2 ⟨4000 * t.val + p.val, row_lt t p⟩ k) := by
  obtain ⟨e0, e1⟩ := (idx_facts t).1
  unfold iblk0
  rw [View.read_apply]
  show V c main_v5 _ = V c main_v5 _
  refine congrArg (V c main_v5) ?_
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

theorem blk1_read (c : Dev nD) (t : Fin cfg0.N) (p : Fin 4000) (k : Fin 128) :
    iblk0 V c 1 t (ix2 p k) = V c main_v7 (ix2 ⟨4000 * t.val + p.val, row_lt t p⟩ k) := by
  obtain ⟨e0, e1⟩ := (idx_facts t).2.1
  unfold iblk0
  rw [View.read_apply]
  show V c main_v7 _ = V c main_v7 _
  refine congrArg (V c main_v7) ?_
  funext a
  apply Fin.ext
  match a with
  | ⟨0, _⟩ => show win0_1.index t (0 : Fin 2) * 4000 + 1 * p.val = 4000 * t.val + p.val; rw [e0]; omega
  | ⟨1, _⟩ => show win0_1.index t (1 : Fin 2) * 128 + 1 * k.val = k.val; rw [e1]; omega

theorem blk2_read (c : Dev nD) (t : Fin cfg0.N) (p : Fin 4000) (k : Fin 128) :
    iblk0 V c 2 t (ix2 p k) = V c main_arg3 (ix2 ⟨4000 * t.val + p.val, row_lt t p⟩ k) := by
  obtain ⟨e0, e1⟩ := (idx_facts t).2.2.1
  unfold iblk0
  rw [View.read_apply]
  show V c main_arg3 _ = V c main_arg3 _
  refine congrArg (V c main_arg3) ?_
  funext a
  apply Fin.ext
  match a with
  | ⟨0, _⟩ => show win0_2.index t (0 : Fin 2) * 4000 + 1 * p.val = 4000 * t.val + p.val; rw [e0]; omega
  | ⟨1, _⟩ => show win0_2.index t (1 : Fin 2) * 128 + 1 * k.val = k.val; rw [e1]; omega

theorem blk3_read (c : Dev nD) (t : Fin cfg0.N) (k : Fin 128) (j : Fin 128) :
    iblk0 V c 3 t (ix2 k j) = V c main_v9 (ix2 k j) := by
  obtain ⟨e0, e1⟩ := (idx_facts t).2.2.2.1
  unfold iblk0
  rw [View.read_apply]
  show V c main_v9 _ = V c main_v9 _
  refine congrArg (V c main_v9) ?_
  funext a
  apply Fin.ext
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem blk4_read (c : Dev nD) (t : Fin cfg0.N) (k : Fin 128) (j : Fin 128) :
    iblk0 V c 4 t (ix2 k j) = V c main_v11 (ix2 k j) := by
  obtain ⟨e0, e1⟩ := (idx_facts t).2.2.2.2.1
  unfold iblk0
  rw [View.read_apply]
  show V c main_v11 _ = V c main_v11 _
  refine congrArg (V c main_v11) ?_
  funext a
  apply Fin.ext
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem blk5_read (c : Dev nD) (t : Fin cfg0.N) (k : Fin 128) (j : Fin 128) :
    iblk0 V c 5 t (ix2 k j) = V c main_v13 (ix2 k j) := by
  obtain ⟨e0, e1⟩ := (idx_facts t).2.2.2.2.2.1
  unfold iblk0
  rw [View.read_apply]
  show V c main_v13 _ = V c main_v13 _
  refine congrArg (V c main_v13) ?_
  funext a
  apply Fin.ext
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem blk6_read (c : Dev nD) (t : Fin cfg0.N) (k : Fin 1) (j : Fin 128) :
    iblk0 V c 6 t (ix2 k j) = V c main_v14 (ix2 k j) := by
  obtain ⟨e0, e1⟩ := (idx_facts t).2.2.2.2.2.2.1
  unfold iblk0
  rw [View.read_apply]
  show V c main_v14 _ = V c main_v14 _
  refine congrArg (V c main_v14) ?_
  funext a
  apply Fin.ext
  match a with
  | ⟨0, _⟩ => show win0_6.index t (0 : Fin 2) * 1 + 1 * k.val = k.val; rw [e0]; omega
  | ⟨1, _⟩ => show win0_6.index t (1 : Fin 2) * 128 + 1 * j.val = j.val; rw [e1]; omega

theorem blk7_read (c : Dev nD) (t : Fin cfg0.N) (k : Fin 1) (j : Fin 128) :
    iblk0 V c 7 t (ix2 k j) = V c main_v15 (ix2 k j) := by
  obtain ⟨e0, e1⟩ := (idx_facts t).2.2.2.2.2.2.2.1
  unfold iblk0
  rw [View.read_apply]
  show V c main_v15 _ = V c main_v15 _
  refine congrArg (V c main_v15) ?_
  funext a
  apply Fin.ext
  match a with
  | ⟨0, _⟩ => show win0_7.index t (0 : Fin 2) * 1 + 1 * k.val = k.val; rw [e0]; omega
  | ⟨1, _⟩ => show win0_7.index t (1 : Fin 2) * 128 + 1 * j.val = j.val; rw [e1]; omega

theorem blk8_read (c : Dev nD) (t : Fin cfg0.N) (k : Fin 1) (j : Fin 128) :
    iblk0 V c 8 t (ix2 k j) = V c main_v16 (ix2 k j) := by
  obtain ⟨e0, e1⟩ := (idx_facts t).2.2.2.2.2.2.2.2.1
  unfold iblk0
  rw [View.read_apply]
  show V c main_v16 _ = V c main_v16 _
  refine congrArg (V c main_v16) ?_
  funext a
  apply Fin.ext
  match a with
  | ⟨0, _⟩ => show win0_8.index t (0 : Fin 2) * 1 + 1 * k.val = k.val; rw [e0]; omega
  | ⟨1, _⟩ => show win0_8.index t (1 : Fin 2) * 128 + 1 * j.val = j.val; rw [e1]; omega

/-- Point t's block of output window 9 sits at rows 4000 t … 4000 t + 3999 of its array. -/
theorem emb9 (t : Fin cfg0.N) (p : Fin 4000) (q : Fin 128) :
    ((cfg0.win 9).blk t).view.emb (ix2 p q) = ix2 (⟨4000 * t.val + p.val, row_lt t p⟩ : Fin 600000) q := by
  obtain ⟨e0, e1⟩ := (idx_facts t).2.2.2.2.2.2.2.2.2.1
  funext a
  apply Fin.ext
  match a with
  | ⟨0, _⟩ => show win0_9.index t (0 : Fin 2) * 4000 + 1 * p.val = 4000 * t.val + p.val; rw [e0]; omega
  | ⟨1, _⟩ => show win0_9.index t (1 : Fin 2) * 128 + 1 * q.val = q.val; rw [e1]; omega

/-- What point t writes back through window 9 is block t of the whole-array function. -/
theorem flushed9_eq (c : Dev nD) (t : Fin cfg0.N) :
    (dat0 V c).flushed 9 t = ((cfg0.win 9).blk t).view.read (Elt Ideal)
      (newArr (V c main_v5) (V c main_v7) (V c main_arg3) (V c main_v9) (V c main_v11) (V c main_v13) (V c main_v14) (V c main_v15) (V c main_v16)) := by
  show (cfg0.win 9).cut (grid0.coords t) ((dat0 V c).after 9 t) = _
  rw [after0_9]
  funext j
  obtain ⟨p, q, rfl⟩ : ∃ (p : Fin 4000) (q : Fin 128), j = ix2 p q := ⟨j 0, j 1, eq_ix2 j⟩
  rw [View.read_apply, emb9 t p q]
  exact new_blk (V c main_v5) (V c main_v7) (V c main_arg3) (V c main_v9) (V c main_v11) (V c main_v13) (V c main_v14) (V c main_v15) (V c main_v16)
    (iblk0 V c 0 t) (iblk0 V c 1 t) (iblk0 V c 2 t) (iblk0 V c 3 t) (iblk0 V c 4 t) (iblk0 V c 5 t) (iblk0 V c 6 t) (iblk0 V c 7 t) (iblk0 V c 8 t)
    p ⟨4000 * t.val + p.val, row_lt t p⟩ q
    (fun k => blk0_read V c t p k) (fun k => blk1_read V c t p k) (fun k => blk2_read V c t p k)
    (fun k j => blk3_read V c t k j) (fun k j => blk4_read V c t k j) (fun k j => blk5_read V c t k j)
    (fun j => blk6_read V c t 0 j) (fun j => blk7_read V c t 0 j) (fun j => blk8_read V c t 0 j)

/-- Every row of the array is in the block of the point numbered by the row's quotient by 4000. -/
theorem cover9 (i : S600000x128.Idx) :
    ∃ t : Fin cfg0.N, (cfg0.win 9).flush t = true ∧ i ∈ ((cfg0.win 9).blk t).view.set := by
  have h0 : (i 0).val < 600000 := (i 0).isLt
  have h1 : (i 1).val < 128 := (i 1).isLt
  have hN : grid0.N = 150 := N_0
  have ht : (i 0).val / 4000 < cfg0.N := by show _ < grid0.N; rw [hN]; omega
  refine ⟨⟨(i 0).val / 4000, ht⟩, flush0_9 _, ?_⟩
  obtain ⟨e0, e1⟩ := (idx_facts ⟨(i 0).val / 4000, ht⟩).2.2.2.2.2.2.2.2.2.1
  show i ∈ ((View.whole main_v17_0).slice (win0_9.rect ⟨(i 0).val / 4000, ht⟩)).set
  rw [View.set_slice_whole, Rect.mem_set_unit]
  intro a
  match a with
  | ⟨0, _⟩ =>
    show win0_9.index ⟨(i 0).val / 4000, ht⟩ (0 : Fin 2) * 4000 ≤ (i 0).val ∧ (i 0).val < win0_9.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_9.index ⟨(i 0).val / 4000, ht⟩ (1 : Fin 2) * 128 ≤ (i 1).val ∧ (i 1).val < win0_9.index ⟨(i 0).val / 4000, ht⟩ (1 : Fin 2) * 128 + 128
    rw [e1]
    omega

/-- The array of output window 9 after the region. -/
theorem final9 (c : Dev nD) :
    (dat0 V c).arrAt 9 cfg0.N
      = newArr (V c main_v5) (V c main_v7) (V c main_arg3) (V c main_v9) (V c main_v11) (V c main_v13) (V c main_v14) (V c main_v15) (V c main_v16) :=
  (dat0 V c).arrAt_eq_of_cover 9 _ (fun t _ => flushed9_eq V c t) cover9

/-- Point t's block of output window 10 sits at rows 4000 t … 4000 t + 3999 of its array. -/
theorem emb10 (t : Fin cfg0.N) (p : Fin 4000) (q : Fin 128) :
    ((cfg0.win 10).blk t).view.emb (ix2 p q) = ix2 (⟨4000 * t.val + p.val, row_lt t p⟩ : Fin 600000) q := by
  obtain ⟨e0, e1⟩ := (idx_facts t).2.2.2.2.2.2.2.2.2.2
  funext a
  apply Fin.ext
  match a with
  | ⟨0, _⟩ => show win0_10.index t (0 : Fin 2) * 4000 + 1 * p.val = 4000 * t.val + p.val; rw [e0]; omega
  | ⟨1, _⟩ => show win0_10.index t (1 : Fin 2) * 128 + 1 * q.val = q.val; rw [e1]; omega

/-- What point t writes back through window 10 is block t of the whole-array function. -/
theorem flushed10_eq (c : Dev nD) (t : Fin cfg0.N) :
    (dat0 V c).flushed 10 t = ((cfg0.win 10).blk t).view.read (Elt Ideal)
      (outArr (V c main_v5) (V c main_v7) (V c main_arg3) (V c main_v9) (V c main_v11) (V c main_v13) (V c main_v14) (V c main_v15) (V c main_v16)) := by
  show (cfg0.win 10).cut (grid0.coords t) ((dat0 V c).after 10 t) = _
  rw [after0_10]
  funext j
  obtain ⟨p, q, rfl⟩ : ∃ (p : Fin 4000) (q : Fin 128), j = ix2 p q := ⟨j 0, j 1, eq_ix2 j⟩
  rw [View.read_apply, emb10 t p q]
  exact out_blk (V c main_v5) (V c main_v7) (V c main_arg3) (V c main_v9) (V c main_v11) (V c main_v13) (V c main_v14) (V c main_v15) (V c main_v16)
    (iblk0 V c 0 t) (iblk0 V c 1 t) (iblk0 V c 2 t) (iblk0 V c 3 t) (iblk0 V c 4 t) (iblk0 V c 5 t) (iblk0 V c 6 t) (iblk0 V c 7 t) (iblk0 V c 8 t)
    p ⟨4000 * t.val + p.val, row_lt t p⟩ q
    (fun k => blk0_read V c t p k) (fun k => blk1_read V c t p k) (fun k => blk2_read V c t p k)
    (fun k j => blk3_read V c t k j) (fun k j => blk4_read V c t k j) (fun k j => blk5_read V c t k j)
    (fun j => blk6_read V c t 0 j) (fun j => blk7_read V c t 0 j) (fun j => blk8_read V c t 0 j)

/-- Every row of the array is in the block of the point numbered by the row's quotient by 4000. -/
theorem cover10 (i : S600000x128.Idx) :
    ∃ t : Fin cfg0.N, (cfg0.win 10).flush t = true ∧ i ∈ ((cfg0.win 10).blk t).view.set := by
  have h0 : (i 0).val < 600000 := (i 0).isLt
  have h1 : (i 1).val < 128 := (i 1).isLt
  have hN : grid0.N = 150 := N_0
  have ht : (i 0).val / 4000 < cfg0.N := by show _ < grid0.N; rw [hN]; omega
  refine ⟨⟨(i 0).val / 4000, ht⟩, flush0_10 _, ?_⟩
  obtain ⟨e0, e1⟩ := (idx_facts ⟨(i 0).val / 4000, ht⟩).2.2.2.2.2.2.2.2.2.2
  show i ∈ ((View.whole main_v17_1).slice (win0_10.rect ⟨(i 0).val / 4000, ht⟩)).set
  rw [View.set_slice_whole, Rect.mem_set_unit]
  intro a
  match a with
  | ⟨0, _⟩ =>
    show win0_10.index ⟨(i 0).val / 4000, ht⟩ (0 : Fin 2) * 4000 ≤ (i 0).val ∧ (i 0).val < win0_10.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_10.index ⟨(i 0).val / 4000, ht⟩ (1 : Fin 2) * 128 ≤ (i 1).val ∧ (i 1).val < win0_10.index ⟨(i 0).val / 4000, ht⟩ (1 : Fin 2) * 128 + 128
    rw [e1]
    omega

/-- The array of output window 10 after the region. -/
theorem final10 (c : Dev nD) :
    (dat0 V c).arrAt 10 cfg0.N
      = outArr (V c main_v5) (V c main_v7) (V c main_arg3) (V c main_v9) (V c main_v11) (V c main_v13) (V c main_v14) (V c main_v15) (V c main_v16) :=
  (dat0 V c).arrAt_eq_of_cover 10 _ (fun t _ => flushed10_eq V c t) cover10

end Region

/-! ## The whole arrays' function is the specification's -/

section SpecEq

/-- A third of the weight's columns, transposed, at (k, j): the weight at row j and the third's column k. -/
theorem wT0_at (W : FVec Ideal S128x384 .f32) (hs : S128x384.Slices ![0, 0] S128x128) (ht : S128x128.Transposes [1, 0] S128x128) (k j : Fin 128) :
    transpose S128x128 [1, 0] (extractStridedSlice S128x128 ![0, 0] W hs) ht (ix2 k j) = W (ix2 j (Cert.Spec.third0 k)) :=
  (transpose_ix2_apply _ ht k j).trans (slice2_axis1_apply 0 W hs j k (Cert.Spec.third0 k) (Nat.zero_add _).symm)
theorem wT1_at (W : FVec Ideal S128x384 .f32) (hs : S128x384.Slices ![0, 128] S128x128) (ht : S128x128.Transposes [1, 0] S128x128) (k j : Fin 128) :
    transpose S128x128 [1, 0] (extractStridedSlice S128x128 ![0, 128] W hs) ht (ix2 k j) = W (ix2 j (Cert.Spec.third1 k)) :=
  (transpose_ix2_apply _ ht k j).trans (slice2_axis1_apply 128 W hs j k (Cert.Spec.third1 k) rfl)
theorem wT2_at (W : FVec Ideal S128x384 .f32) (hs : S128x384.Slices ![0, 256] S128x128) (ht : S128x128.Transposes [1, 0] S128x128) (k j : Fin 128) :
    transpose S128x128 [1, 0] (extractStridedSlice S128x128 ![0, 256] W hs) ht (ix2 k j) = W (ix2 j (Cert.Spec.third2 k)) :=
  (transpose_ix2_apply _ ht k j).trans (slice2_axis1_apply 256 W hs j k (Cert.Spec.third2 k) rfl)

variable (sA rA : FVec Ideal S600000x128 .bf16) (eA : FVec Ideal S600000x128 .f32) (w0 w1 w2 : FVec Ideal S128x128 .f32)
  (b g bb : FVec Ideal S1x128 .f32)
  (sG rG ea : FVec Ideal S600000x128 .f32) (W : FVec Ideal S128x384 .f32) (b5 g6 bb7 : FVec Ideal S128 .f32)

/-- With the windows' arrays the gathered rows, the transposed thirds of the weight and the reshaped rows, the first output
    array is the specification's new edge features. -/
theorem new_spec (hs : sA = sG) (hr : rA = rG) (he : eA = ea)
    (h0 : w0 = transpose S128x128 [1, 0] (extractStridedSlice S128x128 ![0, 0] W slices_S128x384_S128x128_0_0) transposes_S128x128_S128x128_1_0)
    (h1 : w1 = transpose S128x128 [1, 0] (extractStridedSlice S128x128 ![0, 128] W slices_S128x384_S128x128_0_128) transposes_S128x128_S128x128_1_0)
    (h2 : w2 = transpose S128x128 [1, 0] (extractStridedSlice S128x128 ![0, 256] W slices_S128x384_S128x128_0_256) transposes_S128x128_S128x128_1_0)
    (hb : b = shapeCast S1x128 b5 shapeCasts_S128_S1x128) (hg : g = shapeCast S1x128 g6 shapeCasts_S128_S1x128)
    (hbb : bb = shapeCast S1x128 bb7 shapeCasts_S128_S1x128) :
    newArr sA rA eA w0 w1 w2 b g bb = Cert.Spec.edgeNew sG rG ea W b5 g6 bb7 := by
  subst hs hr he h0 h1 h2 hb hg hbb
  funext i
  unfold newArr Cert.Spec.edgeNew
  have hl : linArr sA rA eA
      (transpose S128x128 [1, 0] (extractStridedSlice S128x128 ![0, 0] W slices_S128x384_S128x128_0_0) transposes_S128x128_S128x128_1_0)
      (transpose S128x128 [1, 0] (extractStridedSlice S128x128 ![0, 128] W slices_S128x384_S128x128_0_128) transposes_S128x128_S128x128_1_0)
      (transpose S128x128 [1, 0] (extractStridedSlice S128x128 ![0, 256] W slices_S128x384_S128x128_0_256) transposes_S128x128_S128x128_1_0)
      (shapeCast S1x128 b5 shapeCasts_S128_S1x128) (i 0) = Cert.Spec.edgeLin sA rA eA W b5 (i 0) := by
    funext j
    unfold linArr Cert.Spec.edgeLin
    simp only [wT0_at W slices_S128x384_S128x128_0_0 transposes_S128x128_S128x128_1_0,
      wT1_at W slices_S128x384_S128x128_0_128 transposes_S128x128_S128x128_1_0,
      wT2_at W slices_S128x384_S128x128_0_256 transposes_S128x128_S128x128_1_0, shapeCast_a_1a_apply]
  rw [hl]
  simp only [shapeCast_a_1a_apply]

/-- And the second output array is the specification's updated edge features. -/
theorem out_spec (hs : sA = sG) (hr : rA = rG) (he : eA = ea)
    (h0 : w0 = transpose S128x128 [1, 0] (extractStridedSlice S128x128 ![0, 0] W slices_S128x384_S128x128_0_0) transposes_S128x128_S128x128_1_0)
    (h1 : w1 = transpose S128x128 [1, 0] (extractStridedSlice S128x128 ![0, 128] W slices_S128x384_S128x128_0_128) transposes_S128x128_S128x128_1_0)
    (h2 : w2 = transpose S128x128 [1, 0] (extractStridedSlice S128x128 ![0, 256] W slices_S128x384_S128x128_0_256) transposes_S128x128_S128x128_1_0)
    (hb : b = shapeCast S1x128 b5 shapeCasts_S128_S1x128) (hg : g = shapeCast S1x128 g6 shapeCasts_S128_S1x128)
    (hbb : bb = shapeCast S1x128 bb7 shapeCasts_S128_S1x128) :
    outArr sA rA eA w0 w1 w2 b g bb = Cert.Spec.edgeOut sG rG ea W b5 g6 bb7 := by
  funext i
  unfold outArr Cert.Spec.edgeOut
  rw [new_spec sA rA eA w0 w1 w2 b g bb sG rG ea W b5 g6 bb7 hs hr he h0 h1 h2 hb hg hbb, he]

end SpecEq

end Cert.KernelIdeal.KValue.Edge.Blocks

end
-- ==== Proof.KEdgeIn.lean ====
/-
  What the edge kernel finds in its input arrays when it is entered, as functions of the argument arrays.  The sender
  (receiver) rows are taken from the node table at the source (destination) node numbers of the edge list: negative
  numbers are moved up by 100000, the rows are gathered, and a fill value is selected where the moved number is not a
  row of the table; with every node number in range nothing is moved, the range test passes everywhere, and the rows taken
  are the gathered rows, carried whole.  The three weight matrices are the transposed thirds of the weight's columns, the
  bias, scale and shift are reshaped to rows, and the edge rows are the argument itself.
-/
import proofs.«418128_j9191230013922_2_alg».proof.Proof.Gen.KernelIdeal.Frame
import proofs.«418128_j9191230013922_2_alg».proof.Proof.Glue
import proofs.«418128_j9191230013922_2_alg».proof.Proof.IdxFacts
import Idealize.ShloMosaic.Lib.Pipeline.Value
import Idealize.ShloMosaic.Lib.ValueLayout
import Idealize.ShloMosaic.Lib.Affine
import Idealize.ShloMosaic.PureOps.Reduce
import Idealize.ShloMosaic.Lib.ReduceAll

set_option maxRecDepth 16384

noncomputable section

namespace Cert.KernelIdeal.KValue.Edge.In

open Idealize.ShloMosaic Idealize.ShloMosaic.TcCoe Idealize.ShloMosaic.ValueIdx Idealize.SL.Sem
open Cert.KernelIdeal Cert.KernelIdeal.Gen

/-! ## Rows of a table taken at a vector of node numbers -/

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Node numbers with the negative ones moved up by 100000. -/
def wrapped (v : IVec S600000 32) : IVec S600000 32 :=
  select (cmpi .slt v (broadcastInDim S600000 ![] bcast_S_S600000 (constantI S_ 32 0#32)))
    (addi v (broadcastInDim S600000 ![] bcast_S_S600000 (constantI S_ 32 100000#32))) v

/-- Per entry of a column of start indices: is it at least 0 and at most 99999. -/
def inb (i : IVec S600000x1 32) : IVec S600000 1 :=
  Host.reduce IntOp.andi
    (andi (cmpi .sge i (broadcastInDim S600000x1 ![] bcast_S_S600000x1 (constantI S_ 32 0#32)))
      (cmpi .sle i (broadcastInDim S600000x1 ![0, 1] bcast_S1x1_S600000x1_0_1 (broadcastInDim S1x1 ![1] bcast_S1_S1x1_1 (constantI S1 32 99999#32)))))
    (constantI S_ 1 1#1) reducesTo_S600000x1_S600000_d1 h_S_

/-- The rows of x at the node numbers v, as the program takes them: wrap, gather, and a fill where the wrapped number
    is not a row of the table. -/
def takeOf (x : FVec Ideal S100000x128 .f32) (v : IVec S600000 32) : FVec Ideal S600000x128 .f32 :=
  select (broadcastInDim S600000x128 ![0] bcast_S600000_S600000x128_0 (inb (Cert.Glue.col (wrapped v))))
    (Cert.Glue.gath x (Cert.Glue.col (wrapped v)))
    (broadcastInDim S600000x128 ![] bcast_S_S600000x128 (constant (F := Ideal) S_ .f32 0x7FC00000#32))

/-- Every entry of a column of in-range node numbers passes the range test. -/
theorem inb_eq_one (i : IVec S600000x1 32) (hi : ∀ n, 0 ≤ (i n).toInt ∧ (i n).toInt < 100000) (r : S600000.Idx) :
    inb i r = 1#1 := by
  unfold inb
  rw [Host.reduce_eq_foldl]
  refine foldl_andi_one _ _ fun n _ => ?_
  show IntOp.andi (IntOp.cmpi .sge (i n) 0#32) (IntOp.cmpi .sle (i n) 99999#32) = 1#1
  rw [IntOp.andi_eq_one, IntOp.cmpi_sge, IntOp.cmpi_sle, show (0#32 : BitVec 32).toInt = 0 from by decide,
    show (99999#32 : BitVec 32).toInt = 99999 from by decide]
  have := hi n
  omega

/-- With every node number in range the rows taken are the gathered rows. -/
theorem takeOf_eq (x : FVec Ideal S100000x128 .f32) (v : IVec S600000 32)
    (hv : ∀ i, 0 ≤ (v i).toInt ∧ (v i).toInt < 100000) : takeOf x v = Cert.Glue.gath x (Cert.Glue.col v) := by
  unfold takeOf wrapped
  rw [Cert.Glue.wrap_eq v hv]
  funext j
  have h1 : broadcastInDim S600000x128 ![0] bcast_S600000_S600000x128_0 (inb (Cert.Glue.col v)) j = 1#1 := by
    unfold broadcastInDim
    exact inb_eq_one _ (fun n => by unfold Cert.Glue.col broadcastInDim; exact hv _) _
  rw [select_apply, h1, select_one]

/-! ## The two calls of the take, from any buffer contents -/

set_option maxHeartbeats 4000000 in
theorem take0_after (X : Valuation τ sig (Elt Ideal)) :
    StableHlo.after (hostOps0_1 (F := Ideal)) X (Proc.devRef .tc main_v4)
      = takeOf (X (Proc.devRef .tc main_arg0)) (X (Proc.devRef .tc main_v1)) := by
  after_results_simp
  simp only [StableHlo.TRef.ofBuf, StableHlo.TRef.toBuf, cast_eq]
  rfl

set_option maxHeartbeats 4000000 in
theorem take1_after (X : Valuation τ sig (Elt Ideal)) :
    StableHlo.after (hostOps0_3 (F := Ideal)) X (Proc.devRef .tc main_v6)
      = takeOf (X (Proc.devRef .tc main_arg1)) (X (Proc.devRef .tc main_v3)) := by
  after_results_simp
  simp only [StableHlo.TRef.ofBuf, StableHlo.TRef.toBuf, cast_eq]
  rfl

/-! ## What each stretch of host operations leaves in the buffers the edge kernel reads, from any contents -/

theorem keep0_arg0 (X : Valuation τ sig (Elt Ideal)) :
    StableHlo.after (hostOps0 (F := Ideal)) X (Proc.devRef .tc main_arg0) = X (Proc.devRef .tc main_arg0) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep0_arg1 (X : Valuation τ sig (Elt Ideal)) :
    StableHlo.after (hostOps0 (F := Ideal)) X (Proc.devRef .tc main_arg1) = X (Proc.devRef .tc main_arg1) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep0_arg3 (X : Valuation τ sig (Elt Ideal)) :
    StableHlo.after (hostOps0 (F := Ideal)) X (Proc.devRef .tc main_arg3) = X (Proc.devRef .tc main_arg3) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep0_arg4 (X : Valuation τ sig (Elt Ideal)) :
    StableHlo.after (hostOps0 (F := Ideal)) X (Proc.devRef .tc main_arg4) = X (Proc.devRef .tc main_arg4) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep0_arg5 (X : Valuation τ sig (Elt Ideal)) :
    StableHlo.after (hostOps0 (F := Ideal)) X (Proc.devRef .tc main_arg5) = X (Proc.devRef .tc main_arg5) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep0_arg6 (X : Valuation τ sig (Elt Ideal)) :
    StableHlo.after (hostOps0 (F := Ideal)) X (Proc.devRef .tc main_arg6) = X (Proc.devRef .tc main_arg6) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep0_arg7 (X : Valuation τ sig (Elt Ideal)) :
    StableHlo.after (hostOps0 (F := Ideal)) X (Proc.devRef .tc main_arg7) = X (Proc.devRef .tc main_arg7) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep1_arg1 (X : Valuation τ sig (Elt Ideal)) :
    StableHlo.after (hostOps0_1 (F := Ideal)) X (Proc.devRef .tc main_arg1) = X (Proc.devRef .tc main_arg1) :=
  StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep1_v3 (X : Valuation τ sig (Elt Ideal)) :
    StableHlo.after (hostOps0_1 (F := Ideal)) X (Proc.devRef .tc main_v3) = X (Proc.devRef .tc main_v3) :=
  StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep1_arg3 (X : Valuation τ sig (Elt Ideal)) :
    StableHlo.after (hostOps0_1 (F := Ideal)) X (Proc.devRef .tc main_arg3) = X (Proc.devRef .tc main_arg3) :=
  StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep1_arg4 (X : Valuation τ sig (Elt Ideal)) :
    StableHlo.after (hostOps0_1 (F := Ideal)) X (Proc.devRef .tc main_arg4) = X (Proc.devRef .tc main_arg4) :=
  StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep1_arg5 (X : Valuation τ sig (Elt Ideal)) :
    StableHlo.after (hostOps0_1 (F := Ideal)) X (Proc.devRef .tc main_arg5) = X (Proc.devRef .tc main_arg5) :=
  StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep1_arg6 (X : Valuation τ sig (Elt Ideal)) :
    StableHlo.after (hostOps0_1 (F := Ideal)) X (Proc.devRef .tc main_arg6) = X (Proc.devRef .tc main_arg6) :=
  StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep1_arg7 (X : Valuation τ sig (Elt Ideal)) :
    StableHlo.after (hostOps0_1 (F := Ideal)) X (Proc.devRef .tc main_arg7) = X (Proc.devRef .tc main_arg7) :=
  StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep2_arg1 (X : Valuation τ sig (Elt Ideal)) :
    StableHlo.after (hostOps0_2 (F := Ideal)) X (Proc.devRef .tc main_arg1) = X (Proc.devRef .tc main_arg1) :=
  StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep2_v3 (X : Valuation τ sig (Elt Ideal)) :
    StableHlo.after (hostOps0_2 (F := Ideal)) X (Proc.devRef .tc main_v3) = X (Proc.devRef .tc main_v3) :=
  StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep2_arg3 (X : Valuation τ sig (Elt Ideal)) :
    StableHlo.after (hostOps0_2 (F := Ideal)) X (Proc.devRef .tc main_arg3) = X (Proc.devRef .tc main_arg3) :=
  StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep2_arg4 (X : Valuation τ sig (Elt Ideal)) :
    StableHlo.after (hostOps0_2 (F := Ideal)) X (Proc.devRef .tc main_arg4) = X (Proc.devRef .tc main_arg4) :=
  StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep2_arg5 (X : Valuation τ sig (Elt Ideal)) :
    StableHlo.after (hostOps0_2 (F := Ideal)) X (Proc.devRef .tc main_arg5) = X (Proc.devRef .tc main_arg5) :=
  StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep2_arg6 (X : Valuation τ sig (Elt Ideal)) :
    StableHlo.after (hostOps0_2 (F := Ideal)) X (Proc.devRef .tc main_arg6) = X (Proc.devRef .tc main_arg6) :=
  StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep2_arg7 (X : Valuation τ sig (Elt Ideal)) :
    StableHlo.after (hostOps0_2 (F := Ideal)) X (Proc.devRef .tc main_arg7) = X (Proc.devRef .tc main_arg7) :=
  StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep3_v5 (X : Valuation τ sig (Elt Ideal)) :
    StableHlo.after (hostOps0_3 (F := Ideal)) X (Proc.devRef .tc main_v5) = X (Proc.devRef .tc main_v5) :=
  StableHlo.after_of_forall_not_mem _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep3_arg3 (X : Valuation τ sig (Elt Ideal)) :
    StableHlo.after (hostOps0_3 (F := Ideal)) X (Proc.devRef .tc main_arg3) = X (Proc.devRef .tc main_arg3) :=
  StableHlo.after_of_forall_not_mem _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep3_arg4 (X : Valuation τ sig (Elt Ideal)) :
    StableHlo.after (hostOps0_3 (F := Ideal)) X (Proc.devRef .tc main_arg4) = X (Proc.devRef .tc main_arg4) :=
  StableHlo.after_of_forall_not_mem _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep3_arg5 (X : Valuation τ sig (Elt Ideal)) :
    StableHlo.after (hostOps0_3 (F := Ideal)) X (Proc.devRef .tc main_arg5) = X (Proc.devRef .tc main_arg5) :=
  StableHlo.after_of_forall_not_mem _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep3_arg6 (X : Valuation τ sig (Elt Ideal)) :
    StableHlo.after (hostOps0_3 (F := Ideal)) X (Proc.devRef .tc main_arg6) = X (Proc.devRef .tc main_arg6) :=
  StableHlo.after_of_forall_not_mem _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep3_arg7 (X : Valuation τ sig (Elt Ideal)) :
    StableHlo.after (hostOps0_3 (F := Ideal)) X (Proc.devRef .tc main_arg7) = X (Proc.devRef .tc main_arg7) :=
  StableHlo.after_of_forall_not_mem _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep4_v5 (X : Valuation τ sig (Elt Ideal)) :
    StableHlo.after (hostOps0_4 (F := Ideal)) X (Proc.devRef .tc main_v5) = X (Proc.devRef .tc main_v5) :=
  StableHlo.after_of_forall_not_mem _ _ (List.forall_iff_forall_mem.mp (by
      simp only [hostOps0_4, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep4_arg3 (X : Valuation τ sig (Elt Ideal)) :
    StableHlo.after (hostOps0_4 (F := Ideal)) X (Proc.devRef .tc main_arg3) = X (Proc.devRef .tc main_arg3) :=
  StableHlo.after_of_forall_not_mem _ _ (List.forall_iff_forall_mem.mp (by
      simp only [hostOps0_4, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-- The two rows of the edge list, flattened. -/
theorem ops0_v1 (X : Valuation τ sig (Elt Ideal)) :
    StableHlo.after (hostOps0 (F := Ideal)) X (Proc.devRef .tc main_v1) = Cert.Glue.srcFlat (X (Proc.devRef .tc main_arg2)) := by
  after_results
  rfl
theorem ops0_v3 (X : Valuation τ sig (Elt Ideal)) :
    StableHlo.after (hostOps0 (F := Ideal)) X (Proc.devRef .tc main_v3) = Cert.Glue.dstFlat (X (Proc.devRef .tc main_arg2)) := by
  after_results
  rfl

/-- A change of float format is the identity on the extended reals. -/
theorem ops2_v5 (X : Valuation τ sig (Elt Ideal)) :
    StableHlo.after (hostOps0_2 (F := Ideal)) X (Proc.devRef .tc main_v5) = X (Proc.devRef .tc main_v4) := by
  after_results
  rfl
theorem ops4_v7 (X : Valuation τ sig (Elt Ideal)) :
    StableHlo.after (hostOps0_4 (F := Ideal)) X (Proc.devRef .tc main_v7) = X (Proc.devRef .tc main_v6) := by
  after_results
  rfl

/-- The three thirds of the weight's columns, transposed. -/
theorem ops4_v9 (X : Valuation τ sig (Elt Ideal)) :
    StableHlo.after (hostOps0_4 (F := Ideal)) X (Proc.devRef .tc main_v9)
      = transpose S128x128 [1, 0] (extractStridedSlice S128x128 ![0, 0] (X (Proc.devRef .tc main_arg4)) slices_S128x384_S128x128_0_0) transposes_S128x128_S128x128_1_0 := by
  after_results
theorem ops4_v11 (X : Valuation τ sig (Elt Ideal)) :
    StableHlo.after (hostOps0_4 (F := Ideal)) X (Proc.devRef .tc main_v11)
      = transpose S128x128 [1, 0] (extractStridedSlice S128x128 ![0, 128] (X (Proc.devRef .tc main_arg4)) slices_S128x384_S128x128_0_128) transposes_S128x128_S128x128_1_0 := by
  after_results
theorem ops4_v13 (X : Valuation τ sig (Elt Ideal)) :
    StableHlo.after (hostOps0_4 (F := Ideal)) X (Proc.devRef .tc main_v13)
      = transpose S128x128 [1, 0] (extractStridedSlice S128x128 ![0, 256] (X (Proc.devRef .tc main_arg4)) slices_S128x384_S128x128_0_256) transposes_S128x128_S128x128_1_0 := by
  after_results

/-- The bias, scale and shift as rows. -/
theorem ops4_v14 (X : Valuation τ sig (Elt Ideal)) :
    StableHlo.after (hostOps0_4 (F := Ideal)) X (Proc.devRef .tc main_v14)
      = shapeCast S1x128 (X (Proc.devRef .tc main_arg5)) shapeCasts_S128_S1x128 := by
  after_results
  rfl
theorem ops4_v15 (X : Valuation τ sig (Elt Ideal)) :
    StableHlo.after (hostOps0_4 (F := Ideal)) X (Proc.devRef .tc main_v15)
      = shapeCast S1x128 (X (Proc.devRef .tc main_arg6)) shapeCasts_S128_S1x128 := by
  after_results
  rfl
theorem ops4_v16 (X : Valuation τ sig (Elt Ideal)) :
    StableHlo.after (hostOps0_4 (F := Ideal)) X (Proc.devRef .tc main_v16)
      = shapeCast S1x128 (X (Proc.devRef .tc main_arg7)) shapeCasts_S128_S1x128 := by
  after_results
  rfl

/-! ## The edge kernel's input arrays when it is entered, as functions of the argument arrays -/

section Entry
variable (m : (ℓ : Loc nD τ sig) → Buf (Elt Ideal) ℓ) (ρ : Dev nD → PrngReg)

/-- Window 0: the gathered sender rows. -/
theorem entry_v5 (c : Dev nD) (hin : Cert.Glue.InRange (m ((c : Thread nD τ).loc main_arg2))) :
    V5 m ρ c main_v5 = Cert.Glue.gath (m ((c : Thread nD τ).loc main_arg0)) (Cert.Glue.col (Cert.Glue.srcFlat (m ((c : Thread nD τ).loc main_arg2)))) :=
  calc W5 m ρ c (Proc.devRef .tc main_v5)
    _ = W4 m ρ c (Proc.devRef .tc main_v5) := keep4_v5 (W4 m ρ c)
    _ = W3 m ρ c (Proc.devRef .tc main_v5) := keep3_v5 (W3 m ρ c)
    _ = W2 m ρ c (Proc.devRef .tc main_v4) := ops2_v5 (W2 m ρ c)
    _ = takeOf (W1 m ρ c (Proc.devRef .tc main_arg0)) (W1 m ρ c (Proc.devRef .tc main_v1)) := take0_after (W1 m ρ c)
    _ = takeOf (m ((c : Thread nD τ).loc main_arg0)) (Cert.Glue.srcFlat (m ((c : Thread nD τ).loc main_arg2))) :=
        congrArg₂ takeOf ((keep0_arg0 (W0 m ρ c)).trans rfl) ((ops0_v1 (W0 m ρ c)).trans rfl)
    _ = _ := takeOf_eq _ _ (Cert.Glue.srcFlat_range _ hin)

/-- Window 1: the gathered receiver rows. -/
theorem entry_v7 (c : Dev nD) (hin : Cert.Glue.InRange (m ((c : Thread nD τ).loc main_arg2))) :
    V5 m ρ c main_v7 = Cert.Glue.gath (m ((c : Thread nD τ).loc main_arg1)) (Cert.Glue.col (Cert.Glue.dstFlat (m ((c : Thread nD τ).loc main_arg2)))) :=
  calc W5 m ρ c (Proc.devRef .tc main_v7)
    _ = W4 m ρ c (Proc.devRef .tc main_v6) := ops4_v7 (W4 m ρ c)
    _ = takeOf (W3 m ρ c (Proc.devRef .tc main_arg1)) (W3 m ρ c (Proc.devRef .tc main_v3)) := take1_after (W3 m ρ c)
    _ = takeOf (m ((c : Thread nD τ).loc main_arg1)) (Cert.Glue.dstFlat (m ((c : Thread nD τ).loc main_arg2))) :=
        congrArg₂ takeOf
          ((keep2_arg1 (W2 m ρ c)).trans ((keep1_arg1 (W1 m ρ c)).trans ((keep0_arg1 (W0 m ρ c)).trans rfl)))
          ((keep2_v3 (W2 m ρ c)).trans ((keep1_v3 (W1 m ρ c)).trans ((ops0_v3 (W0 m ρ c)).trans rfl)))
    _ = _ := takeOf_eq _ _ (Cert.Glue.dstFlat_range _ hin)

/-- Window 2: the edge rows, as launched. -/
theorem entry_arg3 (c : Dev nD) : V5 m ρ c main_arg3 = m ((c : Thread nD τ).loc main_arg3) :=
  (keep4_arg3 (W4 m ρ c)).trans ((keep3_arg3 (W3 m ρ c)).trans ((keep2_arg3 (W2 m ρ c)).trans ((keep1_arg3 (W1 m ρ c)).trans ((keep0_arg3 (W0 m ρ c)).trans rfl))))

theorem W4_arg4 (c : Dev nD) : W4 m ρ c (Proc.devRef .tc main_arg4) = m ((c : Thread nD τ).loc main_arg4) :=
  (keep3_arg4 (W3 m ρ c)).trans ((keep2_arg4 (W2 m ρ c)).trans ((keep1_arg4 (W1 m ρ c)).trans ((keep0_arg4 (W0 m ρ c)).trans rfl)))
theorem W4_arg5 (c : Dev nD) : W4 m ρ c (Proc.devRef .tc main_arg5) = m ((c : Thread nD τ).loc main_arg5) :=
  (keep3_arg5 (W3 m ρ c)).trans ((keep2_arg5 (W2 m ρ c)).trans ((keep1_arg5 (W1 m ρ c)).trans ((keep0_arg5 (W0 m ρ c)).trans rfl)))
theorem W4_arg6 (c : Dev nD) : W4 m ρ c (Proc.devRef .tc main_arg6) = m ((c : Thread nD τ).loc main_arg6) :=
  (keep3_arg6 (W3 m ρ c)).trans ((keep2_arg6 (W2 m ρ c)).trans ((keep1_arg6 (W1 m ρ c)).trans ((keep0_arg6 (W0 m ρ c)).trans rfl)))
theorem W4_arg7 (c : Dev nD) : W4 m ρ c (Proc.devRef .tc main_arg7) = m ((c : Thread nD τ).loc main_arg7) :=
  (keep3_arg7 (W3 m ρ c)).trans ((keep2_arg7 (W2 m ρ c)).trans ((keep1_arg7 (W1 m ρ c)).trans ((keep0_arg7 (W0 m ρ c)).trans rfl)))

/-- Windows 3, 4, 5: the thirds of the weight's columns, transposed. -/
theorem entry_v9 (c : Dev nD) : V5 m ρ c main_v9
    = transpose S128x128 [1, 0] (extractStridedSlice S128x128 ![0, 0] (m ((c : Thread nD τ).loc main_arg4)) slices_S128x384_S128x128_0_0) transposes_S128x128_S128x128_1_0 :=
  (ops4_v9 (W4 m ρ c)).trans (by rw [W4_arg4])
theorem entry_v11 (c : Dev nD) : V5 m ρ c main_v11
    = transpose S128x128 [1, 0] (extractStridedSlice S128x128 ![0, 128] (m ((c : Thread nD τ).loc main_arg4)) slices_S128x384_S128x128_0_128) transposes_S128x128_S128x128_1_0 :=
  (ops4_v11 (W4 m ρ c)).trans (by rw [W4_arg4])
theorem entry_v13 (c : Dev nD) : V5 m ρ c main_v13
    = transpose S128x128 [1, 0] (extractStridedSlice S128x128 ![0, 256] (m ((c : Thread nD τ).loc main_arg4)) slices_S128x384_S128x128_0_256) transposes_S128x128_S128x128_1_0 :=
  (ops4_v13 (W4 m ρ c)).trans (by rw [W4_arg4])

/-- Windows 6, 7, 8: the bias, the scale and the shift as rows. -/
theorem entry_v14 (c : Dev nD) : V5 m ρ c main_v14 = shapeCast S1x128 (m ((c : Thread nD τ).loc main_arg5)) shapeCasts_S128_S1x128 :=
  (ops4_v14 (W4 m ρ c)).trans (by rw [W4_arg5])
theorem entry_v15 (c : Dev nD) : V5 m ρ c main_v15 = shapeCast S1x128 (m ((c : Thread nD τ).loc main_arg6)) shapeCasts_S128_S1x128 :=
  (ops4_v15 (W4 m ρ c)).trans (by rw [W4_arg6])
theorem entry_v16 (c : Dev nD) : V5 m ρ c main_v16 = shapeCast S1x128 (m ((c : Thread nD τ).loc main_arg7)) shapeCasts_S128_S1x128 :=
  (ops4_v16 (W4 m ρ c)).trans (by rw [W4_arg7])

end Entry

end Cert.KernelIdeal.KValue.Edge.In

end
-- ==== Proof.KEdge.lean ====
/-
  The idealized kernel program's edge block: the new edge features (the messages) as the boundary after the edge
  kernel holds them, and the updated edge features at the last boundary, both as functions of the argument arrays.
  The edge kernel's output arrays hold one function of its input arrays (block by block, then the whole arrays); its
  input arrays are the gathered rows, the transposed thirds of the weight and the reshaped rows; and nothing after the
  edge kernel writes its second output.
-/
import proofs.«418128_j9191230013922_2_alg».proof.Proof.Gen.KernelIdeal.Frame
import proofs.«418128_j9191230013922_2_alg».proof.Proof.Spec
import proofs.«418128_j9191230013922_2_alg».proof.Proof.Glue
import proofs.«418128_j9191230013922_2_alg».proof.Proof.IdxFacts
import proofs.«418128_j9191230013922_2_alg».proof.Proof.KEdgeBlocks
import proofs.«418128_j9191230013922_2_alg».proof.Proof.KEdgeIn

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The edge kernel's first output (the messages), at the boundary after it, is `Spec.edgeNew` of the gathered rows. -/
theorem edge_new (c : Dev nD) (hin : Cert.Glue.InRange (m ((c : Thread nD τ).loc main_arg2))) :
    W6 m ρ c (Proc.devRef .tc main_v17_0)
      = Cert.Spec.edgeNew (Cert.Glue.gath (m ((c : Thread nD τ).loc main_arg0)) (Cert.Glue.col (Cert.Glue.srcFlat (m ((c : Thread nD τ).loc main_arg2)))))
        (Cert.Glue.gath (m ((c : Thread nD τ).loc main_arg1)) (Cert.Glue.col (Cert.Glue.dstFlat (m ((c : Thread nD τ).loc main_arg2)))))
        (m ((c : Thread nD τ).loc main_arg3)) (m ((c : Thread nD τ).loc main_arg4)) (m ((c : Thread nD τ).loc main_arg5)) (m ((c : Thread nD τ).loc main_arg6)) (m ((c : Thread nD τ).loc main_arg7)) :=
  ((W6_arr m ρ c 9).trans (Cert.KernelIdeal.KValue.Edge.Blocks.final9 (V5 m ρ) c)).trans
    (Cert.KernelIdeal.KValue.Edge.Blocks.new_spec _ _ _ _ _ _ _ _ _ _ _ _ _ _ _ _
      (Cert.KernelIdeal.KValue.Edge.In.entry_v5 m ρ c hin) (Cert.KernelIdeal.KValue.Edge.In.entry_v7 m ρ c hin)
      (Cert.KernelIdeal.KValue.Edge.In.entry_arg3 m ρ c) (Cert.KernelIdeal.KValue.Edge.In.entry_v9 m ρ c)
      (Cert.KernelIdeal.KValue.Edge.In.entry_v11 m ρ c) (Cert.KernelIdeal.KValue.Edge.In.entry_v13 m ρ c)
      (Cert.KernelIdeal.KValue.Edge.In.entry_v14 m ρ c) (Cert.KernelIdeal.KValue.Edge.In.entry_v15 m ρ c)
      (Cert.KernelIdeal.KValue.Edge.In.entry_v16 m ρ c))

/-- The edge kernel's second output, at the last boundary, is `Spec.edgeOut` of the gathered rows. -/
theorem edge_result (c : Dev nD) (hin : Cert.Glue.InRange (m ((c : Thread nD τ).loc main_arg2))) :
    W10 m ρ c (Proc.devRef .tc main_v17_1)
      = Cert.Spec.edgeOut (Cert.Glue.gath (m ((c : Thread nD τ).loc main_arg0)) (Cert.Glue.col (Cert.Glue.srcFlat (m ((c : Thread nD τ).loc main_arg2)))))
        (Cert.Glue.gath (m ((c : Thread nD τ).loc main_arg1)) (Cert.Glue.col (Cert.Glue.dstFlat (m ((c : Thread nD τ).loc main_arg2)))))
        (m ((c : Thread nD τ).loc main_arg3)) (m ((c : Thread nD τ).loc main_arg4)) (m ((c : Thread nD τ).loc main_arg5)) (m ((c : Thread nD τ).loc main_arg6)) (m ((c : Thread nD τ).loc main_arg7)) :=
  calc W10 m ρ c (Proc.devRef .tc main_v17_1)
    _ = W9 m ρ c (Proc.devRef .tc main_v17_1) := W10_of_ne m ρ c main_v17_1 (by decide)
    _ = W8 m ρ c (Proc.devRef .tc main_v17_1) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v17_1) := W8_of_ne m ρ c main_v17_1 (by decide)
    _ = W6 m ρ c (Proc.devRef .tc main_v17_1) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = (dat0 (V5 m ρ) c).arrAt 10 cfg0.N := W6_arr m ρ c 10
    _ = _ := Cert.KernelIdeal.KValue.Edge.Blocks.final10 (V5 m ρ) c
    _ = _ := Cert.KernelIdeal.KValue.Edge.Blocks.out_spec _ _ _ _ _ _ _ _ _ _ _ _ _ _ _ _
      (Cert.KernelIdeal.KValue.Edge.In.entry_v5 m ρ c hin) (Cert.KernelIdeal.KValue.Edge.In.entry_v7 m ρ c hin)
      (Cert.KernelIdeal.KValue.Edge.In.entry_arg3 m ρ c) (Cert.KernelIdeal.KValue.Edge.In.entry_v9 m ρ c)
      (Cert.KernelIdeal.KValue.Edge.In.entry_v11 m ρ c) (Cert.KernelIdeal.KValue.Edge.In.entry_v13 m ρ c)
      (Cert.KernelIdeal.KValue.Edge.In.entry_v14 m ρ c) (Cert.KernelIdeal.KValue.Edge.In.entry_v15 m ρ c)
      (Cert.KernelIdeal.KValue.Edge.In.entry_v16 m ρ c)

end Cert.KernelIdeal.KValue

end
-- ==== Proof.KNode.lean ====
/-
  The idealized kernel program's receiver block: the node kernel's output array at the last boundary is the updated
  receiver features of the receiver table and the aggregated messages, the messages being whatever the edge kernel left.

  The body of the node kernel, read at an entry (p, q) of its block of 5000 rows, is the updated row p at q: the row's
  pre-activations (the row of receiver features against one square of weights, plus the row of aggregated messages
  against the other, plus the bias), silu twice, the layer norm over the row's 128 entries, and the row added back.  Each
  grid point's block is rows 5000 t … 5000 t + 4999 of one whole-array function of the arrays the region finds, and
  the blocks tile the array.  The arrays the region finds are the receiver table, the scatter-add of the edge kernel's
  messages at the column of destination node numbers, the two halves of the weights transposed, and the bias, scale and
  shift as one-row arrays; with these the whole-array function is the specification's.
-/
import proofs.«418128_j9191230013922_2_alg».proof.Proof.Gen.KernelIdeal.Frame
import proofs.«418128_j9191230013922_2_alg».proof.Proof.Spec
import proofs.«418128_j9191230013922_2_alg».proof.Proof.Glue
import Idealize.ShloMosaic.Lib.Pipeline.Value
import Idealize.ShloMosaic.Lib.ValueLayout
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

namespace Node

/-! ## Layout operations of the body, read at an index -/

/-- A vector of a entries cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane reduction's source index over row p with lane k inserted is (p, k). -/
theorem lift_row (p : Fin 5000) (k : Fin 128) :
    (reduces_S5000x128_S5000 : S5000x128.Reduces [1] S5000).lift (ix1 p) k = ix2 p k := by
  funext c
  apply Fin.ext
  match c with
  | ⟨0, _⟩ => rfl
  | ⟨1, _⟩ => rfl

theorem logistic_apply {s : Shape} {φ : FTy} (a : FVec Ideal s φ) (i : s.Idx) : logistic a i = Ideal.logistic (a i) := rfl
theorem rsqrt_apply {s : Shape} {φ : FTy} (a : FVec Ideal s φ) (i : s.Idx) : rsqrt a i = Ideal.rsqrt (a i) := rfl

/-! ## The matrix product of a block of rows with a square of weights -/

theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at (p, q): the sum over the 128 shared entries of row p times column q. -/
theorem matmul_row {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-! ## One row of the block -/

/-- The pre-activation of a row: the row of receiver features against the first square of weights, plus the row of
    aggregated messages against the second, plus the bias. -/
def lin (xr ar : Fin 128 → EReal) (wa wb : Fin 128 → Fin 128 → EReal) (b : Fin 128 → EReal) (j : Fin 128) : EReal :=
  ((∑ k : Fin 128, xr k * wa k j) + ∑ k : Fin 128, ar k * wb k j) + b j

/-- The updated row: the row itself plus the layer norm of the twice-silu'd pre-activations. -/
def rowOut (xr ar : Fin 128 → EReal) (wa wb : Fin 128 → Fin 128 → EReal) (b g bb : Fin 128 → EReal) (q : Fin 128) : EReal :=
  xr q + Cert.Spec.mlp (lin xr ar wa wb b) g bb q

/-- The body's activations at (p, q): silu twice of row p's pre-activation at q. -/
theorem pay2_apply (x0 x1 : Vec Ideal S5000x128 .f32) (w2 w3 : Vec Ideal S128x128 .f32) (b4 : Vec Ideal S1x128 .f32)
    (p : Fin 5000) (q : Fin 128) :
    k1_pay2 x0 x1 w2 w3 b4 (ix2 p q)
      = Cert.Spec.silu (Cert.Spec.silu (lin (fun k => x0 (ix2 p k)) (fun k => x1 (ix2 p k)) (fun k j => w2 (ix2 k j))
          (fun k j => w3 (ix2 k j)) (fun j => b4 (ix2 (0 : Fin 1) j)) q)) := by
  unfold k1_pay2
  simp only [shapeCast_self]
  simp only [mulf_apply, addf_apply, logistic_apply, matmul_row, broadcastTo_1b_ab_apply, truncf_apply]
  rfl

/-- The body's row mean as a column: the lane sum, cast to a column, over 128. -/
def rowMeanK (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits .f32 0x43000000#32))

/-- The lane sum of row p: the sum of its 128 entries. -/
theorem laneSum_apply (y : FVec Ideal S5000x128 .f32) (hφ : FKind.Formats .f32) (hacc : (0x00000000#32 : BitVec 32) = 0x00000000#32)
    (p : Fin 5000) :
    multiReduction .add [1] S5000 y 0x00000000#32 reduces_S5000x128_S5000 hφ hacc (ix1 p) = ∑ k : Fin 128, y (ix2 p k) :=
  (Ideal.multiReduction_add_single y 0x00000000#32 reduces_S5000x128_S5000 hφ hacc (ix1 p)).trans
    (Finset.sum_congr rfl fun k _ => congrArg y (lift_row p k))

theorem rowMeanK_apply (y : FVec Ideal S5000x128 .f32) (p : Fin 5000) (u : Fin 1) :
    rowMeanK y (ix2 p u) = Cert.Spec.mean (fun k => y (ix2 p k)) := by
  unfold rowMeanK Cert.Spec.mean Cert.Spec.len
  rw [divf_apply, shapeCast_a_a1_apply]
  exact congrArg (fun s => Ideal.div s (Ideal.ofBits .f32 0x43000000#32)) (laneSum_apply y _ _ p)

/-- The deviations from the row mean. -/
def devK (y : FVec Ideal S5000x128 .f32) : FVec Ideal S5000x128 .f32 :=
  subf y (broadcastTo S5000x128 (rowMeanK y) broadcasts_S5000x1_S5000x128)

theorem devK_apply (y : FVec Ideal S5000x128 .f32) (p : Fin 5000) (q : Fin 128) :
    devK y (ix2 p q) = y (ix2 p q) - Cert.Spec.mean (fun k => y (ix2 p k)) := by
  unfold devK
  rw [subf_apply, broadcastTo_a1_ab_apply, rowMeanK_apply]

/-- The body's last step at (p, q): the input plus the scaled, shifted, normalised deviation. -/
theorem pay1_apply (x0 : Vec Ideal S5000x128 .f32) (g b : FVec Ideal S1x128 .f32) (v : FVec Ideal S5000x1 .f32)
    (d : FVec Ideal S5000x128 .f32) (p : Fin 5000) (q : Fin 128) :
    k1_pay1 x0 g b v d (ix2 p q)
      = x0 (ix2 p q) + ((d (ix2 p q) * Ideal.rsqrt (v (ix2 p (0 : Fin 1)) + Cert.Spec.eps)) * g (ix2 (0 : Fin 1) q) + b (ix2 (0 : Fin 1) q)) := by
  unfold k1_pay1
  simp only [mulf_apply, addf_apply, rsqrt_apply, broadcastTo_1b_ab_apply, broadcastTo_a1_ab_apply, broadcast_apply]
  rfl

/-- The body's stored block at (p, q), for activations y: the input plus the layer norm of row p of y at q. -/
theorem norm_apply (x0 : Vec Ideal S5000x128 .f32) (g b : FVec Ideal S1x128 .f32) (y : FVec Ideal S5000x128 .f32)
    (p : Fin 5000) (q : Fin 128) :
    k1_pay1 x0 g b (rowMeanK (mulf (devK y) (devK y))) (devK y) (ix2 p q)
      = x0 (ix2 p q) + Cert.Spec.layerNorm (fun k => y (ix2 p k)) (fun j => g (ix2 (0 : Fin 1) j)) (fun j => b (ix2 (0 : Fin 1) j)) q := by
  rw [pay1_apply, rowMeanK_apply, devK_apply]
  simp only [mulf_apply, devK_apply]
  rfl

/-- What the body stores, at (p, q), from its seven loaded blocks: the updated row p at q. -/
theorem body_apply (x0 x1 : Vec Ideal S5000x128 .f32) (w2 w3 : Vec Ideal S128x128 .f32) (b4 g5 b6 : Vec Ideal S1x128 .f32)
    (p : Fin 5000) (q : Fin 128) :
    k1_pay1 x0 (k1_pay3 g5) (k1_pay4 b6) (k1_pay6 x0 x1 w2 w3 b4) (k1_pay7 x0 x1 w2 w3 b4) (ix2 p q)
      = rowOut (fun k => x0 (ix2 p k)) (fun k => x1 (ix2 p k)) (fun k j => w2 (ix2 k j)) (fun k j => w3 (ix2 k j))
          (fun j => b4 (ix2 (0 : Fin 1) j)) (fun j => g5 (ix2 (0 : Fin 1) j)) (fun j => b6 (ix2 (0 : Fin 1) j)) q := by
  have e3 : k1_pay3 g5 = g5 := by unfold k1_pay3; exact shapeCast_self _ _
  have e4 : k1_pay4 b6 = b6 := by unfold k1_pay4; exact shapeCast_self _ _
  have e7 : k1_pay7 x0 x1 w2 w3 b4 = devK (k1_pay2 x0 x1 w2 w3 b4) := rfl
  have e6 : k1_pay6 x0 x1 w2 w3 b4 = rowMeanK (mulf (devK (k1_pay2 x0 x1 w2 w3 b4)) (devK (k1_pay2 x0 x1 w2 w3 b4))) := rfl
  rw [e3, e4, e6, e7, norm_apply]
  have ey : (fun k => k1_pay2 x0 x1 w2 w3 b4 (ix2 p k))
      = fun k => Cert.Spec.silu (Cert.Spec.silu (lin (fun k => x0 (ix2 p k)) (fun k => x1 (ix2 p k)) (fun k j => w2 (ix2 k j))
          (fun k j => w3 (ix2 k j)) (fun j => b4 (ix2 (0 : Fin 1) j)) k)) := funext fun k => pay2_apply x0 x1 w2 w3 b4 p k
  rw [ey]
  rfl

/-! ## The node kernel's region, for any contents V of the buffers at its entry -/

/-- The array the region leaves: each row updated from the same row of the receiver table and of the aggregated
    messages, with the two squares of weights, the bias, the scale and the shift as the region finds them. -/
def nodeArr (rx agg : S100000x128.Idx → EReal) (wa wb : S128x128.Idx → EReal) (b g bb : S1x128.Idx → EReal) :
    S100000x128.Idx → EReal := fun i =>
  rowOut (fun k => rx (ix2 (i 0) k)) (fun k => agg (ix2 (i 0) k)) (fun k j => wa (ix2 k j)) (fun k j => wb (ix2 k j))
    (fun j => b (ix2 (0 : Fin 1) j)) (fun j => g (ix2 (0 : Fin 1) j)) (fun j => bb (ix2 (0 : Fin 1) j)) (i 1)

theorem rowOut_congr {xr xr' ar ar' : Fin 128 → EReal} {wa wa' wb wb' : Fin 128 → Fin 128 → EReal} {b b' g g' bb bb' : Fin 128 → EReal}
    (h0 : xr = xr') (h1 : ar = ar') (h2 : wa = wa') (h3 : wb = wb') (h4 : b = b') (h5 : g = g') (h6 : bb = bb') (q : Fin 128) :
    rowOut xr ar wa wb b g bb q = rowOut xr' ar' wa' wb' b' g' bb' q := by
  subst h0 h1 h2 h3 h4 h5 h6; rfl

theorem hz : (![0, 0] : Fin 2 → Nat) = fun _ => 0 := funext fun a => by fin_cases a <;> rfl

/-- The index maps over the grid: the three row-blocked windows sit at block (t, 0), the four small ones at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

section Region

variable (V : (c : Dev nD) → (b : Ref sig .tc) → Buf (Elt Ideal) ((c : Thread nD τ).loc b))

/-- Block t of the receiver table's window: rows 5000 t … 5000 t + 4999 of the table. -/
theorem iblk_rx (c : Dev nD) (t : Fin cfg1.N) (p : Fin 5000) (k : Fin 128) (r : Fin 100000) (hr : r.val = 5000 * t.val + p.val) :
    (iblk1 V c 0 t : Vec Ideal S5000x128 .f32) (ix2 p k) = (V c main_arg1 : S100000x128.Idx → EReal) (ix2 r k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Block t of the aggregated messages' window: the same rows of that array. -/
theorem iblk_agg (c : Dev nD) (t : Fin cfg1.N) (p : Fin 5000) (k : Fin 128) (r : Fin 100000) (hr : r.val = 5000 * t.val + p.val) :
    (iblk1 V c 1 t : Vec Ideal S5000x128 .f32) (ix2 p k) = (V c main_v20 : S100000x128.Idx → EReal) (ix2 r k) := by
  obtain ⟨-, -, e0, e1, -⟩ := idx_facts t
  unfold iblk1
  rw [View.read_apply]
  show V c main_v20 _ = V c main_v20 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The two squares of weights, the bias, the scale and the shift are whole-array windows. -/
theorem iblk_wa (c : Dev nD) (t : Fin cfg1.N) : (iblk1 V c 2 t : Vec Ideal S128x128 .f32) = V c main_v22 := by
  obtain ⟨-, -, -, -, -, -, e0, e1, -⟩ := idx_facts t
  funext j
  unfold iblk1
  rw [View.read_apply]
  show V c main_v22 _ = V c main_v22 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

theorem iblk_wb (c : Dev nD) (t : Fin cfg1.N) : (iblk1 V c 3 t : Vec Ideal S128x128 .f32) = V c main_v24 := by
  obtain ⟨-, -, -, -, -, -, -, -, e0, e1, -⟩ := idx_facts t
  funext j
  unfold iblk1
  rw [View.read_apply]
  show V c main_v24 _ = V c main_v24 _
  congr 1
  funext a
  apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

theorem iblk_b (c : Dev nD) (t : Fin cfg1.N) : (iblk1 V c 4 t : Vec Ideal S1x128 .f32) = V c main_v25 := by
  obtain ⟨-, -, -, -, -, -, -, -, -, -, e0, e1, -⟩ := idx_facts t
  funext j
  unfold iblk1
  rw [View.read_apply]
  show V c main_v25 _ = V c main_v25 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

theorem iblk_g (c : Dev nD) (t : Fin cfg1.N) : (iblk1 V c 5 t : Vec Ideal S1x128 .f32) = V c main_v26 := by
  obtain ⟨-, -, -, -, -, -, -, -, -, -, -, -, e0, e1, -⟩ := idx_facts t
  funext j
  unfold iblk1
  rw [View.read_apply]
  show V c main_v26 _ = V c main_v26 _
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

theorem iblk_bb (c : Dev nD) (t : Fin cfg1.N) : (iblk1 V c 6 t : Vec Ideal S1x128 .f32) = V c main_v27 := by
  obtain ⟨-, -, -, -, -, -, -, -, -, -, -, -, -, -, e0, e1⟩ := idx_facts t
  funext j
  unfold iblk1
  rw [View.read_apply]
  show V c main_v27 _ = V c main_v27 _
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- A block X of 5000 rows that agrees, row by row, with rows 5000 t … of an array G is what point t's block of G reads. -/
theorem cut_eq_read (t : Fin cfg1.N) (X : Vec Ideal S5000x128 .f32) (G : S100000x128.Idx → EReal)
    (h : ∀ (p : Fin 5000) (q : Fin 128) (r : Fin 100000), r.val = 5000 * t.val + p.val → X (ix2 p q) = G (ix2 r q)) :
    (cfg1.win 7).cut (grid1.coords t) X = ((cfg1.win 7).blk t).view.read (Elt Ideal) G := by
  obtain ⟨-, -, -, -, e0, e1, -⟩ := idx_facts t
  have ht : t.val < 20 := lt_of_lt_of_eq t.isLt N_1
  funext j
  have hj0 : (j 0).val < 5000 := (j 0).isLt
  have hj1 : (j 1).val < 128 := (j 1).isLt
  rw [View.read_apply]
  show X ((cfg1.win 7).xinj (grid1.coords t) j) = G (((cfg1.win 7).blk t).view.emb j)
  have ej : (cfg1.win 7).xinj (grid1.coords t) j = ix2 (⟨(j 0).val, hj0⟩ : Fin 5000) (⟨(j 1).val, hj1⟩ : Fin 128) := by
    funext a
    apply Fin.ext
    match a with
    | ⟨0, _⟩ => rfl
    | ⟨1, _⟩ => rfl
  have eg : ((cfg1.win 7).blk t).view.emb j = ix2 (⟨5000 * t.val + (j 0).val, by omega⟩ : Fin 100000) (⟨(j 1).val, hj1⟩ : Fin 128) := by
    funext a
    apply Fin.ext
    match a with
    | ⟨0, _⟩ => show win1_7.index t (0 : Fin 2) * 5000 + 1 * (j 0).val = 5000 * t.val + (j 0).val; rw [e0]; omega
    | ⟨1, _⟩ => show win1_7.index t (1 : Fin 2) * 128 + 1 * (j 1).val = (j 1).val; rw [e1]; omega
  rw [ej, eg]
  exact h _ _ _ rfl

/-- What point t writes back is block t of the region's array. -/
theorem flushed_eq (c : Dev nD) (t : Fin cfg1.N) :
    (dat1 V c).flushed 7 t = ((cfg1.win 7).blk t).view.read (Elt Ideal)
      (nodeArr (V c main_arg1) (V c main_v20) (V c main_v22) (V c main_v24) (V c main_v25) (V c main_v26) (V c main_v27)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  refine cut_eq_read t _ _ fun p q r hr => ?_
  refine (body_apply (iblk1 V c 0 t) (iblk1 V c 1 t) (iblk1 V c 2 t) (iblk1 V c 3 t) (iblk1 V c 4 t) (iblk1 V c 5 t) (iblk1 V c 6 t) p q).trans ?_
  show _ = rowOut (fun k => (V c main_arg1 : S100000x128.Idx → EReal) (ix2 r k)) (fun k => (V c main_v20 : S100000x128.Idx → EReal) (ix2 r k))
    (fun k j => (V c main_v22 : S128x128.Idx → EReal) (ix2 k j)) (fun k j => (V c main_v24 : S128x128.Idx → EReal) (ix2 k j))
    (fun j => (V c main_v25 : S1x128.Idx → EReal) (ix2 (0 : Fin 1) j)) (fun j => (V c main_v26 : S1x128.Idx → EReal) (ix2 (0 : Fin 1) j))
    (fun j => (V c main_v27 : S1x128.Idx → EReal) (ix2 (0 : Fin 1) j)) q
  exact rowOut_congr (funext fun k => iblk_rx V c t p k r hr) (funext fun k => iblk_agg V c t p k r hr)
    (by rw [iblk_wa]) (by rw [iblk_wb]) (by rw [iblk_b]) (by rw [iblk_g]) (by rw [iblk_bb]) q

theorem mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v28).slice (win1_7.rect t)).set ↔ _
  rw [View.set_slice_whole, Rect.mem_set_unit]
  exact Iff.rfl

/-- Row r of the array is in the block of point r / 5000. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, e0, e1, -⟩ := idx_facts t
  have e0' : win1_7.index t (0 : Fin 2) = (i 0).val / 5000 := e0
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; rw [e0']; omega
  | ⟨1, _⟩ => show win1_7.index t (1 : Fin 2) * 128 ≤ (i 1).val ∧ (i 1).val < win1_7.index t (1 : Fin 2) * 128 + 128; rw [e1]; omega

/-- The region's output array after the last point. -/
theorem region_value (c : Dev nD) :
    (dat1 V c).arrAt 7 cfg1.N
      = nodeArr (V c main_arg1) (V c main_v20) (V c main_v22) (V c main_v24) (V c main_v25) (V c main_v26) (V c main_v27) :=
  (dat1 V c).arrAt_eq_of_cover 7 _ (fun t _ => flushed_eq V c t) cover

end Region

/-! ## The buffers at the region's entry, read back to the launch -/

/-- No operation of the stretch writes the buffer, so the stretch leaves it as it was. -/
macro "stretch_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Boundary

variable (m : (ℓ : Loc nD τ sig) → Buf (Elt Ideal) ℓ) (ρ : Dev nD → PrngReg)

/-- The receiver table is an argument: after the edge kernel it is still the launch contents. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by stretch_keeps hostOps0_4
    _ = W3 m ρ c (Proc.devRef .tc main_arg1) := by stretch_keeps hostOps0_3
    _ = W2 m ρ c (Proc.devRef .tc main_arg1) := by stretch_keeps hostOps0_2
    _ = W1 m ρ c (Proc.devRef .tc main_arg1) := by stretch_keeps hostOps0_1
    _ = W0 m ρ c (Proc.devRef .tc main_arg1) := by stretch_keeps hostOps0
    _ = m ((c : Thread nD τ).loc main_arg1) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by stretch_keeps hostOps0_4
    _ = W3 m ρ c (Proc.devRef .tc main_arg8) := by stretch_keeps hostOps0_3
    _ = W2 m ρ c (Proc.devRef .tc main_arg8) := by stretch_keeps hostOps0_2
    _ = W1 m ρ c (Proc.devRef .tc main_arg8) := by stretch_keeps hostOps0_1
    _ = W0 m ρ c (Proc.devRef .tc main_arg8) := by stretch_keeps hostOps0
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by stretch_keeps hostOps0_4
    _ = W3 m ρ c (Proc.devRef .tc main_arg9) := by stretch_keeps hostOps0_3
    _ = W2 m ρ c (Proc.devRef .tc main_arg9) := by stretch_keeps hostOps0_2
    _ = W1 m ρ c (Proc.devRef .tc main_arg9) := by stretch_keeps hostOps0_1
    _ = W0 m ρ c (Proc.devRef .tc main_arg9) := by stretch_keeps hostOps0
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by stretch_keeps hostOps0_4
    _ = W3 m ρ c (Proc.devRef .tc main_arg10) := by stretch_keeps hostOps0_3
    _ = W2 m ρ c (Proc.devRef .tc main_arg10) := by stretch_keeps hostOps0_2
    _ = W1 m ρ c (Proc.devRef .tc main_arg10) := by stretch_keeps hostOps0_1
    _ = W0 m ρ c (Proc.devRef .tc main_arg10) := by stretch_keeps hostOps0
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by stretch_keeps hostOps0_4
    _ = W3 m ρ c (Proc.devRef .tc main_arg11) := by stretch_keeps hostOps0_3
    _ = W2 m ρ c (Proc.devRef .tc main_arg11) := by stretch_keeps hostOps0_2
    _ = W1 m ρ c (Proc.devRef .tc main_arg11) := by stretch_keeps hostOps0_1
    _ = W0 m ρ c (Proc.devRef .tc main_arg11) := by stretch_keeps hostOps0
    _ = m ((c : Thread nD τ).loc main_arg11) := rfl

/-- The flat vector of destination node numbers, written by the first stretch from the edge list and never written
    again, is still there after the edge kernel. -/
theorem W6_main_v3 (c : Dev nD) :
    W6 m ρ c (Proc.devRef .tc main_v3) = Cert.Glue.dstFlat (m ((c : Thread nD τ).loc main_arg2)) :=
  calc W6 m ρ c (Proc.devRef .tc main_v3)
    _ = W5 m ρ c (Proc.devRef .tc main_v3) := W6_of_ne m ρ c main_v3 (by decide)
    _ = W4 m ρ c (Proc.devRef .tc main_v3) := by stretch_keeps hostOps0_4
    _ = W3 m ρ c (Proc.devRef .tc main_v3) := by stretch_keeps hostOps0_3
    _ = W2 m ρ c (Proc.devRef .tc main_v3) := by stretch_keeps hostOps0_2
    _ = W1 m ρ c (Proc.devRef .tc main_v3) := by stretch_keeps hostOps0_1
    _ = Cert.Glue.dstFlat (m ((c : Thread nD τ).loc main_arg2)) := by
      show StableHlo.after hostOps0 (W0 m ρ c) (Proc.devRef .tc main_v3) = _
      after_results
      rfl

/-- At the node kernel's entry: the receiver table. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by stretch_keeps hostOps1
    _ = m ((c : Thread nD τ).loc main_arg1) := W6_main_arg1 m ρ c

/-- At the node kernel's entry: the messages the edge kernel left, summed per destination node. -/
theorem W7_main_v20 (c : Dev nD) :
    W7 m ρ c (Proc.devRef .tc main_v20)
      = Cert.Glue.aggr (Cert.Glue.col (Cert.Glue.dstFlat (m ((c : Thread nD τ).loc main_arg2)))) (W6 m ρ c (Proc.devRef .tc main_v17_0)) := by
  rw [← W6_main_v3 m ρ c]
  show StableHlo.after hostOps1 (W6 m ρ c) (Proc.devRef .tc main_v20) = _
  generalize W6 m ρ c = X
  after_results
  rfl

/-- At the node kernel's entry: the first 128 columns of the weights, transposed. -/
theorem W7_main_v22 (c : Dev nD) :
    W7 m ρ c (Proc.devRef .tc main_v22)
      = transpose S128x128 [1, 0] (extractStridedSlice S128x128 ![0, 0] (m ((c : Thread nD τ).loc main_arg8)) slices_S128x256_S128x128_0_0)
          transposes_S128x128_S128x128_1_0 := by
  rw [← W6_main_arg8 m ρ c]
  show StableHlo.after hostOps1 (W6 m ρ c) (Proc.devRef .tc main_v22) = _
  generalize W6 m ρ c = X
  after_results

/-- At the node kernel's entry: the last 128 columns of the weights, transposed. -/
theorem W7_main_v24 (c : Dev nD) :
    W7 m ρ c (Proc.devRef .tc main_v24)
      = transpose S128x128 [1, 0] (extractStridedSlice S128x128 ![0, 128] (m ((c : Thread nD τ).loc main_arg8)) slices_S128x256_S128x128_0_128)
          transposes_S128x128_S128x128_1_0 := by
  rw [← W6_main_arg8 m ρ c]
  show StableHlo.after hostOps1 (W6 m ρ c) (Proc.devRef .tc main_v24) = _
  generalize W6 m ρ c = X
  after_results

/-- At the node kernel's entry: the bias, the scale and the shift as one-row arrays. -/
theorem W7_main_v25 (c : Dev nD) :
    W7 m ρ c (Proc.devRef .tc main_v25) = shapeCast S1x128 (m ((c : Thread nD τ).loc main_arg9)) shapeCasts_S128_S1x128 := by
  rw [← W6_main_arg9 m ρ c]
  show StableHlo.after hostOps1 (W6 m ρ c) (Proc.devRef .tc main_v25) = _
  generalize W6 m ρ c = X
  after_results
  rfl

theorem W7_main_v26 (c : Dev nD) :
    W7 m ρ c (Proc.devRef .tc main_v26) = shapeCast S1x128 (m ((c : Thread nD τ).loc main_arg10)) shapeCasts_S128_S1x128 := by
  rw [← W6_main_arg10 m ρ c]
  show StableHlo.after hostOps1 (W6 m ρ c) (Proc.devRef .tc main_v26) = _
  generalize W6 m ρ c = X
  after_results
  rfl

theorem W7_main_v27 (c : Dev nD) :
    W7 m ρ c (Proc.devRef .tc main_v27) = shapeCast S1x128 (m ((c : Thread nD τ).loc main_arg11)) shapeCasts_S128_S1x128 := by
  rw [← W6_main_arg11 m ρ c]
  show StableHlo.after hostOps1 (W6 m ρ c) (Proc.devRef .tc main_v27) = _
  generalize W6 m ρ c = X
  after_results
  rfl

/-- The node kernel's output array is written by nothing after it: at the last boundary it is what the kernel left. -/
theorem W10_main_v28 (c : Dev nD) : W10 m ρ c (Proc.devRef .tc main_v28) = (dat1 (V7 m ρ) c).arrAt 7 cfg1.N :=
  calc W10 m ρ c (Proc.devRef .tc main_v28)
    _ = W9 m ρ c (Proc.devRef .tc main_v28) := W10_of_ne m ρ c main_v28 (by decide)
    _ = W8 m ρ c (Proc.devRef .tc main_v28) := by stretch_keeps hostOps2
    _ = (dat1 (V7 m ρ) c).arrAt 7 cfg1.N := W8_arr m ρ c 7

end Boundary

/-! ## The region's array is the specification's -/

/-- The first square of weights the region finds, at (k, j): the weight of output j on receiver entry k. -/
theorem wa_apply (W : S128x256.Idx → EReal) (k j : Fin 128) :
    transpose S128x128 [1, 0] (extractStridedSlice S128x128 ![0, 0] W slices_S128x256_S128x128_0_0) transposes_S128x128_S128x128_1_0 (ix2 k j)
      = W (ix2 j (Cert.Spec.half0 k)) :=
  (transpose_ix2_apply _ _ k j).trans (slice2_axis1_apply 0 W _ j k (Cert.Spec.half0 k) (Nat.zero_add _).symm)

/-- The second square, at (k, j): the weight of output j on aggregated-message entry k. -/
theorem wb_apply (W : S128x256.Idx → EReal) (k j : Fin 128) :
    transpose S128x128 [1, 0] (extractStridedSlice S128x128 ![0, 128] W slices_S128x256_S128x128_0_128) transposes_S128x128_S128x128_1_0 (ix2 k j)
      = W (ix2 j (Cert.Spec.half1 k)) :=
  (transpose_ix2_apply _ _ k j).trans (slice2_axis1_apply 128 W _ j k (Cert.Spec.half1 k) rfl)

/-- The specification's updated receiver features at (n, q), as the updated row n at q. -/
theorem nodeOut_row (rx agg : S100000x128.Idx → EReal) (W : S128x256.Idx → EReal) (b g bb : S128.Idx → EReal)
    (n : Fin 100000) (q : Fin 128) :
    Cert.Spec.nodeOut rx agg W b g bb (ix2 n q)
      = rowOut (fun k => rx (ix2 n k)) (fun k => agg (ix2 n k)) (fun k j => W (ix2 j (Cert.Spec.half0 k)))
          (fun k j => W (ix2 j (Cert.Spec.half1 k))) (fun j => b (ix1 j)) (fun j => g (ix1 j)) (fun j => bb (ix1 j)) q := rfl

/-- With the weights' two halves transposed and the bias, scale and shift as one-row arrays, the region's array is the
    specification's updated receiver features. -/
theorem nodeArr_spec (rx agg : S100000x128.Idx → EReal) (W : S128x256.Idx → EReal) (b g bb : S128.Idx → EReal) :
    nodeArr rx agg
        (transpose S128x128 [1, 0] (extractStridedSlice S128x128 ![0, 0] W slices_S128x256_S128x128_0_0) transposes_S128x128_S128x128_1_0)
        (transpose S128x128 [1, 0] (extractStridedSlice S128x128 ![0, 128] W slices_S128x256_S128x128_0_128) transposes_S128x128_S128x128_1_0)
        (shapeCast S1x128 b shapeCasts_S128_S1x128) (shapeCast S1x128 g shapeCasts_S128_S1x128) (shapeCast S1x128 bb shapeCasts_S128_S1x128)
      = Cert.Spec.nodeOut rx agg W b g bb := by
  funext i
  obtain ⟨n, q, rfl⟩ : ∃ (n : Fin 100000) (q : Fin 128), i = ix2 n q := ⟨i 0, i 1, eq_ix2 i⟩
  rw [nodeOut_row]
  show rowOut (fun k => rx (ix2 n k)) (fun k => agg (ix2 n k)) _ _ _ _ _ q = _
  exact rowOut_congr rfl rfl (funext fun k => funext fun j => wa_apply W k j) (funext fun k => funext fun j => wb_apply W k j)
    (funext fun j => shapeCast_a_1a_apply b _ 0 j) (funext fun j => shapeCast_a_1a_apply g _ 0 j)
    (funext fun j => shapeCast_a_1a_apply bb _ 0 j) q

end Node

variable (m : (ℓ : Loc nD τ sig) → Buf (Elt Ideal) ℓ) (ρ : Dev nD → PrngReg)

/-- The node kernel's output array, at the last boundary, is `Spec.nodeOut` of the receiver table and the messages
    (the edge kernel's first output, as the boundary after the edge kernel holds it) summed per destination node. -/
theorem node_result (c : Dev nD) :
    W10 m ρ c (Proc.devRef .tc main_v28)
      = Cert.Spec.nodeOut (m ((c : Thread nD τ).loc main_arg1))
          (Cert.Glue.aggr (Cert.Glue.col (Cert.Glue.dstFlat (m ((c : Thread nD τ).loc main_arg2)))) (W6 m ρ c (Proc.devRef .tc main_v17_0)))
          (m ((c : Thread nD τ).loc main_arg8)) (m ((c : Thread nD τ).loc main_arg9)) (m ((c : Thread nD τ).loc main_arg10)) (m ((c : Thread nD τ).loc main_arg11)) := by
  rw [Node.W10_main_v28 m ρ c, Node.region_value (V7 m ρ) c]
  show Node.nodeArr (W7 m ρ c (Proc.devRef .tc main_arg1)) (W7 m ρ c (Proc.devRef .tc main_v20)) (W7 m ρ c (Proc.devRef .tc main_v22))
    (W7 m ρ c (Proc.devRef .tc main_v24)) (W7 m ρ c (Proc.devRef .tc main_v25)) (W7 m ρ c (Proc.devRef .tc main_v26))
    (W7 m ρ c (Proc.devRef .tc main_v27)) = _
  rw [Node.W7_main_arg1, Node.W7_main_v20, Node.W7_main_v22, Node.W7_main_v24, Node.W7_main_v25, Node.W7_main_v26, Node.W7_main_v27]
  exact Node.nodeArr_spec _ _ _ _ _ _

end Cert.KernelIdeal.KValue

end
-- ==== Proof.RSender.lean ====
/-
  The idealized reference's first result, as a function of the argument arrays, is the updated sender features.

  The reference computes, row by row: the dot products of a row of x with the rows of W plus the bias; silu twice, each
  spelt x · (1 / (1 + e^(-x))) with the ones as f32 words; the row mean as the row sum divided by the word 128; the
  deviations from the mean and the mean of their squares; the reciprocal square root of that plus ε; scale, shift, and
  the residual add.  Each stage is read at the index (r, j) (or at row r for the per-row stages) and identified with the
  corresponding piece of the specification; the last stage is the specification's `senderOut`.
-/
import proofs.«418128_j9191230013922_2_alg».proof.Proof.RefStages
import proofs.«418128_j9191230013922_2_alg».proof.Proof.Spec

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read
open scoped BigOperators

namespace Sender

section
variable (x0 : (⟨S100000x128, .f32⟩ : BufTy).Contents (Elt Ideal)) (x12 : (⟨S128x128, .f32⟩ : BufTy).Contents (Elt Ideal))
  (x13 x14 x15 : (⟨S128, .f32⟩ : BufTy).Contents (Elt Ideal))

/-- The word 0x3F800000 is the extended real one. -/
theorem one_f32 : Ideal.ofBits .f32 0x3F800000#32 = 1 := IdealRules.sign_bit.ideal_onePat .f32

/-- x · (1 / (1 + e^(-x))), with the two ones as f32 words, is silu x. -/
theorem silu_eq (z : EReal) :
    z * Ideal.div (Ideal.ofBits .f32 0x3F800000#32) (Ideal.ofBits .f32 0x3F800000#32 + Ideal.exp (-z)) = Cert.Spec.silu z := by
  unfold Cert.Spec.silu Ideal.logistic
  rw [one_f32]

/-- Row r after the two activations: silu (silu (pre-activation)). -/
abbrev act (r : Fin 100000) (k : Fin 128) : EReal :=
  Cert.Spec.silu (Cert.Spec.silu (Cert.Spec.senderLin x0 x12 x13 r k))

/-- Row r's deviation from its mean. -/
abbrev dev (r : Fin 100000) (k : Fin 128) : EReal :=
  act x0 x12 x13 r k - Cert.Spec.mean (act x0 x12 x13 r)

/-- The pre-activation row entry: the dot product of row r of x with row j of W, plus the bias. -/
theorem v89_at (r : Fin 100000) (j : Fin 128) :
    val_main_v89 (F := Ideal) x0 x12 x13 (ix2 r j) = Cert.Spec.senderLin x0 x12 x13 r j := by
  rw [val_main_v89_apply, val_main_v86_apply, val_main_v88_apply, val_main_v87_apply]
  unfold Cert.Spec.senderLin
  rw [Ideal.addf_def]
  refine congrArg₂ (· + ·) (Finset.sum_congr rfl fun k _ => ?_) ?_
  · rw [val_main_v85_apply]
    refine congrArg₂ (· * ·) (congrArg x0 ?_) (congrArg x12 ?_)
    · funext a; match a with | ⟨0, _⟩ => rfl | ⟨1, _⟩ => rfl
    · funext a; match a with | ⟨0, _⟩ => rfl | ⟨1, _⟩ => rfl
  · refine congrArg x13 ?_
    funext a; match a with | ⟨0, _⟩ => rfl

/-- The first activation. -/
theorem v90_at (r : Fin 100000) (j : Fin 128) :
    val_main_v90 (F := Ideal) x0 x12 x13 (ix2 r j) = Cert.Spec.silu (Cert.Spec.senderLin x0 x12 x13 r j) := by
  rw [val_main_v90_apply, val_main_call4_v5_apply, val_main_call4_v4_apply, val_main_call4_cst_0_apply,
    val_main_call4_v3_apply, val_main_call4_v2_apply, val_main_call4_cst_apply, val_main_call4_v1_apply,
    val_main_call4_v0_apply, v89_at]
  simp only [Ideal.mulf_def, Ideal.hostDivf_def, Ideal.addf_def, Ideal.hostUnary_exp_def, Ideal.hostNegf_def,
    Ideal.negf_def, Ideal.ofBits_def]
  exact silu_eq _

/-- The second activation. -/
theorem v91_at (r : Fin 100000) (j : Fin 128) :
    val_main_v91 (F := Ideal) x0 x12 x13 (ix2 r j) = act x0 x12 x13 r j := by
  rw [val_main_v91_apply, val_main_call5_v5_apply, val_main_call5_v4_apply, val_main_call5_cst_0_apply,
    val_main_call5_v3_apply, val_main_call5_v2_apply, val_main_call5_cst_apply, val_main_call5_v1_apply,
    val_main_call5_v0_apply, v90_at]
  simp only [Ideal.mulf_def, Ideal.hostDivf_def, Ideal.addf_def, Ideal.hostUnary_exp_def, Ideal.hostNegf_def,
    Ideal.negf_def, Ideal.ofBits_def]
  exact silu_eq _

/-- The row sum of the activated row. -/
theorem v92_at (r : Fin 100000) :
    val_main_v92 (F := Ideal) x0 x12 x13 (ix1 r) = ∑ k : Fin 128, act x0 x12 x13 r k := by
  rw [val_main_v92_apply, val_main_cst_13_apply, Ideal.ofBits_def, Ideal.ofBits_zero_f32, zero_add]
  refine Finset.sum_congr rfl fun k _ => ?_
  refine (congrArg (val_main_v91 (F := Ideal) x0 x12 x13) ?_).trans (v91_at x0 x12 x13 r k)
  funext a; match a with | ⟨0, _⟩ => rfl | ⟨1, _⟩ => rfl

/-- The row mean, in the column array. -/
theorem v95_at (r : Fin 100000) :
    val_main_v95 (F := Ideal) x0 x12 x13 (ix2 r (0 : Fin 1)) = Cert.Spec.mean (act x0 x12 x13 r) := by
  rw [val_main_v95_apply, val_main_v93_apply, val_main_v94_apply, val_main_cst_14_apply]
  have e : idx_main_v93 (ix2 r (0 : Fin 1)) = ix1 r := by
    funext a; match a with | ⟨0, _⟩ => rfl
  rw [e, v92_at]
  rfl

/-- The row mean, broadcast along the row (first copy). -/
theorem v96_at (r : Fin 100000) (j : Fin 128) :
    val_main_v96 (F := Ideal) x0 x12 x13 (ix2 r j) = Cert.Spec.mean (act x0 x12 x13 r) := by
  rw [val_main_v96_apply]
  refine (congrArg (val_main_v95 (F := Ideal) x0 x12 x13) ?_).trans (v95_at x0 x12 x13 r)
  funext a; match a with | ⟨0, _⟩ => rfl | ⟨1, _⟩ => rfl

/-- The row mean, broadcast along the row (second copy). -/
theorem v103_at (r : Fin 100000) (j : Fin 128) :
    val_main_v103 (F := Ideal) x0 x12 x13 (ix2 r j) = Cert.Spec.mean (act x0 x12 x13 r) := by
  rw [val_main_v103_apply]
  refine (congrArg (val_main_v95 (F := Ideal) x0 x12 x13) ?_).trans (v95_at x0 x12 x13 r)
  funext a; match a with | ⟨0, _⟩ => rfl | ⟨1, _⟩ => rfl

/-- The deviation from the mean (first copy) and its square. -/
theorem v97_at (r : Fin 100000) (j : Fin 128) :
    val_main_v97 (F := Ideal) x0 x12 x13 (ix2 r j) = dev x0 x12 x13 r j := by
  rw [val_main_v97_apply, v91_at, v96_at]; rfl

theorem v98_at (r : Fin 100000) (j : Fin 128) :
    val_main_v98 (F := Ideal) x0 x12 x13 (ix2 r j) = dev x0 x12 x13 r j * dev x0 x12 x13 r j := by
  rw [val_main_v98_apply, v97_at]; rfl

/-- The row sum of the squared deviations. -/
theorem v99_at (r : Fin 100000) :
    val_main_v99 (F := Ideal) x0 x12 x13 (ix1 r) = ∑ k : Fin 128, dev x0 x12 x13 r k * dev x0 x12 x13 r k := by
  rw [val_main_v99_apply, val_main_cst_15_apply, Ideal.ofBits_def, Ideal.ofBits_zero_f32, zero_add]
  refine Finset.sum_congr rfl fun k _ => ?_
  refine (congrArg (val_main_v98 (F := Ideal) x0 x12 x13) ?_).trans (v98_at x0 x12 x13 r k)
  funext a; match a with | ⟨0, _⟩ => rfl | ⟨1, _⟩ => rfl

/-- The mean squared deviation, in the column array. -/
theorem v102_at (r : Fin 100000) :
    val_main_v102 (F := Ideal) x0 x12 x13 (ix2 r (0 : Fin 1))
      = Cert.Spec.mean (fun k => dev x0 x12 x13 r k * dev x0 x12 x13 r k) := by
  rw [val_main_v102_apply, val_main_v100_apply, val_main_v101_apply, val_main_cst_16_apply]
  have e : idx_main_v100 (ix2 r (0 : Fin 1)) = ix1 r := by
    funext a; match a with | ⟨0, _⟩ => rfl
  rw [e, v99_at]
  rfl

/-- The reciprocal square root of the mean squared deviation plus ε, in the column array. -/
theorem v107_at (r : Fin 100000) :
    val_main_v107 (F := Ideal) x0 x12 x13 (ix2 r (0 : Fin 1))
      = Ideal.rsqrt (Cert.Spec.mean (fun k => dev x0 x12 x13 r k * dev x0 x12 x13 r k) + Cert.Spec.eps) := by
  rw [val_main_v107_apply, val_main_v106_apply, val_main_v105_apply, val_main_cst_17_apply, v102_at]
  rfl

/-- The same, broadcast along the row. -/
theorem v108_at (r : Fin 100000) (j : Fin 128) :
    val_main_v108 (F := Ideal) x0 x12 x13 (ix2 r j)
      = Ideal.rsqrt (Cert.Spec.mean (fun k => dev x0 x12 x13 r k * dev x0 x12 x13 r k) + Cert.Spec.eps) := by
  rw [val_main_v108_apply]
  refine (congrArg (val_main_v107 (F := Ideal) x0 x12 x13) ?_).trans (v107_at x0 x12 x13 r)
  funext a; match a with | ⟨0, _⟩ => rfl | ⟨1, _⟩ => rfl

/-- The deviation (second copy) times the reciprocal square root: the normalised entry. -/
theorem v109_at (r : Fin 100000) (j : Fin 128) :
    val_main_v109 (F := Ideal) x0 x12 x13 (ix2 r j)
      = dev x0 x12 x13 r j
        * Ideal.rsqrt (Cert.Spec.mean (fun k => dev x0 x12 x13 r k * dev x0 x12 x13 r k) + Cert.Spec.eps) := by
  rw [val_main_v109_apply, val_main_v104_apply, v91_at, v103_at, v108_at]; rfl

/-- A length-128 vector broadcast to every row reads its entry j. -/
theorem v111_at (r : Fin 100000) (j : Fin 128) : val_main_v111 (F := Ideal) x14 (ix2 r j) = x14 (ix1 j) := by
  rw [val_main_v111_apply, val_main_v110_apply]
  refine congrArg x14 ?_
  funext a; match a with | ⟨0, _⟩ => rfl

theorem v114_at (r : Fin 100000) (j : Fin 128) : val_main_v114 (F := Ideal) x15 (ix2 r j) = x15 (ix1 j) := by
  rw [val_main_v114_apply, val_main_v113_apply]
  refine congrArg x15 ?_
  funext a; match a with | ⟨0, _⟩ => rfl

/-- The block's nonlinearity at row r, entry j. -/
theorem v115_at (r : Fin 100000) (j : Fin 128) :
    val_main_v115 (F := Ideal) x0 x12 x13 x14 x15 (ix2 r j)
      = Cert.Spec.mlp (Cert.Spec.senderLin x0 x12 x13 r) (fun j => x14 (ix1 j)) (fun j => x15 (ix1 j)) j := by
  rw [val_main_v115_apply, val_main_v112_apply, v109_at, v111_at, v114_at]
  rfl

end

end Sender

/-- The reference's first stage function, of abstract argument arrays, is the updated sender features. -/
theorem val116_eq (x0 : (⟨S100000x128, .f32⟩ : BufTy).Contents (Elt Ideal)) (x12 : (⟨S128x128, .f32⟩ : BufTy).Contents (Elt Ideal))
    (x13 x14 x15 : (⟨S128, .f32⟩ : BufTy).Contents (Elt Ideal)) :
    val_main_v116 (F := Ideal) x0 x12 x13 x14 x15 = Cert.Spec.senderOut x0 x12 x13 x14 x15 := by
  funext i
  obtain ⟨r, j, rfl⟩ : ∃ (r : Fin 100000) (j : Fin 128), i = ix2 r j := ⟨i 0, i 1, eq_ix2 i⟩
  rw [val_main_v116_apply, Sender.v115_at]
  rfl

end Cert.ReferenceIdeal.RefValue

end
-- ==== Proof.REdge.lean ====
/-
  The idealized reference's edge block: its new edge features (the messages) and its third result, the updated edge
  features, as functions of the argument arrays.

  Row e of the concatenated array is (sender row | receiver row | edge row), 384 entries; its product with the
  transposed weight is a sum over 384 columns, split into the three sums over 128 of the specification.  Each silu is
  x · (1 / (1 + e^(-x))) with 1 the word 0x3F800000.  The layer norm is read entry by entry: the row's sum from zero,
  divided by 128, is the mean; the sum of squared deviations from zero, divided by 128, plus ε, under the reciprocal
  square root, scales the deviation; the scale and the shift are the rows of length 128 broadcast over the edges.
  The two gathers are carried whole: under the range hypothesis the wrapped index vectors are the unwrapped ones.
-/
import proofs.«418128_j9191230013922_2_alg».proof.Proof.RefStages
import proofs.«418128_j9191230013922_2_alg».proof.Proof.Spec
import proofs.«418128_j9191230013922_2_alg».proof.Proof.Glue
import proofs.«418128_j9191230013922_2_alg».proof.Proof.IdxFacts

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read
open scoped BigOperators

/-! ## Scalars -/

/-- The word 0x3F800000 is the number 1. -/
theorem one_eq : Ideal.ofBits .f32 0x3F800000#32 = 1 := by
  simp [Ideal.ofBits, Ideal.ieee, -EReal.coe_mul]; norm_num

/-- x · (1 / (1 + e^(-x))), with 1 spelt as its word, is silu x. -/
theorem silu_eq (z : EReal) :
    z * Ideal.div (Ideal.ofBits .f32 0x3F800000#32) (Ideal.ofBits .f32 0x3F800000#32 + Ideal.exp (-z)) = Cert.Spec.silu z := by
  rw [one_eq]; rfl

/-! ## A row of three pieces of 128 entries, read in each third -/

theorem cat_third0 (a b c : S600000x128.Idx → EReal) (e : Fin 600000) (k : Fin 128) :
    concatenate S600000x384 1 [⟨S600000x128, a⟩, ⟨S600000x128, b⟩, ⟨S600000x128, c⟩]
      concatenates_S600000x128_S600000x128_S600000x128_S600000x384_d1 (ix2 e (Cert.Spec.third0 k)) = a (ix2 e k) := by
  refine concatenate_apply_piece (1 : Fin S600000x384.rank) _ _ _ 0 (by show 0 < 3; omega) S600000x128 a rfl rfl 0 rfl (ix2 e k)
    (fun d hd => ?_) ?_
  · match d with
    | ⟨0, _⟩ => rfl
    | ⟨1, _⟩ => exact absurd rfl hd
  · show 0 + k.val = k.val
    omega

theorem cat_third1 (a b c : S600000x128.Idx → EReal) (e : Fin 600000) (k : Fin 128) :
    concatenate S600000x384 1 [⟨S600000x128, a⟩, ⟨S600000x128, b⟩, ⟨S600000x128, c⟩]
      concatenates_S600000x128_S600000x128_S600000x128_S600000x384_d1 (ix2 e (Cert.Spec.third1 k)) = b (ix2 e k) := by
  refine concatenate_apply_piece (1 : Fin S600000x384.rank) _ _ _ 1 (by show 1 < 3; omega) S600000x128 b rfl rfl 128 rfl (ix2 e k)
    (fun d hd => ?_) ?_
  · match d with
    | ⟨0, _⟩ => rfl
    | ⟨1, _⟩ => exact absurd rfl hd
  · show 128 + k.val = 128 + k.val
    rfl

theorem cat_third2 (a b c : S600000x128.Idx → EReal) (e : Fin 600000) (k : Fin 128) :
    concatenate S600000x384 1 [⟨S600000x128, a⟩, ⟨S600000x128, b⟩, ⟨S600000x128, c⟩]
      concatenates_S600000x128_S600000x128_S600000x128_S600000x384_d1 (ix2 e (Cert.Spec.third2 k)) = c (ix2 e k) := by
  refine concatenate_apply_piece (1 : Fin S600000x384.rank) _ _ _ 2 (by show 2 < 3; omega) S600000x128 c rfl rfl 256 rfl (ix2 e k)
    (fun d hd => ?_) ?_
  · match d with
    | ⟨0, _⟩ => rfl
    | ⟨1, _⟩ => exact absurd rfl hd
  · show 256 + k.val = 256 + k.val
    rfl

/-! ## The gathers, carried whole -/

/-- The gathered sender rows: the wrapped source column is the source column. -/
theorem gath_src (x0 : (⟨S100000x128, .f32⟩ : BufTy).Contents (Elt Ideal)) (x2 : (⟨S2x600000, .i32⟩ : BufTy).Contents (Elt Ideal))
    (hin : Cert.Glue.InRange x2) :
    val_main_v10 (F := Ideal) x0 x2 = Cert.Glue.gath x0 (Cert.Glue.col (Cert.Glue.srcFlat x2)) := by
  have h1 : val_main_v1 (F := Ideal) x2 = Cert.Glue.srcFlat x2 := Cert.Glue.ref_srcFlat x2
  have h8 : val_main_v8 (F := Ideal) x2 = Cert.Glue.srcFlat x2 := by
    unfold val_main_v8 val_main_v5 val_main_v7 val_main_v4 val_main_v6 val_main_c val_main_c_0
    rw [h1]
    exact Cert.Glue.wrap_eq (Cert.Glue.srcFlat x2) (Cert.Glue.srcFlat_range x2 hin)
  unfold val_main_v10 val_main_v9
  rw [h8]
  rfl

/-- The gathered receiver rows: the wrapped destination column is the destination column. -/
theorem gath_dst (x1 : (⟨S100000x128, .f32⟩ : BufTy).Contents (Elt Ideal)) (x2 : (⟨S2x600000, .i32⟩ : BufTy).Contents (Elt Ideal))
    (hin : Cert.Glue.InRange x2) :
    val_main_v17 (F := Ideal) x1 x2 = Cert.Glue.gath x1 (Cert.Glue.col (Cert.Glue.dstFlat x2)) := by
  have h3 : val_main_v3 (F := Ideal) x2 = Cert.Glue.dstFlat x2 := Cert.Glue.ref_dstFlat x2
  have h15 : val_main_v15 (F := Ideal) x2 = Cert.Glue.dstFlat x2 := by
    unfold val_main_v15 val_main_v12 val_main_v14 val_main_v11 val_main_v13 val_main_c_1 val_main_c_2
    rw [h3]
    exact Cert.Glue.wrap_eq (Cert.Glue.dstFlat x2) (Cert.Glue.dstFlat_range x2 hin)
  unfold val_main_v17 val_main_v16
  rw [h15]
  rfl

/-! ## The rows of length 128 broadcast over the edges -/

/-- The bias at edge e, entry j, is the bias's entry j. -/
theorem bias_at (x5 : (⟨S128, .f32⟩ : BufTy).Contents (Elt Ideal)) (e : Fin 600000) (j : Fin 128) :
    val_main_v22 (F := Ideal) x5 (ix2 e j) = x5 (ix1 j) := by
  rw [val_main_v22_apply, val_main_v21_apply]
  exact congrArg x5 (funext fun a => match a with | ⟨0, _⟩ => rfl)

/-- The scale at edge e, entry j, is the scale's entry j. -/
theorem scale_at (x6 : (⟨S128, .f32⟩ : BufTy).Contents (Elt Ideal)) (e : Fin 600000) (j : Fin 128) :
    val_main_v45 (F := Ideal) x6 (ix2 e j) = x6 (ix1 j) := by
  rw [val_main_v45_apply, val_main_v44_apply]
  exact congrArg x6 (funext fun a => match a with | ⟨0, _⟩ => rfl)

/-- The shift at edge e, entry j, is the shift's entry j. -/
theorem shift_at (x7 : (⟨S128, .f32⟩ : BufTy).Contents (Elt Ideal)) (e : Fin 600000) (j : Fin 128) :
    val_main_v48 (F := Ideal) x7 (ix2 e j) = x7 (ix1 j) := by
  rw [val_main_v48_apply, val_main_v47_apply]
  exact congrArg x7 (funext fun a => match a with | ⟨0, _⟩ => rfl)

/-! ## The linear map -/

/-- The transposed weight at (k, j) is the weight at (j, k). -/
theorem wt_at (x4 : (⟨S128x384, .f32⟩ : BufTy).Contents (Elt Ideal)) (e : Fin 600000) (j : Fin 128) (k : Fin 384) :
    val_main_v19 (F := Ideal) x4 (ridx_main_v20 (ix2 e j) k) = x4 (ix2 j k) := by
  rw [val_main_v19_apply]
  exact congrArg x4 (funext fun a => match a with | ⟨0, _⟩ => rfl | ⟨1, _⟩ => rfl)

/-- The left operand's index at output (e, j), column k, is (e, k). -/
theorem lidx_at (e : Fin 600000) (j : Fin 128) (k : Fin 384) : lidx_main_v20 (ix2 e j) k = ix2 e k :=
  funext fun a => match a with | ⟨0, _⟩ => rfl | ⟨1, _⟩ => rfl

/-- The concatenated row in its first third is the gathered sender row. -/
theorem cat_at0 (x0 x1 : (⟨S100000x128, .f32⟩ : BufTy).Contents (Elt Ideal)) (x2 : (⟨S2x600000, .i32⟩ : BufTy).Contents (Elt Ideal)) (x3 : (⟨S600000x128, .f32⟩ : BufTy).Contents (Elt Ideal))
    (e : Fin 600000) (j : Fin 128) (k : Fin 128) :
    val_main_v18 (F := Ideal) x0 x1 x2 x3 (lidx_main_v20 (ix2 e j) (Cert.Spec.third0 k)) = val_main_v10 (F := Ideal) x0 x2 (ix2 e k) := by
  rw [lidx_at]
  unfold val_main_v18
  exact cat_third0 _ _ _ e k

/-- The concatenated row in its second third is the gathered receiver row. -/
theorem cat_at1 (x0 x1 : (⟨S100000x128, .f32⟩ : BufTy).Contents (Elt Ideal)) (x2 : (⟨S2x600000, .i32⟩ : BufTy).Contents (Elt Ideal)) (x3 : (⟨S600000x128, .f32⟩ : BufTy).Contents (Elt Ideal))
    (e : Fin 600000) (j : Fin 128) (k : Fin 128) :
    val_main_v18 (F := Ideal) x0 x1 x2 x3 (lidx_main_v20 (ix2 e j) (Cert.Spec.third1 k)) = val_main_v17 (F := Ideal) x1 x2 (ix2 e k) := by
  rw [lidx_at]
  unfold val_main_v18
  exact cat_third1 _ _ _ e k

/-- The concatenated row in its last third is the edge's own row. -/
theorem cat_at2 (x0 x1 : (⟨S100000x128, .f32⟩ : BufTy).Contents (Elt Ideal)) (x2 : (⟨S2x600000, .i32⟩ : BufTy).Contents (Elt Ideal)) (x3 : (⟨S600000x128, .f32⟩ : BufTy).Contents (Elt Ideal))
    (e : Fin 600000) (j : Fin 128) (k : Fin 128) :
    val_main_v18 (F := Ideal) x0 x1 x2 x3 (lidx_main_v20 (ix2 e j) (Cert.Spec.third2 k)) = x3 (ix2 e k) := by
  rw [lidx_at]
  unfold val_main_v18
  exact cat_third2 _ _ _ e k

/-- The pre-activation at edge e, entry j: the sum over 384 columns is the three sums over 128, plus the bias. -/
theorem lin_eq (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) (j : Fin 128) :
    val_main_v23 (F := Ideal) x0 x1 x2 x3 x4 x5 (ix2 e j)
      = Cert.Spec.edgeLin (val_main_v10 (F := Ideal) x0 x2) (val_main_v17 (F := Ideal) x1 x2) x3 x4 x5 e j := by
  rw [val_main_v23_apply, val_main_v20_apply, bias_at, Cert.Spec.sum_thirds]
  unfold Cert.Spec.edgeLin
  refine congrArg₂ (· + ·) (congrArg₂ (· + ·) (congrArg₂ (· + ·) ?_ ?_) ?_) rfl
  · refine Finset.sum_congr rfl fun k _ => ?_
    rw [cat_at0, wt_at]
  · refine Finset.sum_congr rfl fun k _ => ?_
    rw [cat_at1, wt_at]
  · refine Finset.sum_congr rfl fun k _ => ?_
    rw [cat_at2, wt_at]

/-! ## The two silus -/

/-- The first activation is silu of the pre-activation. -/
theorem act1_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (i : S600000x128.Idx) :
    val_main_v24 (F := Ideal) x0 x1 x2 x3 x4 x5 i = Cert.Spec.silu (val_main_v23 (F := Ideal) x0 x1 x2 x3 x4 x5 i) := by
  rw [val_main_v24_apply, val_main_call0_v5_apply, val_main_call0_v4_apply, val_main_call0_cst_0_apply,
    val_main_call0_v3_apply, val_main_call0_v2_apply, val_main_call0_cst_apply, val_main_call0_v1_apply,
    val_main_call0_v0_apply]
  exact silu_eq _

/-- The second activation is silu of the first. -/
theorem act_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (i : S600000x128.Idx) :
    val_main_v25 (F := Ideal) x0 x1 x2 x3 x4 x5 i = Cert.Spec.silu (Cert.Spec.silu (val_main_v23 (F := Ideal) x0 x1 x2 x3 x4 x5 i)) := by
  rw [val_main_v25_apply, val_main_call1_v5_apply, val_main_call1_v4_apply, val_main_call1_cst_0_apply,
    val_main_call1_v3_apply, val_main_call1_v2_apply, val_main_call1_cst_apply, val_main_call1_v1_apply,
    val_main_call1_v0_apply, act1_at]
  exact silu_eq _

/-! ## The layer norm, entry by entry -/

/-- The index of row e's entry k in the row sum. -/
theorem idx26_at (e : Fin 600000) (k : Fin 128) : idx_main_v26 (ix1 e) k = ix2 e k :=
  funext fun a => match a with | ⟨0, _⟩ => rfl | ⟨1, _⟩ => rfl

theorem idx33_at (e : Fin 600000) (k : Fin 128) : idx_main_v33 (ix1 e) k = ix2 e k :=
  funext fun a => match a with | ⟨0, _⟩ => rfl | ⟨1, _⟩ => rfl

/-- The column entry of row e is the flat entry e. -/
theorem idx27_at (e : Fin 600000) : idx_main_v27 (ix2 e (0 : Fin 1)) = ix1 e :=
  funext fun a => match a with | ⟨0, _⟩ => rfl

theorem idx34_at (e : Fin 600000) : idx_main_v34 (ix2 e (0 : Fin 1)) = ix1 e :=
  funext fun a => match a with | ⟨0, _⟩ => rfl

/-- Entry (e, j) of a column broadcast along the row reads the column at row e. -/
theorem idx30_at (e : Fin 600000) (j : Fin 128) : idx_main_v30 (ix2 e j) = ix2 e (0 : Fin 1) :=
  funext fun a => match a with | ⟨0, _⟩ => rfl | ⟨1, _⟩ => rfl

theorem idx37_at (e : Fin 600000) (j : Fin 128) : idx_main_v37 (ix2 e j) = ix2 e (0 : Fin 1) :=
  funext fun a => match a with | ⟨0, _⟩ => rfl | ⟨1, _⟩ => rfl

theorem idx42_at (e : Fin 600000) (j : Fin 128) : idx_main_v42 (ix2 e j) = ix2 e (0 : Fin 1) :=
  funext fun a => match a with | ⟨0, _⟩ => rfl | ⟨1, _⟩ => rfl

/-- The row sum, from zero, is the sum of the row's 128 entries. -/
theorem sum_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) :
    val_main_v26 (F := Ideal) x0 x1 x2 x3 x4 x5 (ix1 e) = ∑ k : Fin 128, val_main_v25 (F := Ideal) x0 x1 x2 x3 x4 x5 (ix2 e k) := by
  rw [val_main_v26_apply, val_main_cst_apply, Ideal.ofBits_def, Ideal.ofBits_zero_f32, zero_add]
  refine Finset.sum_congr rfl fun k _ => ?_
  rw [idx26_at]

/-- The row sum divided by 128 is the row's mean. -/
theorem mean_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) :
    val_main_v29 (F := Ideal) x0 x1 x2 x3 x4 x5 (ix2 e (0 : Fin 1)) = Cert.Spec.mean (fun k : Fin 128 => val_main_v25 (F := Ideal) x0 x1 x2 x3 x4 x5 (ix2 e k)) := by
  rw [val_main_v29_apply, val_main_v27_apply, val_main_v28_apply, val_main_cst_3_apply, idx27_at, sum_at]
  rfl

/-- The deviation of entry (e, j) from its row's mean (the copy that is squared). -/
theorem dev_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) (j : Fin 128) :
    val_main_v31 (F := Ideal) x0 x1 x2 x3 x4 x5 (ix2 e j) = val_main_v25 (F := Ideal) x0 x1 x2 x3 x4 x5 (ix2 e j) - Cert.Spec.mean (fun k : Fin 128 => val_main_v25 (F := Ideal) x0 x1 x2 x3 x4 x5 (ix2 e k)) := by
  rw [val_main_v31_apply, val_main_v30_apply, idx30_at, mean_at]
  rfl

/-- The deviation of entry (e, j) from its row's mean (the copy that is scaled). -/
theorem dev'_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) (j : Fin 128) :
    val_main_v38 (F := Ideal) x0 x1 x2 x3 x4 x5 (ix2 e j) = val_main_v25 (F := Ideal) x0 x1 x2 x3 x4 x5 (ix2 e j) - Cert.Spec.mean (fun k : Fin 128 => val_main_v25 (F := Ideal) x0 x1 x2 x3 x4 x5 (ix2 e k)) := by
  rw [val_main_v38_apply, val_main_v37_apply, idx37_at, mean_at]
  rfl

/-- The sum of the squared deviations of row e, from zero. -/
theorem sqsum_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) :
    val_main_v33 (F := Ideal) x0 x1 x2 x3 x4 x5 (ix1 e)
      = ∑ k : Fin 128, (val_main_v25 (F := Ideal) x0 x1 x2 x3 x4 x5 (ix2 e k) - Cert.Spec.mean (fun k : Fin 128 => val_main_v25 (F := Ideal) x0 x1 x2 x3 x4 x5 (ix2 e k))) * (val_main_v25 (F := Ideal) x0 x1 x2 x3 x4 x5 (ix2 e k) - Cert.Spec.mean (fun k : Fin 128 => val_main_v25 (F := Ideal) x0 x1 x2 x3 x4 x5 (ix2 e k))) := by
  rw [val_main_v33_apply, val_main_cst_4_apply, Ideal.ofBits_def, Ideal.ofBits_zero_f32, zero_add]
  refine Finset.sum_congr rfl fun k _ => ?_
  rw [idx33_at, val_main_v32_apply, dev_at]
  rfl

/-- The mean squared deviation of row e. -/
theorem var_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) :
    val_main_v36 (F := Ideal) x0 x1 x2 x3 x4 x5 (ix2 e (0 : Fin 1))
      = Cert.Spec.mean (fun k : Fin 128 => (val_main_v25 (F := Ideal) x0 x1 x2 x3 x4 x5 (ix2 e k) - Cert.Spec.mean (fun k : Fin 128 => val_main_v25 (F := Ideal) x0 x1 x2 x3 x4 x5 (ix2 e k))) * (val_main_v25 (F := Ideal) x0 x1 x2 x3 x4 x5 (ix2 e k) - Cert.Spec.mean (fun k : Fin 128 => val_main_v25 (F := Ideal) x0 x1 x2 x3 x4 x5 (ix2 e k)))) := by
  rw [val_main_v36_apply, val_main_v34_apply, val_main_v35_apply, val_main_cst_5_apply, idx34_at, sqsum_at]
  rfl

/-- The reciprocal square root of the mean squared deviation plus ε, at entry (e, j). -/
theorem rs_at (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 : (⟨S128, .f32⟩ : BufTy).Contents (Elt Ideal)) (e : Fin 600000) (j : Fin 128) :
    val_main_v42 (F := Ideal) x0 x1 x2 x3 x4 x5 (ix2 e j)
      = Ideal.rsqrt (Cert.Spec.mean (fun k : Fin 128 => (val_main_v25 (F := Ideal) x0 x1 x2 x3 x4 x5 (ix2 e k) - Cert.Spec.mean (fun k : Fin 128 => val_main_v25 (F := Ideal) x0 x1 x2 x3 x4 x5 (ix2 e k))) * (val_main_v25 (F := Ideal) x0 x1 x2 x3 x4 x5 (ix2 e k) - Cert.Spec.mean (fun k : Fin 128 => val_main_v25 (F := Ideal) x0 x1 x2 x3 x4 x5 (ix2 e k)))) + Cert.Spec.eps) := by
  rw [val_main_v42_apply, val_main_v41_apply, val_main_v40_apply, val_main_v39_apply, val_main_cst_6_apply, idx42_at, var_at]
  rfl

/-- The layer norm's output at entry (e, j) is the specification's layer norm of the row of second activations. -/
theorem ln_eq (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 x6 x7 : (⟨S128, .f32⟩ : BufTy).Contents (Elt Ideal)) (e : Fin 600000) (j : Fin 128) :
    val_main_v49 (F := Ideal) x0 x1 x2 x3 x4 x5 x6 x7 (ix2 e j)
      = Cert.Spec.layerNorm (fun k : Fin 128 => val_main_v25 (F := Ideal) x0 x1 x2 x3 x4 x5 (ix2 e k)) (fun j => x6 (ix1 j)) (fun j => x7 (ix1 j)) j := by
  rw [val_main_v49_apply, val_main_v46_apply, val_main_v43_apply, dev'_at, rs_at, scale_at, shift_at]
  rfl

/-! ## The messages and the updated edge features -/

/-- The specification's messages at entry (e, j): the layer norm of the twice-activated pre-activations of row e. -/
theorem edgeNew_at (sG rG ea : (⟨2, ![600000, 128]⟩ : Shape).Idx → EReal) (W : (⟨2, ![128, 384]⟩ : Shape).Idx → EReal)
    (b g bb : (⟨1, ![128]⟩ : Shape).Idx → EReal) (e : Fin 600000) (j : Fin 128) :
    Cert.Spec.edgeNew sG rG ea W b g bb (ix2 e j)
      = Cert.Spec.layerNorm (fun k => Cert.Spec.silu (Cert.Spec.silu (Cert.Spec.edgeLin sG rG ea W b e k)))
          (fun j => g (ix1 j)) (fun j => bb (ix1 j)) j := rfl

/-- The messages at entry (e, j), over the reference's own gathered rows. -/
theorem edge_new_pt (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 x6 x7 : (⟨S128, .f32⟩ : BufTy).Contents (Elt Ideal)) (e : Fin 600000) (j : Fin 128) :
    val_main_v49 (F := Ideal) x0 x1 x2 x3 x4 x5 x6 x7 (ix2 e j)
      = Cert.Spec.edgeNew (val_main_v10 (F := Ideal) x0 x2) (val_main_v17 (F := Ideal) x1 x2) x3 x4 x5 x6 x7 (ix2 e j) := by
  rw [ln_eq, edgeNew_at]
  congr 1
  funext k
  rw [act_at, lin_eq]

/-- The reference's messages (the value its scatter-add sums) are `Spec.edgeNew` of the gathered rows. -/
theorem edge_new_eq (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 x6 x7 : (⟨S128, .f32⟩ : BufTy).Contents (Elt Ideal))
    (hin : Cert.Glue.InRange x2) :
    Cert.ReferenceIdeal.Read.val_main_v49 (F := Ideal) x0 x1 x2 x3 x4 x5 x6 x7
      = Cert.Spec.edgeNew (Cert.Glue.gath x0 (Cert.Glue.col (Cert.Glue.srcFlat x2))) (Cert.Glue.gath x1 (Cert.Glue.col (Cert.Glue.dstFlat x2))) x3 x4 x5 x6 x7 := by
  funext i
  have hi : ix2 (⟨(i 0).val, (i 0).isLt⟩ : Fin 600000) (⟨(i 1).val, (i 1).isLt⟩ : Fin 128) = i :=
    funext fun a => match a with | ⟨0, _⟩ => rfl | ⟨1, _⟩ => rfl
  have h := edge_new_pt x0 x1 x2 x3 x4 x5 x6 x7 ⟨(i 0).val, (i 0).isLt⟩ ⟨(i 1).val, (i 1).isLt⟩
  rw [hi, gath_src x0 x2 hin, gath_dst x1 x2 hin] at h
  exact h

/-- The third result's stage, the edge's row plus its message, is `Spec.edgeOut` of the gathered rows. -/
theorem val118_eq (x0 x1 : (⟨S100000x128, .f32⟩ : BufTy).Contents (Elt Ideal)) (x2 : (⟨S2x600000, .i32⟩ : BufTy).Contents (Elt Ideal)) (x3 : (⟨S600000x128, .f32⟩ : BufTy).Contents (Elt Ideal)) (x4 : (⟨S128x384, .f32⟩ : BufTy).Contents (Elt Ideal)) (x5 x6 x7 : (⟨S128, .f32⟩ : BufTy).Contents (Elt Ideal))
    (hin : Cert.Glue.InRange x2) :
    val_main_v118 (F := Ideal) x0 x1 x2 x3 x4 x5 x6 x7
      = Cert.Spec.edgeOut (Cert.Glue.gath x0 (Cert.Glue.col (Cert.Glue.srcFlat x2))) (Cert.Glue.gath x1 (Cert.Glue.col (Cert.Glue.dstFlat x2))) x3 x4 x5 x6 x7 := by
  funext i
  rw [val_main_v118_apply, edge_new_eq x0 x1 x2 x3 x4 x5 x6 x7 hin]
  rfl

end Cert.ReferenceIdeal.RefValue

end
-- ==== Proof.RNode.lean ====
/-
  The idealized reference's second result is the updated receiver features of the receiver table and the aggregated
  messages, the messages being the reference's own new edge features.

  The reference computes it in stages, each read here at an index.  The aggregated messages are a scatter-add of the
  messages into zeros at the column of destination node numbers: that is `Glue.aggr` of `Glue.col (Glue.dstFlat e)`
  as the term stands (the reference adds nothing to the node numbers before the scatter, so the range of the node
  numbers plays no part).  The row (receiver row | aggregated row) of 256 entries is a concatenation along axis 1: its
  entry k of the first half is the receiver's entry k, its entry 128 + k is the aggregate's entry k.  The product with
  the transposed weight is a sum over 256 indices, split into its two halves (`Spec.sum_halves`): that is
  `Spec.nodeLin` less the bias, which a broadcast adds.  Then silu twice, each spelled x · (1 / (1 + e^(-x))), and the
  layer norm spelled with two row sums from zero, two divisions by 128, a reciprocal square root and the broadcasts of
  scale and shift; last the receiver's own entry is added.
-/
import proofs.«418128_j9191230013922_2_alg».proof.Proof.RefStages
import proofs.«418128_j9191230013922_2_alg».proof.Proof.Spec
import proofs.«418128_j9191230013922_2_alg».proof.Proof.Glue
import proofs.«418128_j9191230013922_2_alg».proof.Proof.IdxFacts
import Idealize.ShloMosaic.Lib.IdealHost

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen
open Cert.ReferenceIdeal.Read
open scoped BigOperators

/-- Two rank-2 indices given by the same two coordinates are equal. -/
local macro "idx2" : tactic => `(tactic| (funext a; match a with | ⟨0, _⟩ => rfl | ⟨1, _⟩ => rfl))
/-- Two rank-1 indices given by the same coordinate are equal. -/
local macro "idx1" : tactic => `(tactic| (funext a; match a with | ⟨0, _⟩ => rfl))

/-! The steps toward the stage lemma are kept in a namespace of their own, `Node`. -/
namespace Node

/-- x · (1 / (1 + e^(-x))), with both ones the f32 word of 1.0, is silu. -/
theorem silu_expand (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = Cert.Spec.silu x := by
  show x * Ideal.div (Ideal.ofBits .f32 0x3F800000#32) (Ideal.ofBits .f32 0x3F800000#32 + Ideal.exp (-x)) = x * Ideal.logistic x
  rw [Ideal.ofBits_one_f32]; rfl

/-- The one entry of an axis of extent one. -/
abbrev z1 : Fin 1 := ⟨0, Nat.one_pos⟩

end Node

section Stages

variable (x0 x1 : (⟨S100000x128, .f32⟩ : BufTy).Contents (Elt Ideal)) (x2 : (⟨S2x600000, .i32⟩ : BufTy).Contents (Elt Ideal))
  (x3 : (⟨S600000x128, .f32⟩ : BufTy).Contents (Elt Ideal)) (x4 : (⟨S128x384, .f32⟩ : BufTy).Contents (Elt Ideal))
  (x5 x6 x7 : (⟨S128, .f32⟩ : BufTy).Contents (Elt Ideal)) (x8 : (⟨S128x256, .f32⟩ : BufTy).Contents (Elt Ideal))
  (x9 x10 x11 : (⟨S128, .f32⟩ : BufTy).Contents (Elt Ideal))

/-- The reference's aggregated messages: the scatter-add of its messages into zeros at the destination column. -/
local notation "AGG" => val_main_v52 (F := Ideal) x0 x1 x2 x3 x4 x5 x6 x7
/-- The pre-activations, and the activations after silu once and twice. -/
local notation "LIN" => val_main_v58 (F := Ideal) x0 x1 x2 x3 x4 x5 x6 x7 x8 x9
local notation "ACT" => val_main_v60 (F := Ideal) x0 x1 x2 x3 x4 x5 x6 x7 x8 x9
/-- Row n of the activations, as a function of the entry. -/
local notation "ROW" n => fun k : Fin 128 => ACT (ix2 n k)

namespace Node

/-- The scatter-add of the reference is `Glue.aggr` at the destination column, of the reference's messages. -/
theorem agg_eq :
    AGG = Cert.Glue.aggr (Cert.Glue.col (Cert.Glue.dstFlat x2)) (val_main_v49 (F := Ideal) x0 x1 x2 x3 x4 x5 x6 x7) := by
  unfold val_main_v52 val_main_v51 val_main_v50 val_main_cst_7 val_main_v3 val_main_v2
  rfl

/-- Entry k of the first half of the concatenated row n is the receiver's entry k. -/
theorem cat_left (n : Fin 100000) (k : Fin 128) :
    val_main_v53 (F := Ideal) x0 x1 x2 x3 x4 x5 x6 x7 (ix2 n (Cert.Spec.half0 k)) = x1 (ix2 n k) := by
  unfold val_main_v53
  exact concatenate_pair_apply_left _ x1 AGG concatenates_S100000x128_S100000x128_S100000x256_d1
    (ix2 n (Cert.Spec.half0 k)) rfl (ix2 n k) (fun b => match b with | ⟨0, _⟩ => rfl | ⟨1, _⟩ => rfl)

/-- Entry 128 + k of the concatenated row n is the aggregate's entry k. -/
theorem cat_right (n : Fin 100000) (k : Fin 128) :
    val_main_v53 (F := Ideal) x0 x1 x2 x3 x4 x5 x6 x7 (ix2 n (Cert.Spec.half1 k)) = AGG (ix2 n k) := by
  unfold val_main_v53
  exact concatenate_pair_apply_right _ x1 AGG concatenates_S100000x128_S100000x128_S100000x256_d1
    (ix2 n (Cert.Spec.half1 k)) rfl rfl (ix2 n k)
    (fun b => match b with | ⟨0, _⟩ => fun _ => rfl | ⟨1, _⟩ => fun h => absurd rfl h)
    (by show k.val + 128 = 128 + k.val; omega)

/-- The pre-activation at node n, entry j. -/
theorem lin_eq (n : Fin 100000) (j : Fin 128) :
    LIN (ix2 n j) = Cert.Spec.nodeLin x1 AGG x8 x9 n j := by
  rw [val_main_v58_apply, val_main_v55_apply, val_main_v57_apply, val_main_v56_apply]
  refine congrArg₂ (· + ·) ((Cert.Spec.sum_halves _).trans (congrArg₂ (· + ·) ?_ ?_)) (congrArg x9 (by idx1))
  · refine Finset.sum_congr rfl fun k _ => ?_
    rw [val_main_v54_apply]
    have e1 : lidx_main_v55 (ix2 n j) (Cert.Spec.half0 k) = ix2 n (Cert.Spec.half0 k) := by idx2
    have e2 : idx_main_v54 (ridx_main_v55 (ix2 n j) (Cert.Spec.half0 k)) = ix2 j (Cert.Spec.half0 k) := by idx2
    rw [e1, e2, cat_left]
  · refine Finset.sum_congr rfl fun k _ => ?_
    rw [val_main_v54_apply]
    have e1 : lidx_main_v55 (ix2 n j) (Cert.Spec.half1 k) = ix2 n (Cert.Spec.half1 k) := by idx2
    have e2 : idx_main_v54 (ridx_main_v55 (ix2 n j) (Cert.Spec.half1 k)) = ix2 j (Cert.Spec.half1 k) := by idx2
    rw [e1, e2, cat_right]

/-- The activation is silu twice of the pre-activation. -/
theorem act_eq (p : S100000x128.Idx) : ACT p = Cert.Spec.silu (Cert.Spec.silu (LIN p)) := by
  have s1 : val_main_v59 (F := Ideal) x0 x1 x2 x3 x4 x5 x6 x7 x8 x9 p = Cert.Spec.silu (LIN p) := by
    rw [val_main_v59_apply, val_main_call2_v5_apply, val_main_call2_v4_apply, val_main_call2_cst_0_apply,
      val_main_call2_v3_apply, val_main_call2_v2_apply, val_main_call2_cst_apply, val_main_call2_v1_apply,
      val_main_call2_v0_apply]
    exact silu_expand _
  rw [val_main_v60_apply, val_main_call3_v5_apply, val_main_call3_v4_apply, val_main_call3_cst_0_apply,
    val_main_call3_v3_apply, val_main_call3_v2_apply, val_main_call3_cst_apply, val_main_call3_v1_apply,
    val_main_call3_v0_apply, s1]
  exact silu_expand _

/-- The first row sum of the layer norm: the sum of row n of the activations. -/
theorem rowsum_eq (n : Fin 100000) :
    val_main_v61 (F := Ideal) x0 x1 x2 x3 x4 x5 x6 x7 x8 x9 (ix1 n) = ∑ k : Fin 128, ACT (ix2 n k) := by
  rw [val_main_v61_apply, val_main_cst_8_apply, Ideal.ofBits_def, Ideal.ofBits_zero_f32, zero_add]
  exact Finset.sum_congr rfl fun k _ => congrArg _ (by idx2)

/-- The mean of row n of the activations. -/
theorem mean_eq (n : Fin 100000) :
    val_main_v64 (F := Ideal) x0 x1 x2 x3 x4 x5 x6 x7 x8 x9 (ix2 n z1) = Cert.Spec.mean (ROW n) := by
  have e : idx_main_v62 (ix2 n z1) = ix1 n := by idx1
  rw [val_main_v64_apply, val_main_v62_apply, val_main_v63_apply, val_main_cst_9_apply, e, rowsum_eq]
  rfl

/-- The deviation from the row's mean at entry k. -/
theorem dev_eq (n : Fin 100000) (k : Fin 128) :
    val_main_v66 (F := Ideal) x0 x1 x2 x3 x4 x5 x6 x7 x8 x9 (ix2 n k) = ACT (ix2 n k) - Cert.Spec.mean (ROW n) := by
  have e : idx_main_v65 (ix2 n k) = ix2 n z1 := by idx2
  rw [val_main_v66_apply, val_main_v65_apply, e, mean_eq]
  rfl

/-- The mean squared deviation of row n. -/
theorem var_eq (n : Fin 100000) :
    val_main_v71 (F := Ideal) x0 x1 x2 x3 x4 x5 x6 x7 x8 x9 (ix2 n z1)
      = Cert.Spec.mean (fun k => ((ROW n) k - Cert.Spec.mean (ROW n)) * ((ROW n) k - Cert.Spec.mean (ROW n))) := by
  have e : idx_main_v69 (ix2 n z1) = ix1 n := by idx1
  have s : val_main_v68 (F := Ideal) x0 x1 x2 x3 x4 x5 x6 x7 x8 x9 (ix1 n)
      = ∑ k : Fin 128, (ACT (ix2 n k) - Cert.Spec.mean (ROW n)) * (ACT (ix2 n k) - Cert.Spec.mean (ROW n)) := by
    rw [val_main_v68_apply, val_main_cst_10_apply, Ideal.ofBits_def, Ideal.ofBits_zero_f32, zero_add]
    refine Finset.sum_congr rfl fun k _ => ?_
    have e' : idx_main_v68 (ix1 n) k = ix2 n k := by idx2
    rw [val_main_v67_apply, e', dev_eq]
    rfl
  rw [val_main_v71_apply, val_main_v69_apply, val_main_v70_apply, val_main_cst_11_apply, e, s]
  rfl

/-- The layer norm of row n of the activations at entry j, with the broadcast scale and shift. -/
theorem ln_eq (n : Fin 100000) (j : Fin 128) :
    val_main_v84 (F := Ideal) x0 x1 x2 x3 x4 x5 x6 x7 x8 x9 x10 x11 (ix2 n j)
      = Cert.Spec.layerNorm (ROW n) (fun j => x10 (ix1 j)) (fun j => x11 (ix1 j)) j := by
  have e72 : idx_main_v72 (ix2 n j) = ix2 n z1 := by idx2
  have e77 : idx_main_v77 (ix2 n j) = ix2 n z1 := by idx2
  have e79 : idx_main_v79 (idx_main_v80 (ix2 n j)) = ix1 j := by idx1
  have e82 : idx_main_v82 (idx_main_v83 (ix2 n j)) = ix1 j := by idx1
  rw [val_main_v84_apply, val_main_v83_apply, val_main_v82_apply, val_main_v81_apply, val_main_v80_apply,
    val_main_v79_apply, val_main_v78_apply, val_main_v77_apply, val_main_v76_apply, val_main_v75_apply,
    val_main_v74_apply, val_main_cst_12_apply, val_main_v73_apply, val_main_v72_apply, e72, e77, e79, e82,
    var_eq, mean_eq]
  rfl

end Node

/-- The reference's second result, as a function of the argument arrays, is `Spec.nodeOut` of the receiver table and
    the messages summed per destination node.  (The reference adds nothing to the node numbers before the scatter, so
    their range is not used.) -/
theorem val117_eq (hin : Cert.Glue.InRange x2) :
    val_main_v117 (F := Ideal) x0 x1 x2 x3 x4 x5 x6 x7 x8 x9 x10 x11
      = Cert.Spec.nodeOut x1 (Cert.Glue.aggr (Cert.Glue.col (Cert.Glue.dstFlat x2)) (val_main_v49 (F := Ideal) x0 x1 x2 x3 x4 x5 x6 x7))
          x8 x9 x10 x11 := by
  rw [← Node.agg_eq x0 x1 x2 x3 x4 x5 x6 x7]
  funext i
  obtain ⟨n, j, rfl⟩ : ∃ n j, i = ix2 n j := ⟨i 0, i 1, eq_ix2 i⟩
  rw [val_main_v117_apply, Node.ln_eq]
  refine congrArg (x1 (ix2 n j) + ·) ?_
  unfold Cert.Spec.mlp
  refine congrArg (fun y => Cert.Spec.layerNorm y (fun j => x10 (ix1 j)) (fun j => x11 (ix1 j)) j) (funext fun k => ?_)
  rw [Node.act_eq, Node.lin_eq]

end Stages

end Cert.ReferenceIdeal.RefValue

end
-- ==== Proof.lean ====
/-
  The certificate of the graph-network layer: a sender block, an edge block and a receiver block, each a linear map
  with bias, silu twice, a layer norm over the 128 entries of a row and a residual add.

  The kernel program gathers the endpoint rows of every edge on the host, runs the edge block in one tiled kernel over
  blocks of 4000 edges (the linear map as three products against the three 128-column thirds of the edge weight),
  sums the new edge features per destination node on the host, and runs the receiver block (two products against the
  two halves of the node weight) and the sender block in two more tiled kernels over blocks of 5000 nodes.  The
  reference concatenates the rows and multiplies once.  On the extended reals the two are one function of the
  argument arrays (`Cert.Spec`): a sum over 384 (256) consecutive columns is the sum of the sums over its thirds
  (halves), and every other operation is the same operation on both sides.

  The statement carries one added precondition: every node number of the edge list is a row of the node tables
  (at least 0, below 100000).  Outside that range the two programs differ by construction: the reference's indexing
  clamps the number into the table while the kernel's `take` fills the row with a not-a-number; inside it both gather
  the same rows (the wrap of negative numbers is the identity and the fill is never selected).

  The three frames: the two kernel programs' are the generated frame certificates; the reference's is its run (every operation's result a stage
  of the arguments) with the results dropped.  The idealization rewrote nothing, so `preserves` is `True`.  The value claim: the kernel
  program's run with its three result buffers named (the launch theorem of the generated frame called once more), each
  buffer's contents read back to the arguments region by region (KSender, KEdge, KNode), against the reference's
  run over its stages, its three result stages read operation by operation (RSender, REdge, RNode); both meet in `Cert.Spec`.
-/
import proofs.«418128_j9191230013922_2_alg».proof.Defs
import proofs.«418128_j9191230013922_2_alg».proof.Proof.Gen.Kernel
import proofs.«418128_j9191230013922_2_alg».proof.Proof.Gen.Kernel.Skeleton
import proofs.«418128_j9191230013922_2_alg».proof.Proof.Gen.Kernel.Launch
import proofs.«418128_j9191230013922_2_alg».proof.Proof.Gen.Kernel.Points
import proofs.«418128_j9191230013922_2_alg».proof.Proof.Gen.Kernel.Frame
import proofs.«418128_j9191230013922_2_alg».proof.Proof.Gen.KernelIdeal
import proofs.«418128_j9191230013922_2_alg».proof.Proof.Gen.KernelIdeal.Skeleton
import proofs.«418128_j9191230013922_2_alg».proof.Proof.Gen.KernelIdeal.Launch
import proofs.«418128_j9191230013922_2_alg».proof.Proof.Gen.KernelIdeal.Points
import proofs.«418128_j9191230013922_2_alg».proof.Proof.Gen.KernelIdeal.Frame
import proofs.«418128_j9191230013922_2_alg».proof.Proof.Gen.ReferenceIdeal
import proofs.«418128_j9191230013922_2_alg».proof.Proof.RefRunStages
import proofs.«418128_j9191230013922_2_alg».proof.Proof.Gen.Pre_finite_inputs
import proofs.«418128_j9191230013922_2_alg».proof.Proof.Spec
import proofs.«418128_j9191230013922_2_alg».proof.Proof.Glue
import proofs.«418128_j9191230013922_2_alg».proof.Proof.PreIdx
import proofs.«418128_j9191230013922_2_alg».proof.Proof.KernelIdealNamed
import proofs.«418128_j9191230013922_2_alg».proof.Proof.KSender
import proofs.«418128_j9191230013922_2_alg».proof.Proof.KEdge
import proofs.«418128_j9191230013922_2_alg».proof.Proof.KNode
import proofs.«418128_j9191230013922_2_alg».proof.Proof.RSender
import proofs.«418128_j9191230013922_2_alg».proof.Proof.REdge
import proofs.«418128_j9191230013922_2_alg».proof.Proof.RNode
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments: the generated frame certificate. -/
theorem frame_kernel : Cert.frame_Kernel := fun m ρ _ => Cert.Kernel.Gen.frame m ρ

/-- The idealized kernel program runs and leaves its arguments: the generated frame certificate. -/
theorem frame_kernelIdeal : Cert.frame_KernelIdeal := fun m ρ _ => Cert.KernelIdeal.Gen.frame m ρ

/-- The idealized reference runs and leaves its arguments: its generated run, the three results dropped. -/
theorem frame_referenceIdeal : Cert.frame_ReferenceIdeal := fun m ρ _ =>
  (θ_run Cert.ReferenceIdeal.defs _ _).mono (fun _ h c => (h c).2.2.2) (Cert.ReferenceIdeal.StageRun.run (F := Ideal) m ρ)

/-- Under the precondition the edge list of the kernel program's launch memory is in range. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.Glue.InRange (m ((c.tc : Thread Cert.KernelIdeal.nD Cert.KernelIdeal.τ).loc Cert.KernelIdeal.main_arg2)) :=
  Cert.Glue.inRange_of_pre _ _ _ _ _ _ _ _ _ _ _ _ _ _ _ _ (hpre c)

/-- At the ideal instance, from memories agreeing on the arguments, both programs end with the sender, receiver and
    edge features of `Cert.Spec` in their three result buffers. -/
theorem algebraic : Cert.algebraic_KernelIdeal_ReferenceIdeal := by
  intro m ρ m' ρ' hpre hagree
  have hin := inRange_of_pre m hpre
  refine ⟨_, _, _,
    (θ_run Cert.KernelIdeal.defs _ _).mono (fun r h c =>
      ⟨(h c).1.trans (Cert.KernelIdeal.KValue.sender_result m ρ c),
       (h c).2.1.trans ((Cert.KernelIdeal.KValue.node_result m ρ c).trans
          (congrArg (fun p => Cert.Spec.nodeOut (m ((c.tc : Thread Cert.KernelIdeal.nD Cert.KernelIdeal.τ).loc Cert.KernelIdeal.main_arg1))
              (Cert.Glue.aggr (Cert.Glue.col (Cert.Glue.dstFlat (m ((c.tc : Thread Cert.KernelIdeal.nD Cert.KernelIdeal.τ).loc Cert.KernelIdeal.main_arg2)))) p)
              (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
            (Cert.KernelIdeal.KValue.edge_new m ρ c (hin c)))),
       (h c).2.2.1.trans (Cert.KernelIdeal.KValue.edge_result m ρ c (hin c)),
       (h c).2.2.2⟩) (Cert.KernelIdeal.Named.run_named m ρ), ?_⟩
  refine (θ_run Cert.ReferenceIdeal.defs _ _).mono (fun r h c => ?_) (Cert.ReferenceIdeal.StageRun.run (F := Ideal) m' ρ')
  obtain ⟨h0, h1, h2, hargs⟩ := h c
  obtain ⟨a0, a1, a2, a3, a4, a5, a6, a7, a8, a9, a10, a11, a12, a13, a14, a15⟩ := hagree c
  have hin' : Cert.Glue.InRange (m' ((c.tc : Thread Cert.ReferenceIdeal.nD Cert.ReferenceIdeal.τ).loc Cert.ReferenceIdeal.main_arg2)) := by
    rw [a2]; exact hin c
  refine ⟨h0.trans ?_, h1.trans ?_, h2.trans ?_, hargs⟩
  · refine (Cert.ReferenceIdeal.RefValue.val116_eq _ _ _ _ _).trans ?_
    rw [a0, a12, a13, a14, a15]
  · refine (Cert.ReferenceIdeal.RefValue.val117_eq _ _ _ _ _ _ _ _ _ _ _ _ hin').trans ?_
    rw [Cert.ReferenceIdeal.RefValue.edge_new_eq _ _ _ _ _ _ _ _ hin']
    rw [a0, a1, a2, a3, a4, a5, a6, a7, a8, a9, a10, a11]
  · refine (Cert.ReferenceIdeal.RefValue.val118_eq _ _ _ _ _ _ _ _ hin').trans ?_
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
